-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x384 : Shape := ⟨3, ![2048, 64, 384]⟩
abbrev S384 : Shape := ⟨1, ![384]⟩
abbrev S1152x384 : Shape := ⟨2, ![1152, 384]⟩
abbrev S384x384 : Shape := ⟨2, ![384, 384]⟩
abbrev S225x12 : Shape := ⟨2, ![225, 12]⟩
abbrev S64x64 : Shape := ⟨2, ![64, 64]⟩
abbrev S_ : Shape := ⟨0, ![]⟩

class Facts : Prop where
  bcast_S_S2048x64x384 : S_.BroadcastsInDim S2048x64x384 (![] : Fin 0 → Fin S2048x64x384.rank)
  reducesTo_S2048x64x384_S_d0_1_2 : S2048x64x384.ReducesTo [0, 1, 2] S_
  h_S_ : 0 < S_.numel
  bcast_S_S384 : S_.BroadcastsInDim S384 (![] : Fin 0 → Fin S384.rank)
  reducesTo_S384_S_d0 : S384.ReducesTo [0] S_
  bcast_S_S1152x384 : S_.BroadcastsInDim S1152x384 (![] : Fin 0 → Fin S1152x384.rank)
  reducesTo_S1152x384_S_d0_1 : S1152x384.ReducesTo [0, 1] S_
  bcast_S_S384x384 : S_.BroadcastsInDim S384x384 (![] : Fin 0 → Fin S384x384.rank)
  reducesTo_S384x384_S_d0_1 : S384x384.ReducesTo [0, 1] S_
  bcast_S_S225x12 : S_.BroadcastsInDim S225x12 (![] : Fin 0 → Fin S225x12.rank)
  reducesTo_S225x12_S_d0_1 : S225x12.ReducesTo [0, 1] S_

variable [Facts]

def fn_part1 {F : FTy → Type} [FloatOps F] (main_arg4 : FVec F S384x384 .f32) (main_arg5 : FVec F S384 .f32) (main_arg6 : FVec F S225x12 .f32) (main_v13 : IVec S_ 1) (main_v16 : IVec S1152x384 1) : IVec S_ 1 :=
  let main_c_5 : IVec S_ 1 := constantI S_ 1 1#1
  let main_v17 : IVec S_ 1 := (fun x v => Host.reduce IntOp.andi x v reducesTo_S1152x384_S_d0_1 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S225x12 .f32 := Host.absf main_arg6
  let main_cst_10 : FVec F S_ .f32 := constant S_ .f32 0x7F800000#32
  let main_v30 : FVec F S225x12 .f32 := broadcastInDim S225x12 ![] bcast_S_S225x12 main_cst_10
  let main_v31 : IVec S225x12 1 := cmpf .olt main_v29 main_v30
  let main_c_11 : IVec S_ 1 := constantI S_ 1 1#1
  let main_v32 : IVec S_ 1 := (fun x v => Host.reduce IntOp.andi x v reducesTo_S225x12_S_d0_1 h_S_) main_v31 main_c_11
  let main_v33 : IVec S_ 1 := andi main_v28 main_v32
  main_v33

def fn {F : FTy → Type} [FloatOps F] (main_arg0 : FVec F S2048x64x384 .f32) (main_arg1 : FVec F S384 .f32) (main_arg2 : FVec F S384 .f32) (main_arg3 : FVec F S1152x384 .f32) (main_arg4 : FVec F S384x384 .f32) (main_arg5 : FVec F S384 .f32) (main_arg6 : FVec F S225x12 .f32) (main_arg7 : IVec S64x64 32) : IVec S_ 1 :=
  let main_v0 : FVec F S2048x64x384 .f32 := Host.absf main_arg0
  let main_cst : FVec F S_ .f32 := constant S_ .f32 0x7F800000#32
  let main_v1 : FVec F S2048x64x384 .f32 := broadcastInDim S2048x64x384 ![] bcast_S_S2048x64x384 main_cst
  let main_v2 : IVec S2048x64x384 1 := cmpf .olt main_v0 main_v1
  let main_c : IVec S_ 1 := constantI S_ 1 1#1
  let main_v3 : IVec S_ 1 := (fun x v => Host.reduce IntOp.andi x v reducesTo_S2048x64x384_S_d0_1_2 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S1152x384 .f32 := Host.absf main_arg3
  let main_cst_4 : FVec F S_ .f32 := constant S_ .f32 0x7F800000#32
  let main_v15 : FVec F S1152x384 .f32 := broadcastInDim S1152x384 ![] bcast_S_S1152x384 main_cst_4
  let main_v16 : IVec S1152x384 1 := cmpf .olt main_v14 main_v15
  fn_part1 (F := F) main_arg4 main_arg5 main_arg6 main_v13 main_v16
-- ==== Kernel.lean ====
abbrev S2048x64x384 : Shape := ⟨3, ![2048, 64, 384]⟩
abbrev S384 : Shape := ⟨1, ![384]⟩
abbrev S1152x384 : Shape := ⟨2, ![1152, 384]⟩
abbrev S384x384 : Shape := ⟨2, ![384, 384]⟩
abbrev S225x12 : Shape := ⟨2, ![225, 12]⟩
abbrev S64x64 : Shape := ⟨2, ![64, 64]⟩
abbrev S_ : Shape := ⟨0, ![]⟩
abbrev S64x64x1 : Shape := ⟨3, ![64, 64, 1]⟩
abbrev S64x64x12 : Shape := ⟨3, ![64, 64, 12]⟩
abbrev S12x64x64 : Shape := ⟨3, ![12, 64, 64]⟩
abbrev S384x1152 : Shape := ⟨2, ![384, 1152]⟩
abbrev S1x384 : Shape := ⟨2, ![1, 384]⟩
abbrev S32x64x384 : Shape := ⟨3, ![32, 64, 384]⟩
abbrev S2048x384 : Shape := ⟨2, ![2048, 384]⟩
abbrev S2048 : Shape := ⟨1, ![2048]⟩
abbrev S2048x1 : Shape := ⟨2, ![2048, 1]⟩
abbrev S32x64x128 : Shape := ⟨3, ![32, 64, 128]⟩
abbrev S32x64x4x32 : Shape := ⟨4, ![32, 64, 4, 32]⟩
abbrev S32x4x64x32 : Shape := ⟨4, ![32, 4, 64, 32]⟩
abbrev S128x64x32 : Shape := ⟨3, ![128, 64, 32]⟩
abbrev S128x64x64 : Shape := ⟨3, ![128, 64, 64]⟩
abbrev S32x4x64x64 : Shape := ⟨4, ![32, 4, 64, 64]⟩
abbrev S4x64x64 : Shape := ⟨3, ![4, 64, 64]⟩
abbrev S1x4x64x64 : Shape := ⟨4, ![1, 4, 64, 64]⟩
abbrev S128x64 : Shape := ⟨2, ![128, 64]⟩
abbrev S128x64x1 : Shape := ⟨3, ![128, 64, 1]⟩

abbrev nBuf : Space → Nat
  | .hbm => 26
  | .vmem => 10
  | .smem => 0
  | _ => 0

abbrev bufTy : (tb : Table) → Fin (tcTables nBuf tb) → BufTy
  | .hbm, ⟨0, _⟩ => ⟨S2048x64x384, .f32⟩
  | .hbm, ⟨1, _⟩ => ⟨S384, .f32⟩
  | .hbm, ⟨2, _⟩ => ⟨S384, .f32⟩
  | .hbm, ⟨3, _⟩ => ⟨S1152x384, .f32⟩
  | .hbm, ⟨4, _⟩ => ⟨S384x384, .f32⟩
  | .hbm, ⟨5, _⟩ => ⟨S384, .f32⟩
  | .hbm, ⟨6, _⟩ => ⟨S225x12, .f32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i1⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64x1, .i32⟩
  | .hbm, ⟨16, _⟩ => ⟨S64x64x12, .f32⟩
  | .hbm, ⟨17, _⟩ => ⟨S12x64x64, .f32⟩
  | .hbm, ⟨18, _⟩ => ⟨S384x1152, .f32⟩
  | .hbm, ⟨19, _⟩ => ⟨S384x1152, .bf16⟩
  | .hbm, ⟨20, _⟩ => ⟨S384x384, .f32⟩
  | .hbm, ⟨21, _⟩ => ⟨S384x384, .bf16⟩
  | .hbm, ⟨22, _⟩ => ⟨S1x384, .f32⟩
  | .hbm, ⟨23, _⟩ => ⟨S1x384, .f32⟩
  | .hbm, ⟨24, _⟩ => ⟨S1x384, .f32⟩
  | .hbm, ⟨25, _⟩ => ⟨S2048x64x384, .f32⟩
  | .local _ .vmem, ⟨0, _⟩ => ⟨S32x64x384, .f32⟩
  | .local _ .vmem, ⟨1, _⟩ => ⟨S32x64x384, .f32⟩
  | .local _ .vmem, ⟨2, _⟩ => ⟨S1x384, .f32⟩
  | .local _ .vmem, ⟨3, _⟩ => ⟨S1x384, .f32⟩
  | .local _ .vmem, ⟨4, _⟩ => ⟨S384x1152, .bf16⟩
  | .local _ .vmem, ⟨5, _⟩ => ⟨S384x384, .bf16⟩
  | .local _ .vmem, ⟨6, _⟩ => ⟨S1x384, .f32⟩
  | .local _ .vmem, ⟨7, _⟩ => ⟨S12x64x64, .f32⟩
  | .local _ .vmem, ⟨8, _⟩ => ⟨S32x64x384, .f32⟩
  | .local _ .vmem, ⟨9, _⟩ => ⟨S32x64x384, .f32⟩
  | _, _ => ⟨S2048x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S64x64x12_S12x64x64_2_0_1 : S64x64x12.Transposes [2, 0, 1] S12x64x64
  transposes_S1152x384_S384x1152_1_0 : S1152x384.Transposes [1, 0] S384x1152
  bitsLt_bf16_f32 : FTy.bits .bf16 < FTy.bits .f32
  transposes_S384x384_S384x384_1_0 : S384x384.Transposes [1, 0] S384x384
  shapeCasts_S384_S1x384 : S384.ShapeCasts S1x384
  inb_S32x64x384_S32x64x384_0_0_0 : ∀ a, (![0, 0, 0] : Fin 3 → Nat) a + S32x64x384.size a ≤ S32x64x384.size a
  h_S32x64x384 : 0 < S32x64x384.numel
  shapeCasts_S32x64x384_S2048x384 : S32x64x384.ShapeCasts S2048x384
  reduces_S2048x384_S2048 : S2048x384.Reduces [1] S2048
  shapeCasts_S2048_S2048x1 : S2048.ShapeCasts S2048x1
  broadcasts_S2048x1_S2048x384 : S2048x1.Broadcasts S2048x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  inb_S384x1152_S384x384_0_0 : ∀ a, (![0, 0] : Fin 2 → Nat) a + S384x384.size a ≤ S384x1152.size a
  h_S384x384 : 0 < S384x384.numel
  shapeCasts_S384x384_S384x384 : S384x384.ShapeCasts S384x384
  shapeCasts_S2048x384_S32x64x384 : S2048x384.ShapeCasts S32x64x384
  inb_S384x1152_S384x384_0_384 : ∀ a, (![0, 384] : Fin 2 → Nat) a + S384x384.size a ≤ S384x1152.size a
  inb_S384x1152_S384x384_0_768 : ∀ a, (![0, 768] : Fin 2 → Nat) a + S384x384.size a ≤ S384x1152.size a
  inb_S12x64x64_S12x64x64_0_0_0 : ∀ a, (![0, 0, 0] : Fin 3 → Nat) a + S12x64x64.size a ≤ S12x64x64.size a
  h_S12x64x64 : 0 < S12x64x64.numel
  shapeCasts_S12x64x64_S12x64x64 : S12x64x64.ShapeCasts S12x64x64
  slices_S32x64x384_o0_0_0_S32x64x128 : S32x64x384.Slices ![0, 0, 0] S32x64x128
  shapeCasts_S32x64x128_S32x64x4x32 : S32x64x128.ShapeCasts S32x64x4x32
  transposes_S32x64x4x32_p0_2_1_3_S32x4x64x32 : S32x64x4x32.Transposes [0, 2, 1, 3] S32x4x64x32
  shapeCasts_S32x4x64x32_S128x64x32 : S32x4x64x32.ShapeCasts S128x64x32
  shapeCasts_S128x64x64_S32x4x64x64 : S128x64x64.ShapeCasts S32x4x64x64
  slices_S12x64x64_o0_0_0_S4x64x64 : S12x64x64.Slices ![0, 0, 0] S4x64x64
  shapeCasts_S4x64x64_S1x4x64x64 : S4x64x64.ShapeCasts S1x4x64x64
  broadcasts_S1x4x64x64_S32x4x64x64 : S1x4x64x64.Broadcasts S32x4x64x64
  shapeCasts_S32x4x64x64_S128x64x64 : S32x4x64x64.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S128x64x32_S32x4x64x32 : S128x64x32.ShapeCasts S32x4x64x32
  transposes_S32x4x64x32_p0_2_1_3_S32x64x4x32 : S32x4x64x32.Transposes [0, 2, 1, 3] S32x64x4x32
  shapeCasts_S32x64x4x32_S32x64x128 : S32x64x4x32.ShapeCasts S32x64x128
  slices_S32x64x384_o0_0_128_S32x64x128 : S32x64x384.Slices ![0, 0, 128] S32x64x128
  slices_S12x64x64_o4_0_0_S4x64x64 : S12x64x64.Slices ![4, 0, 0] S4x64x64
  slices_S32x64x384_o0_0_256_S32x64x128 : S32x64x384.Slices ![0, 0, 256] S32x64x128
  slices_S12x64x64_o8_0_0_S4x64x64 : S12x64x64.Slices ![8, 0, 0] S4x64x64
  concatenates_S32x64x128_S32x64x128_S32x64x128_S32x64x384_d2 : Shape.Concatenates [S32x64x128, S32x64x128, S32x64x128] S32x64x384 2
  inb_S384x384_S384x384_0_0 : ∀ a, (![0, 0] : Fin 2 → Nat) a + S384x384.size a ≤ S384x384.size a
  gather_S225x12_S64x64x1_S64x64x12_2_0_n_n_0_2_112_wf : GatherDims.WF S225x12 S64x64x1 S64x64x12 [2] [0] [] [0] [] 2 ![1, 12]
  dot_S2048x384_S384x384_S2048x384_1_0_0_1_n_n_wf : DotDims.WF S2048x384 S384x384 S2048x384 [1] [0] [0] [1] [] []
  dot_S128x64x32_S128x64x32_S128x64x64_2_2_1_1_0_0_wf : DotDims.WF S128x64x32 S128x64x32 S128x64x64 [2] [2] [1] [1] [0] [0]
  dot_S128x64x64_S128x64x32_S128x64x32_2_1_1_2_0_0_wf : DotDims.WF S128x64x64 S128x64x32 S128x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x384.size a ≤ S2048x64x384.size a
  hwx0_0 : ∀ i : grid0.Coords, EltTy.bits .f32 = 32 ∨ (Rect.block (s := S2048x64x384) S32x64x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x1152.size a ≤ S384x1152.size a
  hwx0_3 : ∀ i : grid0.Coords, EltTy.bits .bf16 = 32 ∨ (Rect.block (s := S384x1152) S384x1152.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .bf16 = 32 ∨ (Rect.block (s := S384x384) S384x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x64x64.size a ≤ S12x64x64.size a
  hwx0_6 : ∀ i : grid0.Coords, EltTy.bits .f32 = 32 ∨ (Rect.block (s := S12x64x64) S12x64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x64x384.size a ≤ S2048x64x384.size a
  hwx0_7 : ∀ i : grid0.Coords, EltTy.bits .f32 = 32 ∨ (Rect.block (s := S2048x64x384) S32x64x384.size (cc0_transform_7 i) (hinb0_7 i)).WholeWords (EltTy.packing .f32)

variable [Facts₀]

def gather_S225x12_S64x64x1_S64x64x12_2_0_n_n_0_2_112 : GatherDims S225x12 S64x64x1 S64x64x12 where
  offsetDims := [2]
  collapsedSliceDims := [0]
  operandBatchingDims := []
  startIndicesBatchingDims := []
  startIndexMap := [0]
  indexVectorDim := 2
  sliceSizes := ![1, 12]
  wf := gather_S225x12_S64x64x1_S64x64x12_2_0_n_n_0_2_112_wf
def dot_S2048x384_S384x384_S2048x384_1_0_0_1_n_n : DotDims S2048x384 S384x384 S2048x384 where
  lhsContracting := [1]
  rhsContracting := [0]
  lhsNonContracting := [0]
  rhsNonContracting := [1]
  lhsBatch := []
  rhsBatch := []
  wf := dot_S2048x384_S384x384_S2048x384_1_0_0_1_n_n_wf
def dot_S128x64x32_S128x64x32_S128x64x64_2_2_1_1_0_0 : DotDims S128x64x32 S128x64x32 S128x64x64 where
  lhsContracting := [2]
  rhsContracting := [2]
  lhsNonContracting := [1]
  rhsNonContracting := [1]
  lhsBatch := [0]
  rhsBatch := [0]
  wf := dot_S128x64x32_S128x64x32_S128x64x64_2_2_1_1_0_0_wf
def dot_S128x64x64_S128x64x32_S128x64x32_2_1_1_2_0_0 : DotDims S128x64x64 S128x64x32 S128x64x32 where
  lhsContracting := [2]
  rhsContracting := [1]
  lhsNonContracting := [1]
  rhsNonContracting := [2]
  lhsBatch := [0]
  rhsBatch := [0]
  wf := dot_S128x64x64_S128x64x32_S128x64x32_2_1_1_2_0_0_wf

abbrev win0_0 : Pipeline.Window sig grid0 :=
  Pipeline.Window.ofSpec (Memref.whole main_arg0) S32x64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S384x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S12x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S32x64x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x64x384 : Shape := ⟨3, ![2048, 64, 384]⟩
abbrev S384 : Shape := ⟨1, ![384]⟩
abbrev S1152x384 : Shape := ⟨2, ![1152, 384]⟩
abbrev S384x384 : Shape := ⟨2, ![384, 384]⟩
abbrev S225x12 : Shape := ⟨2, ![225, 12]⟩
abbrev S64x64 : Shape := ⟨2, ![64, 64]⟩
abbrev S_ : Shape := ⟨0, ![]⟩
abbrev S2048x64 : Shape := ⟨2, ![2048, 64]⟩
abbrev S2048x64x1 : Shape := ⟨3, ![2048, 64, 1]⟩
abbrev S1x1x384 : Shape := ⟨3, ![1, 1, 384]⟩
abbrev S2048x64x1152 : Shape := ⟨3, ![2048, 64, 1152]⟩
abbrev S2048x64x3x12x32 : Shape := ⟨5, ![2048, 64, 3, 12, 32]⟩
abbrev S2048x64x1x12x32 : Shape := ⟨5, ![2048, 64, 1, 12, 32]⟩
abbrev S2048x64x12x32 : Shape := ⟨4, ![2048, 64, 12, 32]⟩
abbrev S2048x12x64x32 : Shape := ⟨4, ![2048, 12, 64, 32]⟩
abbrev S2048x12x64x64 : Shape := ⟨4, ![2048, 12, 64, 64]⟩
abbrev S64x64x1 : Shape := ⟨3, ![64, 64, 1]⟩
abbrev S64x64x12 : Shape := ⟨3, ![64, 64, 12]⟩
abbrev S12x64x64 : Shape := ⟨3, ![12, 64, 64]⟩
abbrev S1x12x64x64 : Shape := ⟨4, ![1, 12, 64, 64]⟩
abbrev S2048x12x64 : Shape := ⟨3, ![2048, 12, 64]⟩
abbrev S2048x12x64x1 : Shape := ⟨4, ![2048, 12, 64, 1]⟩

abbrev nBuf : Space → Nat
  | .hbm => 101
  | .vmem => 0
  | .smem => 0
  | _ => 0

abbrev bufTy : (tb : Table) → Fin (tcTables nBuf tb) → BufTy
  | .hbm, ⟨0, _⟩ => ⟨S2048x64x384, .f32⟩
  | .hbm, ⟨1, _⟩ => ⟨S384, .f32⟩
  | .hbm, ⟨2, _⟩ => ⟨S384, .f32⟩
  | .hbm, ⟨3, _⟩ => ⟨S1152x384, .f32⟩
  | .hbm, ⟨4, _⟩ => ⟨S384x384, .f32⟩
  | .hbm, ⟨5, _⟩ => ⟨S384, .f32⟩
  | .hbm, ⟨6, _⟩ => ⟨S225x12, .f32⟩
  | .hbm, ⟨7, _⟩ => ⟨S64x64, .i32⟩
  | .hbm, ⟨8, _⟩ => ⟨S_, .f32⟩
  | .hbm, ⟨9, _⟩ => ⟨S2048x64, .f32⟩
  | .hbm, ⟨10, _⟩ => ⟨S2048x64x1, .f32⟩
  | .hbm, ⟨11, _⟩ => ⟨S_, .f32⟩
  | .hbm, ⟨12, _⟩ => ⟨S2048x64x1, .f32⟩
  | .hbm, ⟨13, _⟩ => ⟨S2048x64x1, .f32⟩
  | .hbm, ⟨14, _⟩ => ⟨S_, .i32⟩
  | .hbm, ⟨15, _⟩ => ⟨S_, .f32⟩
  | .hbm, ⟨16, _⟩ => ⟨S2048x64, .f32⟩
  | .hbm, ⟨17, _⟩ => ⟨S2048x64x1, .f32⟩
  | .hbm, ⟨18, _⟩ => ⟨S_, .f32⟩
  | .hbm, ⟨19, _⟩ => ⟨S2048x64x1, .f32⟩
  | .hbm, ⟨20, _⟩ => ⟨S2048x64x1, .f32⟩
  | .hbm, ⟨21, _⟩ => ⟨S2048x64x384, .f32⟩
  | .hbm, ⟨22, _⟩ => ⟨S2048x64x384, .f32⟩
  | .hbm, ⟨23, _⟩ => ⟨S2048x64x384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x64, .f32⟩
  | .hbm, ⟨29, _⟩ => ⟨S2048x64x1, .f32⟩
  | .hbm, ⟨30, _⟩ => ⟨S2048x64x1, .f32⟩
  | .hbm, ⟨31, _⟩ => ⟨S2048x64x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S2048x64x1, .f32⟩
  | .hbm, ⟨37, _⟩ => ⟨S2048x64x1, .f32⟩
  | .hbm, ⟨38, _⟩ => ⟨S2048x64x384, .f32⟩
  | .hbm, ⟨39, _⟩ => ⟨S2048x64x384, .f32⟩
  | .hbm, ⟨40, _⟩ => ⟨S_, .f32⟩
  | .hbm, ⟨41, _⟩ => ⟨S2048x64x1, .f32⟩
  | .hbm, ⟨42, _⟩ => ⟨S2048x64x1, .f32⟩
  | .hbm, ⟨43, _⟩ => ⟨S2048x64x1, .f32⟩
  | .hbm, ⟨44, _⟩ => ⟨S2048x64x384, .f32⟩
  | .hbm, ⟨45, _⟩ => ⟨S2048x64x384, .f32⟩
  | .hbm, ⟨46, _⟩ => ⟨S1x1x384, .f32⟩
  | .hbm, ⟨47, _⟩ => ⟨S2048x64x384, .f32⟩
  | .hbm, ⟨48, _⟩ => ⟨S2048x64x384, .f32⟩
  | .hbm, ⟨49, _⟩ => ⟨S1x1x384, .f32⟩
  | .hbm, ⟨50, _⟩ => ⟨S2048x64x384, .f32⟩
  | .hbm, ⟨51, _⟩ => ⟨S2048x64x384, .f32⟩
  | .hbm, ⟨52, _⟩ => ⟨S2048x64x1152, .f32⟩
  | .hbm, ⟨53, _⟩ => ⟨S2048x64x3x12x32, .f32⟩
  | .hbm, ⟨54, _⟩ => ⟨S2048x64x1x12x32, .f32⟩
  | .hbm, ⟨55, _⟩ => ⟨S2048x64x12x32, .f32⟩
  | .hbm, ⟨56, _⟩ => ⟨S2048x12x64x32, .f32⟩
  | .hbm, ⟨57, _⟩ => ⟨S2048x64x1x12x32, .f32⟩
  | .hbm, ⟨58, _⟩ => ⟨S2048x64x12x32, .f32⟩
  | .hbm, ⟨59, _⟩ => ⟨S2048x12x64x32, .f32⟩
  | .hbm, ⟨60, _⟩ => ⟨S2048x64x1x12x32, .f32⟩
  | .hbm, ⟨61, _⟩ => ⟨S2048x64x12x32, .f32⟩
  | .hbm, ⟨62, _⟩ => ⟨S2048x12x64x32, .f32⟩
  | .hbm, ⟨63, _⟩ => ⟨S_, .f32⟩
  | .hbm, ⟨64, _⟩ => ⟨S2048x12x64x32, .f32⟩
  | .hbm, ⟨65, _⟩ => ⟨S2048x12x64x32, .f32⟩
  | .hbm, ⟨66, _⟩ => ⟨S2048x12x64x64, .f32⟩
  | .hbm, ⟨67, _⟩ => ⟨S_, .i32⟩
  | .hbm, ⟨68, _⟩ => ⟨S64x64, .i32⟩
  | .hbm, ⟨69, _⟩ => ⟨S64x64, .i1⟩
  | .hbm, ⟨70, _⟩ => ⟨S_, .i32⟩
  | .hbm, ⟨71, _⟩ => ⟨S64x64, .i32⟩
  | .hbm, ⟨72, _⟩ => ⟨S64x64, .i32⟩
  | .hbm, ⟨73, _⟩ => ⟨S64x64, .i32⟩
  | .hbm, ⟨74, _⟩ => ⟨S64x64x1, .i32⟩
  | .hbm, ⟨75, _⟩ => ⟨S64x64x12, .f32⟩
  | .hbm, ⟨76, _⟩ => ⟨S12x64x64, .f32⟩
  | .hbm, ⟨77, _⟩ => ⟨S1x12x64x64, .f32⟩
  | .hbm, ⟨78, _⟩ => ⟨S2048x12x64x64, .f32⟩
  | .hbm, ⟨79, _⟩ => ⟨S2048x12x64x64, .f32⟩
  | .hbm, ⟨80, _⟩ => ⟨S_, .f32⟩
  | .hbm, ⟨81, _⟩ => ⟨S2048x12x64, .f32⟩
  | .hbm, ⟨82, _⟩ => ⟨S_, .f32⟩
  | .hbm, ⟨83, _⟩ => ⟨S2048x12x64, .f32⟩
  | .hbm, ⟨84, _⟩ => ⟨S2048x12x64, .f32⟩
  | .hbm, ⟨85, _⟩ => ⟨S2048x12x64x1, .f32⟩
  | .hbm, ⟨86, _⟩ => ⟨S2048x12x64x64, .f32⟩
  | .hbm, ⟨87, _⟩ => ⟨S2048x12x64x64, .f32⟩
  | .hbm, ⟨88, _⟩ => ⟨S2048x12x64x64, .f32⟩
  | .hbm, ⟨89, _⟩ => ⟨S_, .f32⟩
  | .hbm, ⟨90, _⟩ => ⟨S2048x12x64, .f32⟩
  | .hbm, ⟨91, _⟩ => ⟨S2048x12x64x1, .f32⟩
  | .hbm, ⟨92, _⟩ => ⟨S2048x12x64x64, .f32⟩
  | .hbm, ⟨93, _⟩ => ⟨S2048x12x64x64, .f32⟩
  | .hbm, ⟨94, _⟩ => ⟨S2048x12x64x32, .f32⟩
  | .hbm, ⟨95, _⟩ => ⟨S2048x64x12x32, .f32⟩
  | .hbm, ⟨96, _⟩ => ⟨S2048x64x384, .f32⟩
  | .hbm, ⟨97, _⟩ => ⟨S2048x64x384, .f32⟩
  | .hbm, ⟨98, _⟩ => ⟨S1x1x384, .f32⟩
  | .hbm, ⟨99, _⟩ => ⟨S2048x64x384, .f32⟩
  | .hbm, ⟨100, _⟩ => ⟨S2048x64x384, .f32⟩
  | _, _ => ⟨S2048x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_3 : Ref sig .tc := ⟨.hbm, 67, rfl⟩
abbrev main_v32 : Ref sig .tc := ⟨.hbm, 68, rfl⟩
abbrev main_v33 : Ref sig .tc := ⟨.hbm, 69, rfl⟩
abbrev main_c_4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_5 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_7 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩

abbrev nD : Nat := 1
abbrev τ : Topo := Topo.v7x

variable {F : FTy → Type} [FloatOps F]

class Facts₀ : Prop where
  reducesTo_S2048x64x384_S2048x64_d2 : S2048x64x384.ReducesTo [2] S2048x64
  h_S_ : 0 < S_.numel
  bcast_S2048x64_S2048x64x1_0_1 : S2048x64.BroadcastsInDim S2048x64x1 (![0, 1] : Fin 2 → Fin S2048x64x1.rank)
  bcast_S_S2048x64x1 : S_.BroadcastsInDim S2048x64x1 (![] : Fin 0 → Fin S2048x64x1.rank)
  bcast_S2048x64x1_S2048x64x384_0_1_2 : S2048x64x1.BroadcastsInDim S2048x64x384 (![0, 1, 2] : Fin 3 → Fin S2048x64x384.rank)
  bcast_S384_S1x1x384_2 : S384.BroadcastsInDim S1x1x384 (![2] : Fin 1 → Fin S1x1x384.rank)
  bcast_S1x1x384_S2048x64x384_0_1_2 : S1x1x384.BroadcastsInDim S2048x64x384 (![0, 1, 2] : Fin 3 → Fin S2048x64x384.rank)
  shapeCasts_S2048x64x1152_S2048x64x3x12x32 : S2048x64x1152.ShapeCasts S2048x64x3x12x32
  slices_S2048x64x3x12x32_S2048x64x1x12x32_0_0_0_0_0 : S2048x64x3x12x32.Slices ![0, 0, 0, 0, 0] S2048x64x1x12x32
  shapeCasts_S2048x64x1x12x32_S2048x64x12x32 : S2048x64x1x12x32.ShapeCasts S2048x64x12x32
  transposes_S2048x64x12x32_S2048x12x64x32_0_2_1_3 : S2048x64x12x32.Transposes [0, 2, 1, 3] S2048x12x64x32
  slices_S2048x64x3x12x32_S2048x64x1x12x32_0_0_1_0_0 : S2048x64x3x12x32.Slices ![0, 0, 1, 0, 0] S2048x64x1x12x32
  slices_S2048x64x3x12x32_S2048x64x1x12x32_0_0_2_0_0 : S2048x64x3x12x32.Slices ![0, 0, 2, 0, 0] S2048x64x1x12x32
  bcast_S_S2048x12x64x32 : S_.BroadcastsInDim S2048x12x64x32 (![] : Fin 0 → Fin S2048x12x64x32.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S64x64x12_S12x64x64_2_0_1 : S64x64x12.Transposes [2, 0, 1] S12x64x64
  bcast_S12x64x64_S1x12x64x64_1_2_3 : S12x64x64.BroadcastsInDim S1x12x64x64 (![1, 2, 3] : Fin 3 → Fin S1x12x64x64.rank)
  bcast_S1x12x64x64_S2048x12x64x64_0_1_2_3 : S1x12x64x64.BroadcastsInDim S2048x12x64x64 (![0, 1, 2, 3] : Fin 4 → Fin S2048x12x64x64.rank)
  reducesTo_S2048x12x64x64_S2048x12x64_d3 : S2048x12x64x64.ReducesTo [3] S2048x12x64
  bcast_S_S2048x12x64 : S_.BroadcastsInDim S2048x12x64 (![] : Fin 0 → Fin S2048x12x64.rank)
  bcast_S2048x12x64_S2048x12x64x1_0_1_2 : S2048x12x64.BroadcastsInDim S2048x12x64x1 (![0, 1, 2] : Fin 3 → Fin S2048x12x64x1.rank)
  bcast_S2048x12x64x1_S2048x12x64x64_0_1_2_3 : S2048x12x64x1.BroadcastsInDim S2048x12x64x64 (![0, 1, 2, 3] : Fin 4 → Fin S2048x12x64x64.rank)
  transposes_S2048x12x64x32_S2048x64x12x32_0_2_1_3 : S2048x12x64x32.Transposes [0, 2, 1, 3] S2048x64x12x32
  shapeCasts_S2048x64x12x32_S2048x64x384 : S2048x64x12x32.ShapeCasts S2048x64x384
  dot_S2048x64x384_S1152x384_S2048x64x1152_2_1_01_0_n_n_wf : DotDims.WF S2048x64x384 S1152x384 S2048x64x1152 [2] [1] [0, 1] [0] [] []
  dot_S2048x12x64x32_S2048x12x64x32_S2048x12x64x64_3_3_2_2_01_01_wf : DotDims.WF S2048x12x64x32 S2048x12x64x32 S2048x12x64x64 [3] [3] [2] [2] [0, 1] [0, 1]
  gather_S225x12_S64x64x1_S64x64x12_2_0_n_n_0_2_112_wf : GatherDims.WF S225x12 S64x64x1 S64x64x12 [2] [0] [] [0] [] 2 ![1, 12]
  dot_S2048x12x64x64_S2048x12x64x32_S2048x12x64x32_3_2_2_3_01_01_wf : DotDims.WF S2048x12x64x64 S2048x12x64x32 S2048x12x64x32 [3] [2] [2] [3] [0, 1] [0, 1]
  dot_S2048x64x384_S384x384_S2048x64x384_2_1_01_0_n_n_wf : DotDims.WF S2048x64x384 S384x384 S2048x64x384 [2] [1] [0, 1] [0] [] []

variable [Facts₀]

def dot_S2048x64x384_S1152x384_S2048x64x1152_2_1_01_0_n_n : DotDims S2048x64x384 S1152x384 S2048x64x1152 where
  lhsContracting := [2]
  rhsContracting := [1]
  lhsNonContracting := [0, 1]
  rhsNonContracting := [0]
  lhsBatch := []
  rhsBatch := []
  wf := dot_S2048x64x384_S1152x384_S2048x64x1152_2_1_01_0_n_n_wf
def dot_S2048x12x64x32_S2048x12x64x32_S2048x12x64x64_3_3_2_2_01_01 : DotDims S2048x12x64x32 S2048x12x64x32 S2048x12x64x64 where
  lhsContracting := [3]
  rhsContracting := [3]
  lhsNonContracting := [2]
  rhsNonContracting := [2]
  lhsBatch := [0, 1]
  rhsBatch := [0, 1]
  wf := dot_S2048x12x64x32_S2048x12x64x32_S2048x12x64x64_3_3_2_2_01_01_wf
def gather_S225x12_S64x64x1_S64x64x12_2_0_n_n_0_2_112 : GatherDims S225x12 S64x64x1 S64x64x12 where
  offsetDims := [2]
  collapsedSliceDims := [0]
  operandBatchingDims := []
  startIndicesBatchingDims := []
  startIndexMap := [0]
  indexVectorDim := 2
  sliceSizes := ![1, 12]
  wf := gather_S225x12_S64x64x1_S64x64x12_2_0_n_n_0_2_112_wf
def dot_S2048x12x64x64_S2048x12x64x32_S2048x12x64x32_3_2_2_3_01_01 : DotDims S2048x12x64x64 S2048x12x64x32 S2048x12x64x32 where
  lhsContracting := [3]
  rhsContracting := [2]
  lhsNonContracting := [2]
  rhsNonContracting := [3]
  lhsBatch := [0, 1]
  rhsBatch := [0, 1]
  wf := dot_S2048x12x64x64_S2048x12x64x32_S2048x12x64x32_3_2_2_3_01_01_wf
def dot_S2048x64x384_S384x384_S2048x64x384_2_1_01_0_n_n : DotDims S2048x64x384 S384x384 S2048x64x384 where
  lhsContracting := [2]
  rhsContracting := [1]
  lhsNonContracting := [0, 1]
  rhsNonContracting := [0]
  lhsBatch := []
  rhsBatch := []
  wf := dot_S2048x64x384_S384x384_S2048x64x384_2_1_01_0_n_n_wf

class Facts : Prop extends Facts₀ where

variable [Facts]
-- ==== Proof.Spec.lean ====
/-
  The function both programs compute, written once over plain coordinates.

  One attention window is a table x[n, c] of 64 tokens by 384 channels.  Each token is normalised over its
  channels (mean and variance divide by the word for 384, a variance offset eps is added under the reciprocal
  square root, then scale g and shift b per channel), projected by the rows of W (1152 rows: 384 for the
  queries, 384 for the keys, 384 for the values; inside each third, head h owns lanes 32 h … 32 h + 31), the
  queries are multiplied by the scale word, the score of tokens (n, m) under head h is the sum over the 32 lanes
  of query(n) · key(m) plus a bias entry bias[h, n, m], each score row is turned into weights by the shifted
  exponential divided by its row sum (the shift is the row maximum, folded from the word for minus infinity),
  the weights average the values, and the 384 lanes so obtained are projected by Wo and shifted by bo.

  Everything is stated for a batch of NB windows; a window's result depends on that window's rows of x only
  (out_local), which is what lets a block of 32 windows be computed alone.
-/
import Idealize.ShloMosaic.PureOps.Ideal
import Idealize.ShloMosaic.Lib.ValueIdx

noncomputable section

open scoped BigOperators

namespace Cert.Spec

open Idealize.ShloMosaic

/-- The word for 384.0, the divisor of the mean and of the variance. -/
abbrev c384 : EReal := Ideal.ofBits .f32 0x43C00000#32
/-- The variance offset (the float nearest 1e-5). -/
abbrev eps : EReal := Ideal.ofBits .f32 0x3727C5AC#32
/-- The score scale (the float nearest 1/sqrt 32); the same word on both sides, never evaluated. -/
abbrev scale : EReal := Ideal.ofBits .f32 0x3E3504F3#32
/-- Minus infinity's word, the start of every row maximum. -/
abbrev ninf : EReal := Ideal.ofBits .f32 0xFF800000#32

/-- Lane 32 h + d of a 384-lane third. -/
abbrev lane (h : Fin 12) (d : Fin 32) : Fin 384 := ⟨h.val * 32 + d.val, by omega⟩
/-- Row of W holding query lane e, key lane e, value lane e. -/
abbrev qRow (e : Fin 384) : Fin 1152 := ⟨e.val, by omega⟩
abbrev kRow (e : Fin 384) : Fin 1152 := ⟨384 + e.val, by omega⟩
abbrev vRow (e : Fin 384) : Fin 1152 := ⟨768 + e.val, by omega⟩
/-- The head that owns lane e. -/
abbrev headOf (e : Fin 384) : Fin 12 := ⟨e.val / 32, by omega⟩

/-- One row of attention: scores S over 64 tokens become weights (exponential shifted by the row maximum, over the
    row sum) that average the values V. -/
def softAvg (S V : Fin 64 → EReal) : EReal :=
  ∑ m : Fin 64,
    Ideal.div (Ideal.exp (S m - (Finset.univ : Finset (Fin 64)).fold max ninf S))
      (∑ m' : Fin 64, Ideal.exp (S m' - (Finset.univ : Finset (Fin 64)).fold max ninf S)) * V m

/-- Three 128-lane slabs side by side, read at lane e of 384. -/
def cat3 (a0 a1 a2 : Fin 128 → EReal) (e : Fin 384) : EReal :=
  if h : e.val < 128 then a0 ⟨e.val, h⟩
  else if h2 : e.val < 256 then a1 ⟨e.val - 128, by omega⟩ else a2 ⟨e.val - 256, by omega⟩

section
variable {NB : ℕ} (x : Fin NB → Fin 64 → Fin 384 → EReal) (g b : Fin 384 → EReal)
  (W : Fin 1152 → Fin 384 → EReal) (Wo : Fin 384 → Fin 384 → EReal) (bo : Fin 384 → EReal)
  (bias : Fin 12 → Fin 64 → Fin 64 → EReal)

/-- The mean of token (B, n) over its channels. -/
def mean (B : Fin NB) (n : Fin 64) : EReal := Ideal.div (∑ c : Fin 384, x B n c) c384
/-- The centred entry. -/
def cen (B : Fin NB) (n : Fin 64) (c : Fin 384) : EReal := x B n c - mean x B n
/-- The variance of token (B, n). -/
def var (B : Fin NB) (n : Fin 64) : EReal := Ideal.div (∑ c : Fin 384, cen x B n c * cen x B n c) c384
/-- The normalised, scaled and shifted entry. -/
def xn (B : Fin NB) (n : Fin 64) (c : Fin 384) : EReal :=
  cen x B n c * Ideal.rsqrt (var x B n + eps) * g c + b c
/-- Row e of W applied to token (B, n). -/
def proj (B : Fin NB) (n : Fin 64) (e : Fin 1152) : EReal := ∑ c : Fin 384, xn x g b B n c * W e c
/-- The score of tokens (n, m) under head h, bias included. -/
def score (B : Fin NB) (h : Fin 12) (n m : Fin 64) : EReal :=
  (∑ d : Fin 32, (proj x g b W B n (qRow (lane h d)) * scale) * proj x g b W B m (kRow (lane h d))) + bias h n m
/-- The row maximum. -/
def smax (B : Fin NB) (h : Fin 12) (n : Fin 64) : EReal :=
  (Finset.univ : Finset (Fin 64)).fold max ninf (fun m => score x g b W bias B h n m)
/-- The shifted exponential. -/
def ex (B : Fin NB) (h : Fin 12) (n m : Fin 64) : EReal :=
  Ideal.exp (score x g b W bias B h n m - smax x g b W bias B h n)
/-- The row sum of the exponentials. -/
def den (B : Fin NB) (h : Fin 12) (n : Fin 64) : EReal := ∑ m : Fin 64, ex x g b W bias B h n m
/-- The attention weight. -/
def prob (B : Fin NB) (h : Fin 12) (n m : Fin 64) : EReal :=
  Ideal.div (ex x g b W bias B h n m) (den x g b W bias B h n)
/-- Lane e of the averaged values of token (B, n). -/
def attn (B : Fin NB) (n : Fin 64) (e : Fin 384) : EReal :=
  ∑ m : Fin 64, prob x g b W bias B (headOf e) n m * proj x g b W B m (vRow e)
/-- The result. -/
def out (B : Fin NB) (n : Fin 64) (c : Fin 384) : EReal :=
  (∑ e : Fin 384, attn x g b W bias B n e * Wo c e) + bo c

/-- Lane e of the averaged values, as the row average it is. -/
theorem attn_eq_softAvg (B : Fin NB) (n : Fin 64) (e : Fin 384) :
    attn x g b W bias B n e
      = softAvg (fun m => score x g b W bias B (headOf e) n m) (fun m => proj x g b W B m (vRow e)) := rfl

end

/-- A window's result reads only that window's rows: the batch may be cut anywhere. -/
theorem out_local {NB NB' : ℕ} (x : Fin NB → Fin 64 → Fin 384 → EReal) (x' : Fin NB' → Fin 64 → Fin 384 → EReal)
    (g b : Fin 384 → EReal) (W : Fin 1152 → Fin 384 → EReal) (Wo : Fin 384 → Fin 384 → EReal) (bo : Fin 384 → EReal)
    (bias : Fin 12 → Fin 64 → Fin 64 → EReal) (B : Fin NB) (B' : Fin NB') (hx : x B = x' B') (n : Fin 64) (c : Fin 384) :
    out x g b W Wo bo bias B n c = out x' g b W Wo bo bias B' n c := by
  simp only [out, attn, prob, den, ex, smax, score, proj, xn, var, cen, mean, hx]

end Cert.Spec

end
-- ==== Proof.KerDefs.lean ====
/-
  The kernel body's three head groups are one computation at three lane offsets.  This module names its pieces:
  `heads` takes 128 consecutive lanes of a [32, 64, 384] table (4 heads of 32 lanes) to the layout
  (4 · window + head, token, lane); `unheads` is the way back for a [128, 64, 32] result; `bias4` takes four
  consecutive heads of the bias; `gScores` is queries against keys plus bias, `gExp` the exponentials shifted by
  the row maximum, `gProb` the weights, `gCore` the weights applied to the values.  The three group payloads of the
  body are these, composed (pay7_eq, pay11_eq, pay12_eq: the two sides unfold to the same operations).
-/
import proofs.«430181_j71193377899400_3_alg».proof.Proof.Gen.KernelIdeal.Skeleton
import Idealize.ShloMosaic.PureOps.Ideal

noncomputable section

namespace Cert.KerValue

open Idealize.ShloMosaic Cert.KernelIdeal Cert.KernelIdeal.Gen

/-- Lanes o … o + 127 of a table, regrouped head-major. -/
def heads (o : ℕ) (hs : S32x64x384.Slices ![0, 0, o] S32x64x128) (t : FVec Ideal S32x64x384 .bf16) : FVec Ideal S128x64x32 .bf16 :=
  shapeCast S128x64x32
    (transpose S32x4x64x32 [0, 2, 1, 3]
      (shapeCast S32x64x4x32 (extractStridedSlice S32x64x128 ![0, 0, o] t hs) shapeCasts_S32x64x128_S32x64x4x32)
      transposes_S32x64x4x32_p0_2_1_3_S32x4x64x32)
    shapeCasts_S32x4x64x32_S128x64x32

/-- A head-major result back to (window, token, 128 lanes). -/
def unheads (r : FVec Ideal S128x64x32 .f32) : FVec Ideal S32x64x128 .f32 :=
  shapeCast S32x64x128
    (transpose S32x64x4x32 [0, 2, 1, 3] (shapeCast S32x4x64x32 r shapeCasts_S128x64x32_S32x4x64x32)
      transposes_S32x4x64x32_p0_2_1_3_S32x64x4x32)
    shapeCasts_S32x64x4x32_S32x64x128

/-- Heads o … o + 3 of the bias. -/
def bias4 (o : ℕ) (hb : S12x64x64.Slices ![o, 0, 0] S4x64x64) (bias : FVec Ideal S12x64x64 .f32) : FVec Ideal S4x64x64 .f32 :=
  extractStridedSlice S4x64x64 ![o, 0, 0] bias hb

/-- Queries against keys over a head's 32 lanes, plus the bias of that head. -/
def gScores (qh kh : FVec Ideal S128x64x32 .bf16) (b4 : FVec Ideal S4x64x64 .f32) : FVec Ideal S128x64x64 .f32 :=
  shapeCast S128x64x64
    (addf
      (shapeCast S32x4x64x64
        (matmul dot_S128x64x32_S128x64x32_S128x64x64_2_2_1_1_0_0 none qh kh (constant S128x64x64 .f32 0x00000000#32))
        shapeCasts_S128x64x64_S32x4x64x64)
      (broadcastTo S32x4x64x64 (shapeCast S1x4x64x64 b4 shapeCasts_S4x64x64_S1x4x64x64) broadcasts_S1x4x64x64_S32x4x64x64))
    shapeCasts_S32x4x64x64_S128x64x64

/-- The exponentials of the scores shifted by their row maximum. -/
def gExp (s : FVec Ideal S128x64x64 .f32) : FVec Ideal S128x64x64 .f32 :=
  exp (subf s
    (broadcastTo S128x64x64
      (shapeCast S128x64x1 (multiReduction .maximumf [2] S128x64 s 0xFF800000#32 reduces_S128x64x64_S128x64 (.inl rfl) rfl)
        shapeCasts_S128x64_S128x64x1)
      broadcasts_S128x64x1_S128x64x64))

/-- The weights: each exponential over its row sum. -/
def gProb (s : FVec Ideal S128x64x64 .f32) : FVec Ideal S128x64x64 .bf16 :=
  truncf .bf16
    (divf (gExp s)
      (broadcastTo S128x64x64
        (shapeCast S128x64x1 (multiReduction .add [2] S128x64 (gExp s) 0x00000000#32 reduces_S128x64x64_S128x64 (.inl rfl) rfl)
          shapeCasts_S128x64_S128x64x1)
        broadcasts_S128x64x1_S128x64x64))
    bitsLt_bf16_f32

/-- The weights applied to the values. -/
def gCore (qh kh vh : FVec Ideal S128x64x32 .bf16) (b4 : FVec Ideal S4x64x64 .f32) : FVec Ideal S128x64x32 .f32 :=
  matmul dot_S128x64x64_S128x64x32_S128x64x32_2_1_1_2_0_0 none (gProb (gScores qh kh b4)) vh (constant S128x64x32 .f32 0x00000000#32)

theorem pay7_eq (v26 : FVec Ideal S2048x384 .bf16) (v33 v38 : FVec Ideal S32x64x384 .bf16) (v39 : Vec Ideal S384x384 .bf16)
    (v44 : Vec Ideal S12x64x64 .f32) :
    k0_pay7 v26 v33 v38 v39 v44
      = unheads (gCore (heads 0 slices_S32x64x384_o0_0_0_S32x64x128 v33) (heads 0 slices_S32x64x384_o0_0_0_S32x64x128 v38)
          (heads 0 slices_S32x64x384_o0_0_0_S32x64x128 (k0_pay5 v26 v39)) (bias4 0 slices_S12x64x64_o0_0_0_S4x64x64 (k0_pay6 v44))) := rfl

theorem pay11_eq (v26 : FVec Ideal S2048x384 .bf16) (v33 v38 : FVec Ideal S32x64x384 .bf16) (v39 : Vec Ideal S384x384 .bf16)
    (v45 : FVec Ideal S12x64x64 .f32) :
    k0_pay11 v45 (k0_pay8 v33) (k0_pay9 v38) (k0_pay10 v26 v39)
      = unheads (gCore (heads 128 slices_S32x64x384_o0_0_128_S32x64x128 v33) (heads 128 slices_S32x64x384_o0_0_128_S32x64x128 v38)
          (heads 128 slices_S32x64x384_o0_0_128_S32x64x128 (k0_pay5 v26 v39)) (bias4 4 slices_S12x64x64_o4_0_0_S4x64x64 v45)) := rfl

theorem pay12_eq (v33 v38 v43 : FVec Ideal S32x64x384 .bf16) (v45 : FVec Ideal S12x64x64 .f32) :
    k0_pay12 v33 v38 v43 v45
      = gCore (heads 256 slices_S32x64x384_o0_0_256_S32x64x128 v33) (heads 256 slices_S32x64x384_o0_0_256_S32x64x128 v38)
          (heads 256 slices_S32x64x384_o0_0_256_S32x64x128 v43) (bias4 8 slices_S12x64x64_o8_0_0_S4x64x64 v45) := rfl

end Cert.KerValue

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KerLN.lean ====
/-
  The kernel body's first stretch read at one entry: the normalised token (payload 2) and the three projections
  (payloads 3, 4, 5).  Row r of the [2048, 384] working table is token n of window b of the block, r = 64 b + n.
-/
import proofs.«430181_j71193377899400_3_alg».proof.Proof.Spec
import proofs.«430181_j71193377899400_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«430181_j71193377899400_3_alg».proof.Proof.LibKeepdims

noncomputable section

open scoped BigOperators

namespace Cert.KerValue

open Idealize.ShloMosaic Idealize.ShloMosaic.ValueIdx Cert.KernelIdeal Cert.KernelIdeal.Gen

/-- Row 64 b + n of the block's [2048, 384] working table. -/
abbrev row (b : Fin 32) (n : Fin 64) : Fin 2048 := ⟨b.val * 64 + n.val, by omega⟩

/-! ### The table and the block

The block [32, 64, 384] and the table [2048, 384] hold the same entries in the same row-major order. -/

/-- The block viewed as the table: entry (64 b + n, c) of the table is entry (b, n, c) of the block. -/
theorem castTable_apply {α : Type} (x : S32x64x384.Idx → α) (h : S32x64x384.ShapeCasts S2048x384)
    (b : Fin 32) (n : Fin 64) (c : Fin 384) :
    shapeCast S2048x384 x h (ix2 (row b n) c) = x (ix3 b n c) :=
  shapeCast_apply x h _ _ (by
    rw [Shape.rowMajor_val_three, Shape.rowMajor_val_two]
    show (b.val * 64 + n.val) * 384 + c.val = (b.val * 64 + n.val) * 384 + c.val
    rfl)

/-- The table viewed as the block: entry (b, n, c) of the block is entry (64 b + n, c) of the table. -/
theorem castBlock_apply {α : Type} (x : S2048x384.Idx → α) (h : S2048x384.ShapeCasts S32x64x384)
    (b : Fin 32) (n : Fin 64) (c : Fin 384) :
    shapeCast S32x64x384 x h (ix3 b n c) = x (ix2 (row b n) c) :=
  shapeCast_apply x h _ _ (by
    rw [Shape.rowMajor_val_three, Shape.rowMajor_val_two]
    show (b.val * 64 + n.val) * 384 + c.val = (b.val * 64 + n.val) * 384 + c.val
    rfl)

/-! ### The product of the table with a weight block

The contraction runs over the table's columns and the weight block's rows: one axis of extent 384. -/

/-- The left operand's row is the result's row. -/
theorem mm_lhs_0 (j : S2048x384.Idx) (k : dot_S2048x384_S384x384_S2048x384_1_0_0_1_n_n.contr.Idx) :
    (dot_S2048x384_S384x384_S2048x384_1_0_0_1_n_n.lhsIdx j k 0).val = (j 0).val := rfl

/-- The left operand's column is the contracted coordinate. -/
theorem mm_lhs_1 (j : S2048x384.Idx) (k : dot_S2048x384_S384x384_S2048x384_1_0_0_1_n_n.contr.Idx) :
    (dot_S2048x384_S384x384_S2048x384_1_0_0_1_n_n.lhsIdx j k 1).val = (k ⟨0, by decide⟩).val := rfl

/-- The right operand's row is the contracted coordinate. -/
theorem mm_rhs_0 (j : S2048x384.Idx) (k : dot_S2048x384_S384x384_S2048x384_1_0_0_1_n_n.contr.Idx) :
    (dot_S2048x384_S384x384_S2048x384_1_0_0_1_n_n.rhsIdx j k 0).val = (k ⟨0, by decide⟩).val := rfl

/-- The right operand's column is the result's column. -/
theorem mm_rhs_1 (j : S2048x384.Idx) (k : dot_S2048x384_S384x384_S2048x384_1_0_0_1_n_n.contr.Idx) :
    (dot_S2048x384_S384x384_S2048x384_1_0_0_1_n_n.rhsIdx j k 1).val = (j 1).val := rfl

/-- The product into the zero table, at (r, e): row r of the left operand against column e of the right one. -/
theorem mm_apply (A : FVec Ideal S2048x384 .bf16) (B : FVec Ideal S384x384 .bf16) (r : Fin 2048) (e : Fin 384) :
    matmul dot_S2048x384_S384x384_S2048x384_1_0_0_1_n_n none A B (constant (F := Ideal) S2048x384 .f32 0x00000000#32) (ix2 r e)
      = ∑ c : Fin 384, A (ix2 r c) * B (ix2 c e) := by
  refine (Ideal.matmul_constant_zero_apply dot_S2048x384_S384x384_S2048x384_1_0_0_1_n_n none A B (ix2 r e)).trans ?_
  rw [← Equiv.sum_comp (contrEquiv1 dot_S2048x384_S384x384_S2048x384_1_0_0_1_n_n 384 rfl rfl).symm]
  refine Finset.sum_congr rfl fun c _ => ?_
  have hc := contrEquiv1_symm_val dot_S2048x384_S384x384_S2048x384_1_0_0_1_n_n 384 rfl rfl c
  have hl : dot_S2048x384_S384x384_S2048x384_1_0_0_1_n_n.lhsIdx (ix2 r e)
      ((contrEquiv1 dot_S2048x384_S384x384_S2048x384_1_0_0_1_n_n 384 rfl rfl).symm c) = ix2 r c := by
    funext ax; apply Fin.ext
    match ax with
    | ⟨0, _⟩ => exact mm_lhs_0 _ _
    | ⟨1, _⟩ => exact (mm_lhs_1 _ _).trans hc
  have hr : dot_S2048x384_S384x384_S2048x384_1_0_0_1_n_n.rhsIdx (ix2 r e)
      ((contrEquiv1 dot_S2048x384_S384x384_S2048x384_1_0_0_1_n_n 384 rfl rfl).symm c) = ix2 c e := by
    funext ax; apply Fin.ext
    match ax with
    | ⟨0, _⟩ => exact (mm_rhs_0 _ _).trans hc
    | ⟨1, _⟩ => exact mm_rhs_1 _ _
  rw [hl, hr]

/-! ### The normalisation of the table's rows -/

/-- A row sum of a table, at row r: the sum of the row's 384 entries. -/
theorem rowSum_apply (X : FVec Ideal S2048x384 .f32) (hφ : FKind.Formats .f32)
    (hacc : (0x00000000#32 : BitVec 32) = FKind.add.neutral .f32 hφ) (r : Fin 2048) :
    multiReduction (F := Ideal) .add [1] S2048 X 0x00000000#32 reduces_S2048x384_S2048 hφ hacc (ix1 r)
      = ∑ c : Fin 384, X (ix2 r c) := by
  refine (Ideal.multiReduction_add_single X _ reduces_S2048x384_S2048 hφ hacc (ix1 r)).trans ?_
  show ∑ k : Fin 384, X (reduces_S2048x384_S2048.lift (ix1 r) k) = _
  refine Finset.sum_congr rfl fun k _ => congrArg X ?_
  funext ax; apply Fin.ext
  match ax with
  | ⟨0, _⟩ => rfl
  | ⟨1, _⟩ => rfl

/-- A row of 384 entries laid under every row of the table, at (r, c): the row's entry c. -/
theorem rowBc_apply (w : Vec Ideal S1x384 .f32) (r : Fin 2048) (c : Fin 384) :
    broadcastTo S2048x384 (shapeCast S1x384 w shapeCasts_S1x384_S1x384) broadcasts_S1x384_S2048x384 (ix2 r c)
      = w (ix2 (0 : Fin 1) c) := by
  refine (broadcastTo_1b_ab_apply _ _ r c).trans ?_
  rw [shapeCast_self]

/-- The working table: the block's 32 windows of 64 tokens, one token a row. -/
def tbl (v0 : Vec Ideal S32x64x384 .f32) : FVec Ideal S2048x384 .f32 :=
  shapeCast S2048x384 v0 shapeCasts_S32x64x384_S2048x384

/-- Each entry of the table less its row's mean. -/
def cenT (v0 : Vec Ideal S32x64x384 .f32) : FVec Ideal S2048x384 .f32 :=
  subf (tbl v0)
    (broadcastTo S2048x384
      (divf
        (shapeCast S2048x1
          (multiReduction .add [1] S2048 (tbl v0) 0x00000000#32 reduces_S2048x384_S2048 (.inl rfl) rfl)
          shapeCasts_S2048_S2048x1)
        (broadcast S2048x1 (Scalar.ofBits .f32 0x43C00000#32)))
      broadcasts_S2048x1_S2048x384)

/-- The reciprocal square root of each row's variance plus the offset, laid along the row. -/
def rstdT (v0 : Vec Ideal S32x64x384 .f32) : FVec Ideal S2048x384 .f32 :=
  broadcastTo S2048x384
    (rsqrt
      (addf
        (divf
          (shapeCast S2048x1
            (multiReduction .add [1] S2048 (mulf (cenT v0) (cenT v0)) 0x00000000#32 reduces_S2048x384_S2048 (.inl rfl) rfl)
            shapeCasts_S2048_S2048x1)
          (broadcast S2048x1 (Scalar.ofBits .f32 0x43C00000#32)))
        (broadcast S2048x1 (Scalar.ofBits .f32 0x3727C5AC#32))))
    broadcasts_S2048x1_S2048x384

/-- The table at (64 b + n, c) is the block at (b, n, c). -/
theorem tbl_apply (v0 : Vec Ideal S32x64x384 .f32) (b : Fin 32) (n : Fin 64) (c : Fin 384) :
    tbl v0 (ix2 (row b n) c) = v0 (ix3 b n c) :=
  castTable_apply v0 _ b n c

/-- The centred table at (64 b + n, c): the block's entry less the mean of token (b, n). -/
theorem cenT_apply (v0 : Vec Ideal S32x64x384 .f32) (b : Fin 32) (n : Fin 64) (c : Fin 384) :
    cenT v0 (ix2 (row b n) c)
      = v0 (ix3 b n c) - Ideal.div (∑ c' : Fin 384, v0 (ix3 b n c')) Cert.Spec.c384 := by
  unfold cenT
  refine (subf_apply _ _ _).trans ?_
  refine congrArg₂ (· - ·) (tbl_apply v0 b n c) ?_
  refine (Cert.LibKeepdims.broadcastTo_a1_ab_apply _ _ (row b n) c).trans ?_
  refine (divf_apply _ _ _).trans ?_
  refine congrArg₂ Ideal.div ?_ rfl
  refine (Cert.LibKeepdims.shapeCast_a_a1_apply _ _ (row b n) (0 : Fin 1)).trans ?_
  refine (rowSum_apply (tbl v0) _ _ (row b n)).trans ?_
  exact Finset.sum_congr rfl fun c' _ => tbl_apply v0 b n c'

/-- The row factor at (64 b + n, c): the reciprocal square root of token (b, n)'s variance plus the offset. -/
theorem rstdT_apply (v0 : Vec Ideal S32x64x384 .f32) (b : Fin 32) (n : Fin 64) (c : Fin 384) :
    rstdT v0 (ix2 (row b n) c)
      = Ideal.rsqrt (Ideal.div (∑ c' : Fin 384,
            (v0 (ix3 b n c') - Ideal.div (∑ c'' : Fin 384, v0 (ix3 b n c'')) Cert.Spec.c384)
              * (v0 (ix3 b n c') - Ideal.div (∑ c'' : Fin 384, v0 (ix3 b n c'')) Cert.Spec.c384)) Cert.Spec.c384
          + Cert.Spec.eps) := by
  unfold rstdT
  refine (Cert.LibKeepdims.broadcastTo_a1_ab_apply _ _ (row b n) c).trans ?_
  show Ideal.rsqrt (Ideal.div _ _ + _) = _
  refine congrArg (fun s => Ideal.rsqrt (Ideal.div s Cert.Spec.c384 + Cert.Spec.eps)) ?_
  refine (Cert.LibKeepdims.shapeCast_a_a1_apply _ _ (row b n) (0 : Fin 1)).trans ?_
  refine (rowSum_apply (mulf (cenT v0) (cenT v0)) _ _ (row b n)).trans ?_
  refine Finset.sum_congr rfl fun c' _ => ?_
  refine (mulf_apply _ _ _).trans ?_
  rw [cenT_apply]

/-- Payload 2 is the centred table times the row factor, times the scale row, plus the shift row. -/
theorem pay2_eq (v0 : Vec Ideal S32x64x384 .f32) (v18 v22 : Vec Ideal S1x384 .f32) :
    k0_pay2 v0 v18 v22
      = truncf .bf16
          (addf
            (mulf (mulf (cenT v0) (rstdT v0))
              (broadcastTo S2048x384 (shapeCast S1x384 v18 shapeCasts_S1x384_S1x384) broadcasts_S1x384_S2048x384))
            (broadcastTo S2048x384 (shapeCast S1x384 v22 shapeCasts_S1x384_S1x384) broadcasts_S1x384_S2048x384))
          bitsLt_bf16_f32 := rfl

/-- Payload 2 at (row b n, c) is the specification's normalised entry of the block. -/
theorem pay2_apply (v0 : Vec Ideal S32x64x384 .f32) (v18 v22 : Vec Ideal S1x384 .f32) (b : Fin 32) (n : Fin 64) (c : Fin 384) :
    k0_pay2 v0 v18 v22 (ix2 (row b n) c)
      = Cert.Spec.xn (fun B n c => v0 (ix3 B n c)) (fun c => v18 (ix2 (0 : Fin 1) c)) (fun c => v22 (ix2 (0 : Fin 1) c)) b n c := by
  rw [pay2_eq]
  simp only [Cert.Spec.xn, Cert.Spec.var, Cert.Spec.cen, Cert.Spec.mean]
  refine (truncf_apply (ψ := .bf16) _ bitsLt_bf16_f32 _).trans ?_
  refine (addf_apply _ _ _).trans ?_
  refine congrArg₂ (· + ·) ?_ (rowBc_apply v22 (row b n) c)
  refine (mulf_apply _ _ _).trans ?_
  refine congrArg₂ (· * ·) ?_ (rowBc_apply v18 (row b n) c)
  refine (mulf_apply _ _ _).trans ?_
  exact congrArg₂ (· * ·) (cenT_apply v0 b n c) (rstdT_apply v0 b n c)

/-- Payload 5 (the values' projection) at (b, n, e): row (b, n) of the table against column e of the weight block. -/
theorem pay5_apply (v26 : FVec Ideal S2048x384 .bf16) (v39 : Vec Ideal S384x384 .bf16) (b : Fin 32) (n : Fin 64) (e : Fin 384) :
    k0_pay5 v26 v39 (ix3 b n e) = ∑ c : Fin 384, v26 (ix2 (row b n) c) * v39 (ix2 c e) := by
  unfold k0_pay5
  refine (castBlock_apply _ _ b n e).trans ?_
  refine (mm_apply v26 _ (row b n) e).trans ?_
  rw [shapeCast_self]

/-- Payload 4 (the keys' projection) at (b, n, e). -/
theorem pay4_apply (v0 : Vec Ideal S32x64x384 .f32) (v18 v22 : Vec Ideal S1x384 .f32) (v34 : Vec Ideal S384x384 .bf16)
    (b : Fin 32) (n : Fin 64) (e : Fin 384) :
    k0_pay4 v0 v18 v22 v34 (ix3 b n e) = ∑ c : Fin 384, k0_pay2 v0 v18 v22 (ix2 (row b n) c) * v34 (ix2 c e) := by
  unfold k0_pay4
  refine (castBlock_apply _ _ b n e).trans ?_
  refine (mm_apply (k0_pay2 v0 v18 v22) _ (row b n) e).trans ?_
  rw [shapeCast_self]

/-- Payload 3 (the queries' projection, scaled) at (b, n, e). -/
theorem pay3_apply (v0 : Vec Ideal S32x64x384 .f32) (v18 v22 : Vec Ideal S1x384 .f32) (v27 : Vec Ideal S384x384 .bf16)
    (b : Fin 32) (n : Fin 64) (e : Fin 384) :
    k0_pay3 v0 v18 v22 v27 (ix3 b n e)
      = (∑ c : Fin 384, k0_pay2 v0 v18 v22 (ix2 (row b n) c) * v27 (ix2 c e)) * Cert.Spec.scale := by
  unfold k0_pay3
  refine (castBlock_apply _ _ b n e).trans ?_
  refine (mulf_apply _ _ _).trans ?_
  refine congrArg₂ (· * ·) ((mm_apply (k0_pay2 v0 v18 v22) _ (row b n) e).trans ?_) rfl
  rw [shapeCast_self]

end Cert.KerValue

end
-- ==== Proof.KerGroup.lean ====
/-
  One head group of the kernel body read at one entry: the head-major regrouping and its inverse, the four-head
  slab of the bias, and the scores, weights and averaged values of one (window, head, token, lane).
-/
import proofs.«430181_j71193377899400_3_alg».proof.Proof.Spec
import proofs.«430181_j71193377899400_3_alg».proof.Proof.KerDefs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerValue

open Idealize.ShloMosaic Idealize.ShloMosaic.ValueIdx Cert.KernelIdeal Cert.KernelIdeal.Gen

/-- Slot 4 b + hh of the head-major layout: window b, head hh of the group. -/
abbrev gIdx (b : Fin 32) (hh : Fin 4) : Fin 128 := ⟨b.val * 4 + hh.val, by omega⟩

/-- The regrouped table at (window b, head hh, token n, lane d) is the table at lane o + 32 hh + d. -/
theorem heads_apply (o : ℕ) (hs : S32x64x384.Slices ![0, 0, o] S32x64x128) (ho : o + 128 ≤ 384) (t : FVec Ideal S32x64x384 .bf16)
    (b : Fin 32) (hh : Fin 4) (n : Fin 64) (d : Fin 32) :
    heads o hs t (ix3 (gIdx b hh) n d) = t (ix3 b n (⟨o + hh.val * 32 + d.val, by omega⟩ : Fin 384)) := by
  unfold heads
  -- [128, 64, 32] at (4 b + hh, n, d) has the row-major position of [32, 4, 64, 32] at (b, hh, n, d)
  refine (shapeCast_apply _ _ _ (ix4 b hh n d) (by
    rw [Shape.rowMajor_val_four, Shape.rowMajor_val_three]
    show ((b.val * 4 + hh.val) * 64 + n.val) * 32 + d.val = ((b.val * 4 + hh.val) * 64 + n.val) * 32 + d.val
    rfl)).trans ?_
  -- the transpose [0, 2, 1, 3] at (b, hh, n, d) reads (b, n, hh, d)
  refine (transpose_apply _ _ _ _ (ix4 b n hh d)
    (fun a => match a with | ⟨0, _⟩ => rfl | ⟨1, _⟩ => rfl | ⟨2, _⟩ => rfl | ⟨3, _⟩ => rfl)).trans ?_
  -- [32, 64, 4, 32] at (b, n, hh, d) has the row-major position of [32, 64, 128] at (b, n, 32 hh + d)
  refine (shapeCast_apply _ _ _ (ix3 b n (⟨hh.val * 32 + d.val, by omega⟩ : Fin 128)) (by
    rw [Shape.rowMajor_val_three, Shape.rowMajor_val_four]
    show (b.val * 64 + n.val) * 128 + (hh.val * 32 + d.val) = ((b.val * 64 + n.val) * 4 + hh.val) * 32 + d.val
    omega)).trans ?_
  -- the slice from lane o
  exact extractStridedSlice_apply _ _ _ _ _ (fun a => match a with
    | ⟨0, _⟩ => by show b.val = 0 + b.val; omega
    | ⟨1, _⟩ => by show n.val = 0 + n.val; omega
    | ⟨2, _⟩ => by show o + hh.val * 32 + d.val = o + (hh.val * 32 + d.val); omega)

/-- The way back: lane 32 hh + d of (window b, token n) is the head-major entry (4 b + hh, n, d). -/
theorem unheads_apply (r : FVec Ideal S128x64x32 .f32) (b : Fin 32) (n : Fin 64) (hh : Fin 4) (d : Fin 32) :
    unheads r (ix3 b n (⟨hh.val * 32 + d.val, by omega⟩ : Fin 128)) = r (ix3 (gIdx b hh) n d) := by
  unfold unheads
  -- [32, 64, 128] at (b, n, 32 hh + d) has the row-major position of [32, 64, 4, 32] at (b, n, hh, d)
  refine (shapeCast_apply _ _ _ (ix4 b n hh d) (by
    rw [Shape.rowMajor_val_four, Shape.rowMajor_val_three]
    show ((b.val * 64 + n.val) * 4 + hh.val) * 32 + d.val = (b.val * 64 + n.val) * 128 + (hh.val * 32 + d.val)
    omega)).trans ?_
  -- the transpose [0, 2, 1, 3] at (b, n, hh, d) reads (b, hh, n, d)
  refine (transpose_apply _ _ _ _ (ix4 b hh n d)
    (fun a => match a with | ⟨0, _⟩ => rfl | ⟨1, _⟩ => rfl | ⟨2, _⟩ => rfl | ⟨3, _⟩ => rfl)).trans ?_
  -- [32, 4, 64, 32] at (b, hh, n, d) has the row-major position of [128, 64, 32] at (4 b + hh, n, d)
  exact shapeCast_apply _ _ _ (ix3 (gIdx b hh) n d) (by
    rw [Shape.rowMajor_val_three, Shape.rowMajor_val_four]
    show ((b.val * 4 + hh.val) * 64 + n.val) * 32 + d.val = ((b.val * 4 + hh.val) * 64 + n.val) * 32 + d.val
    rfl)

/-- Head hh of the four-head slab is head o + hh of the bias. -/
theorem bias4_apply (o : ℕ) (hb : S12x64x64.Slices ![o, 0, 0] S4x64x64) (ho : o + 4 ≤ 12) (bias : FVec Ideal S12x64x64 .f32)
    (hh : Fin 4) (n m : Fin 64) :
    bias4 o hb bias (ix3 hh n m) = bias (ix3 (⟨o + hh.val, by omega⟩ : Fin 12) n m) := by
  unfold bias4
  exact extractStridedSlice_apply _ _ _ _ _ (fun a => match a with
    | ⟨0, _⟩ => by show o + hh.val = o + hh.val; rfl
    | ⟨1, _⟩ => by show n.val = 0 + n.val; omega
    | ⟨2, _⟩ => by show m.val = 0 + m.val; omega)

/-! ## The two contractions read at an index

The scores contract the last axis of both operands, the result contracts the last axis of the weights with the
token axis of the values; axis 0 is the batch axis of both.  Each operand index has its coordinates by computation. -/

theorem qk_lhs_0 (j : S128x64x64.Idx) (k : dot_S128x64x32_S128x64x32_S128x64x64_2_2_1_1_0_0.contr.Idx) :
    (dot_S128x64x32_S128x64x32_S128x64x64_2_2_1_1_0_0.lhsIdx j k 0).val = (j 0).val := rfl
theorem qk_lhs_1 (j : S128x64x64.Idx) (k : dot_S128x64x32_S128x64x32_S128x64x64_2_2_1_1_0_0.contr.Idx) :
    (dot_S128x64x32_S128x64x32_S128x64x64_2_2_1_1_0_0.lhsIdx j k 1).val = (j 1).val := rfl
theorem qk_lhs_2 (j : S128x64x64.Idx) (k : dot_S128x64x32_S128x64x32_S128x64x64_2_2_1_1_0_0.contr.Idx) :
    (dot_S128x64x32_S128x64x32_S128x64x64_2_2_1_1_0_0.lhsIdx j k 2).val = (k ⟨0, by decide⟩).val := rfl
theorem qk_rhs_0 (j : S128x64x64.Idx) (k : dot_S128x64x32_S128x64x32_S128x64x64_2_2_1_1_0_0.contr.Idx) :
    (dot_S128x64x32_S128x64x32_S128x64x64_2_2_1_1_0_0.rhsIdx j k 0).val = (j 0).val := rfl
theorem qk_rhs_1 (j : S128x64x64.Idx) (k : dot_S128x64x32_S128x64x32_S128x64x64_2_2_1_1_0_0.contr.Idx) :
    (dot_S128x64x32_S128x64x32_S128x64x64_2_2_1_1_0_0.rhsIdx j k 1).val = (j 2).val := rfl
theorem qk_rhs_2 (j : S128x64x64.Idx) (k : dot_S128x64x32_S128x64x32_S128x64x64_2_2_1_1_0_0.contr.Idx) :
    (dot_S128x64x32_S128x64x32_S128x64x64_2_2_1_1_0_0.rhsIdx j k 2).val = (k ⟨0, by decide⟩).val := rfl

/-- Queries against keys at (slot g, token n, token m): the sum over the 32 lanes. -/
theorem qk_apply (qh kh : FVec Ideal S128x64x32 .bf16) (g : Fin 128) (n m : Fin 64) :
    matmul dot_S128x64x32_S128x64x32_S128x64x64_2_2_1_1_0_0 none qh kh (constant (F := Ideal) S128x64x64 .f32 0x00000000#32) (ix3 g n m)
      = ∑ c : Fin 32, qh (ix3 g n c) * kh (ix3 g m c) := by
  refine (Ideal.matmul_constant_zero_apply dot_S128x64x32_S128x64x32_S128x64x64_2_2_1_1_0_0 none qh kh (ix3 g n m)).trans ?_
  refine (Equiv.sum_comp (contrEquiv1 dot_S128x64x32_S128x64x32_S128x64x64_2_2_1_1_0_0 32 rfl rfl).symm _).symm.trans ?_
  refine Finset.sum_congr rfl fun c _ => ?_
  have hl : dot_S128x64x32_S128x64x32_S128x64x64_2_2_1_1_0_0.lhsIdx (ix3 g n m) ((contrEquiv1 dot_S128x64x32_S128x64x32_S128x64x64_2_2_1_1_0_0 32 rfl rfl).symm c) = ix3 g n c :=
    funext fun a => Fin.ext (match a with
      | ⟨0, _⟩ => qk_lhs_0 _ _
      | ⟨1, _⟩ => qk_lhs_1 _ _
      | ⟨2, _⟩ => (qk_lhs_2 _ _).trans (contrEquiv1_symm_val dot_S128x64x32_S128x64x32_S128x64x64_2_2_1_1_0_0 32 rfl rfl c))
  have hr : dot_S128x64x32_S128x64x32_S128x64x64_2_2_1_1_0_0.rhsIdx (ix3 g n m) ((contrEquiv1 dot_S128x64x32_S128x64x32_S128x64x64_2_2_1_1_0_0 32 rfl rfl).symm c) = ix3 g m c :=
    funext fun a => Fin.ext (match a with
      | ⟨0, _⟩ => qk_rhs_0 _ _
      | ⟨1, _⟩ => qk_rhs_1 _ _
      | ⟨2, _⟩ => (qk_rhs_2 _ _).trans (contrEquiv1_symm_val dot_S128x64x32_S128x64x32_S128x64x64_2_2_1_1_0_0 32 rfl rfl c))
  exact congrArg₂ (· * ·) (congrArg qh hl) (congrArg kh hr)

theorem pv_lhs_0 (j : S128x64x32.Idx) (k : dot_S128x64x64_S128x64x32_S128x64x32_2_1_1_2_0_0.contr.Idx) :
    (dot_S128x64x64_S128x64x32_S128x64x32_2_1_1_2_0_0.lhsIdx j k 0).val = (j 0).val := rfl
theorem pv_lhs_1 (j : S128x64x32.Idx) (k : dot_S128x64x64_S128x64x32_S128x64x32_2_1_1_2_0_0.contr.Idx) :
    (dot_S128x64x64_S128x64x32_S128x64x32_2_1_1_2_0_0.lhsIdx j k 1).val = (j 1).val := rfl
theorem pv_lhs_2 (j : S128x64x32.Idx) (k : dot_S128x64x64_S128x64x32_S128x64x32_2_1_1_2_0_0.contr.Idx) :
    (dot_S128x64x64_S128x64x32_S128x64x32_2_1_1_2_0_0.lhsIdx j k 2).val = (k ⟨0, by decide⟩).val := rfl
theorem pv_rhs_0 (j : S128x64x32.Idx) (k : dot_S128x64x64_S128x64x32_S128x64x32_2_1_1_2_0_0.contr.Idx) :
    (dot_S128x64x64_S128x64x32_S128x64x32_2_1_1_2_0_0.rhsIdx j k 0).val = (j 0).val := rfl
theorem pv_rhs_1 (j : S128x64x32.Idx) (k : dot_S128x64x64_S128x64x32_S128x64x32_2_1_1_2_0_0.contr.Idx) :
    (dot_S128x64x64_S128x64x32_S128x64x32_2_1_1_2_0_0.rhsIdx j k 1).val = (k ⟨0, by decide⟩).val := rfl
theorem pv_rhs_2 (j : S128x64x32.Idx) (k : dot_S128x64x64_S128x64x32_S128x64x32_2_1_1_2_0_0.contr.Idx) :
    (dot_S128x64x64_S128x64x32_S128x64x32_2_1_1_2_0_0.rhsIdx j k 2).val = (j 2).val := rfl

/-- Weights against values at (slot g, token n, lane d): the sum over the 64 tokens. -/
theorem pv_apply (p : FVec Ideal S128x64x64 .bf16) (vh : FVec Ideal S128x64x32 .bf16) (g : Fin 128) (n : Fin 64) (d : Fin 32) :
    matmul dot_S128x64x64_S128x64x32_S128x64x32_2_1_1_2_0_0 none p vh (constant (F := Ideal) S128x64x32 .f32 0x00000000#32) (ix3 g n d)
      = ∑ m : Fin 64, p (ix3 g n m) * vh (ix3 g m d) := by
  refine (Ideal.matmul_constant_zero_apply dot_S128x64x64_S128x64x32_S128x64x32_2_1_1_2_0_0 none p vh (ix3 g n d)).trans ?_
  refine (Equiv.sum_comp (contrEquiv1 dot_S128x64x64_S128x64x32_S128x64x32_2_1_1_2_0_0 64 rfl rfl).symm _).symm.trans ?_
  refine Finset.sum_congr rfl fun c _ => ?_
  have hl : dot_S128x64x64_S128x64x32_S128x64x32_2_1_1_2_0_0.lhsIdx (ix3 g n d) ((contrEquiv1 dot_S128x64x64_S128x64x32_S128x64x32_2_1_1_2_0_0 64 rfl rfl).symm c) = ix3 g n c :=
    funext fun a => Fin.ext (match a with
      | ⟨0, _⟩ => pv_lhs_0 _ _
      | ⟨1, _⟩ => pv_lhs_1 _ _
      | ⟨2, _⟩ => (pv_lhs_2 _ _).trans (contrEquiv1_symm_val dot_S128x64x64_S128x64x32_S128x64x32_2_1_1_2_0_0 64 rfl rfl c))
  have hr : dot_S128x64x64_S128x64x32_S128x64x32_2_1_1_2_0_0.rhsIdx (ix3 g n d) ((contrEquiv1 dot_S128x64x64_S128x64x32_S128x64x32_2_1_1_2_0_0 64 rfl rfl).symm c) = ix3 g c d :=
    funext fun a => Fin.ext (match a with
      | ⟨0, _⟩ => pv_rhs_0 _ _
      | ⟨1, _⟩ => (pv_rhs_1 _ _).trans (contrEquiv1_symm_val dot_S128x64x64_S128x64x32_S128x64x32_2_1_1_2_0_0 64 rfl rfl c)
      | ⟨2, _⟩ => pv_rhs_2 _ _)
  exact congrArg₂ (· * ·) (congrArg p hl) (congrArg vh hr)

/-! ## The row reductions and the keepdims layout -/

/-- The row maximum at (slot g, token n): the fold of max from minus infinity over the row. -/
theorem rowMax_apply (s : FVec Ideal S128x64x64 .f32) (g : Fin 128) (n : Fin 64) :
    multiReduction .maximumf [2] S128x64 s 0xFF800000#32 reduces_S128x64x64_S128x64 (.inl rfl) rfl (ix2 g n)
      = (Finset.univ : Finset (Fin 64)).fold max Cert.Spec.ninf (fun m => s (ix3 g n m)) :=
  (Ideal.multiReduction_maximumf_single s 0xFF800000#32 reduces_S128x64x64_S128x64 (.inl rfl) rfl (ix2 g n)).trans
    (congrArg (fun f => (Finset.univ : Finset (Fin 64)).fold max Cert.Spec.ninf f)
      (funext fun m => congrArg s (funext fun a => Fin.ext (match a with | ⟨0, _⟩ => rfl | ⟨1, _⟩ => rfl | ⟨2, _⟩ => rfl))))

/-- The row sum at (slot g, token n). -/
theorem grpRowSum_apply (e : FVec Ideal S128x64x64 .f32) (g : Fin 128) (n : Fin 64) :
    multiReduction .add [2] S128x64 e 0x00000000#32 reduces_S128x64x64_S128x64 (.inl rfl) rfl (ix2 g n)
      = ∑ m : Fin 64, e (ix3 g n m) :=
  (Ideal.multiReduction_add_single e 0x00000000#32 reduces_S128x64x64_S128x64 (.inl rfl) rfl (ix2 g n)).trans
    (Finset.sum_congr rfl fun m _ =>
      congrArg e (funext fun a => Fin.ext (match a with | ⟨0, _⟩ => rfl | ⟨1, _⟩ => rfl | ⟨2, _⟩ => rfl)))

/-- A [128, 64] table viewed [128, 64, 1] and laid along the 64 columns reads, at (g, n, m), its entry (g, n). -/
theorem keep_apply {α : Type} (R : S128x64.Idx → α) (g : Fin 128) (n m : Fin 64) :
    broadcastTo S128x64x64 (shapeCast S128x64x1 R shapeCasts_S128x64_S128x64x1) broadcasts_S128x64x1_S128x64x64 (ix3 g n m)
      = R (ix2 g n) := by
  refine (broadcastTo_apply _ _ (ix3 g n m) (ix3 g n (0 : Fin 1))
    (fun a => match a with | ⟨0, _⟩ => rfl | ⟨1, _⟩ => rfl | ⟨2, _⟩ => rfl)).trans ?_
  exact shapeCast_apply _ _ _ (ix2 g n) (by
    rw [Shape.rowMajor_val_two, Shape.rowMajor_val_three]
    show g.val * 64 + n.val = (g.val * 64 + n.val) * 1 + 0
    omega)

/-! ## Scores, exponentials, weights -/

/-- The scores at (window b, head hh, token n, token m). -/
theorem gScores_apply (qh kh : FVec Ideal S128x64x32 .bf16) (b4 : FVec Ideal S4x64x64 .f32)
    (b : Fin 32) (hh : Fin 4) (n m : Fin 64) :
    gScores qh kh b4 (ix3 (gIdx b hh) n m)
      = (∑ c : Fin 32, qh (ix3 (gIdx b hh) n c) * kh (ix3 (gIdx b hh) m c)) + b4 (ix3 hh n m) := by
  unfold gScores
  -- [128, 64, 64] at (4 b + hh, n, m) has the row-major position of [32, 4, 64, 64] at (b, hh, n, m)
  refine (shapeCast_apply _ _ _ (ix4 b hh n m) (by
    rw [Shape.rowMajor_val_four, Shape.rowMajor_val_three]
    show ((b.val * 4 + hh.val) * 64 + n.val) * 64 + m.val = ((b.val * 4 + hh.val) * 64 + n.val) * 64 + m.val
    rfl)).trans ?_
  refine (addf_apply _ _ _).trans ?_
  refine congrArg₂ (· + ·) ?_ ?_
  · -- and back for the products
    refine (shapeCast_apply _ _ _ (ix3 (gIdx b hh) n m) (by
      rw [Shape.rowMajor_val_three, Shape.rowMajor_val_four]
      show ((b.val * 4 + hh.val) * 64 + n.val) * 64 + m.val = ((b.val * 4 + hh.val) * 64 + n.val) * 64 + m.val
      rfl)).trans ?_
    exact qk_apply qh kh (gIdx b hh) n m
  · -- the slab under a unit axis, the same for every window
    refine (broadcastTo_apply _ _ (ix4 b hh n m) (ix4 (0 : Fin 1) hh n m)
      (fun a => match a with | ⟨0, _⟩ => rfl | ⟨1, _⟩ => rfl | ⟨2, _⟩ => rfl | ⟨3, _⟩ => rfl)).trans ?_
    exact shapeCast_abc_1abc_apply _ _ (0 : Fin 1) hh n m

/-- An exponential at (slot g, token n, token m): of the score less the row maximum. -/
theorem gExp_apply (s : FVec Ideal S128x64x64 .f32) (g : Fin 128) (n m : Fin 64) :
    gExp s (ix3 g n m)
      = Ideal.exp (s (ix3 g n m) - (Finset.univ : Finset (Fin 64)).fold max Cert.Spec.ninf (fun m' => s (ix3 g n m'))) := by
  unfold gExp
  refine congrArg (fun x => Ideal.exp (s (ix3 g n m) - x)) ?_
  exact (keep_apply _ g n m).trans (rowMax_apply s g n)

/-- A weight at (slot g, token n, token m): the exponential over the row sum. -/
theorem gProb_apply (s : FVec Ideal S128x64x64 .f32) (g : Fin 128) (n m : Fin 64) :
    gProb s (ix3 g n m) = Ideal.div (gExp s (ix3 g n m)) (∑ m' : Fin 64, gExp s (ix3 g n m')) := by
  unfold gProb
  refine congrArg (fun x => Ideal.div (gExp s (ix3 g n m)) x) ?_
  exact (keep_apply _ g n m).trans (grpRowSum_apply (gExp s) g n)

/-- The weight written over the row of scores alone. -/
theorem gProb_row (s : FVec Ideal S128x64x64 .f32) (g : Fin 128) (n m : Fin 64) :
    gProb s (ix3 g n m)
      = Ideal.div
          (Ideal.exp (s (ix3 g n m) - (Finset.univ : Finset (Fin 64)).fold max Cert.Spec.ninf (fun m' => s (ix3 g n m'))))
          (∑ m' : Fin 64,
            Ideal.exp (s (ix3 g n m') - (Finset.univ : Finset (Fin 64)).fold max Cert.Spec.ninf (fun m'' => s (ix3 g n m'')))) :=
  (gProb_apply s g n m).trans
    (congrArg₂ Ideal.div (gExp_apply s g n m) (Finset.sum_congr rfl fun m' _ => gExp_apply s g n m'))

/-- The group's result at (window b, head hh, token n, lane d): the row average of the values' lane d under the
    scores of token n against every token m. -/
theorem gCore_apply (qh kh vh : FVec Ideal S128x64x32 .bf16) (b4 : FVec Ideal S4x64x64 .f32)
    (b : Fin 32) (hh : Fin 4) (n : Fin 64) (d : Fin 32) :
    gCore qh kh vh b4 (ix3 (gIdx b hh) n d)
      = Cert.Spec.softAvg
          (fun m => (∑ d' : Fin 32, qh (ix3 (gIdx b hh) n d') * kh (ix3 (gIdx b hh) m d')) + b4 (ix3 hh n m))
          (fun m => vh (ix3 (gIdx b hh) m d)) := by
  have hS : (fun m : Fin 64 => gScores qh kh b4 (ix3 (gIdx b hh) n m))
      = fun m => (∑ d' : Fin 32, qh (ix3 (gIdx b hh) n d') * kh (ix3 (gIdx b hh) m d')) + b4 (ix3 hh n m) :=
    funext fun m => gScores_apply qh kh b4 b hh n m
  refine Eq.trans ?_ (congrArg (fun S => Cert.Spec.softAvg S (fun m => vh (ix3 (gIdx b hh) m d))) hS)
  unfold gCore
  refine (pv_apply _ vh (gIdx b hh) n d).trans ?_
  show _ = Cert.Spec.softAvg (fun m => gScores qh kh b4 (ix3 (gIdx b hh) n m)) (fun m => vh (ix3 (gIdx b hh) m d))
  unfold Cert.Spec.softAvg
  exact Finset.sum_congr rfl fun m _ =>
    congrArg (· * vh (ix3 (gIdx b hh) m d)) (gProb_row (gScores qh kh b4) (gIdx b hh) n m)

end Cert.KerValue

end
-- ==== Proof.KerOut.lean ====
/-
  The kernel body's last stretch read at one entry: the three groups' lanes side by side, projected by the output
  weight block and shifted.
-/
import proofs.«430181_j71193377899400_3_alg».proof.Proof.Spec
import proofs.«430181_j71193377899400_3_alg».proof.Proof.KerDefs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerValue

open Idealize.ShloMosaic Idealize.ShloMosaic.ValueIdx Cert.KernelIdeal Cert.KernelIdeal.Gen

namespace Out

/-- Row 64 b + n of the [2048, 384] working table. -/
abbrev row (b : Fin 32) (n : Fin 64) : Fin 2048 := ⟨b.val * 64 + n.val, by omega⟩

/-! ### The table and the block

The block [32, 64, 384] and the table [2048, 384] hold the same entries in the same row-major order. -/

/-- The block viewed as the table: entry (64 b + n, c) of the table is entry (b, n, c) of the block. -/
theorem castTable_apply {α : Type} (x : S32x64x384.Idx → α) (h : S32x64x384.ShapeCasts S2048x384)
    (b : Fin 32) (n : Fin 64) (c : Fin 384) :
    shapeCast S2048x384 x h (ix2 (row b n) c) = x (ix3 b n c) :=
  shapeCast_apply x h _ _ (by
    rw [Shape.rowMajor_val_three, Shape.rowMajor_val_two]
    show (b.val * 64 + n.val) * 384 + c.val = (b.val * 64 + n.val) * 384 + c.val
    rfl)

/-- The table viewed as the block: entry (b, n, c) of the block is entry (64 b + n, c) of the table. -/
theorem castBlock_apply {α : Type} (x : S2048x384.Idx → α) (h : S2048x384.ShapeCasts S32x64x384)
    (b : Fin 32) (n : Fin 64) (c : Fin 384) :
    shapeCast S32x64x384 x h (ix3 b n c) = x (ix2 (row b n) c) :=
  shapeCast_apply x h _ _ (by
    rw [Shape.rowMajor_val_three, Shape.rowMajor_val_two]
    show (b.val * 64 + n.val) * 384 + c.val = (b.val * 64 + n.val) * 384 + c.val
    rfl)

/-! ### The product of the table with the output weight block

The contraction runs over the table's columns and the weight block's rows: one axis of extent 384. -/

/-- The left operand's row is the result's row. -/
theorem mm_lhs_0 (j : S2048x384.Idx) (k : dot_S2048x384_S384x384_S2048x384_1_0_0_1_n_n.contr.Idx) :
    (dot_S2048x384_S384x384_S2048x384_1_0_0_1_n_n.lhsIdx j k 0).val = (j 0).val := rfl

/-- The left operand's column is the contracted coordinate. -/
theorem mm_lhs_1 (j : S2048x384.Idx) (k : dot_S2048x384_S384x384_S2048x384_1_0_0_1_n_n.contr.Idx) :
    (dot_S2048x384_S384x384_S2048x384_1_0_0_1_n_n.lhsIdx j k 1).val = (k ⟨0, by decide⟩).val := rfl

/-- The right operand's row is the contracted coordinate. -/
theorem mm_rhs_0 (j : S2048x384.Idx) (k : dot_S2048x384_S384x384_S2048x384_1_0_0_1_n_n.contr.Idx) :
    (dot_S2048x384_S384x384_S2048x384_1_0_0_1_n_n.rhsIdx j k 0).val = (k ⟨0, by decide⟩).val := rfl

/-- The right operand's column is the result's column. -/
theorem mm_rhs_1 (j : S2048x384.Idx) (k : dot_S2048x384_S384x384_S2048x384_1_0_0_1_n_n.contr.Idx) :
    (dot_S2048x384_S384x384_S2048x384_1_0_0_1_n_n.rhsIdx j k 1).val = (j 1).val := rfl

/-- The product into the zero table, at (r, e): row r of the left operand against column e of the right one. -/
theorem mm_apply (A : FVec Ideal S2048x384 .bf16) (B : FVec Ideal S384x384 .bf16) (r : Fin 2048) (e : Fin 384) :
    matmul dot_S2048x384_S384x384_S2048x384_1_0_0_1_n_n none A B (constant (F := Ideal) S2048x384 .f32 0x00000000#32) (ix2 r e)
      = ∑ c : Fin 384, A (ix2 r c) * B (ix2 c e) := by
  refine (Ideal.matmul_constant_zero_apply dot_S2048x384_S384x384_S2048x384_1_0_0_1_n_n none A B (ix2 r e)).trans ?_
  rw [← Equiv.sum_comp (contrEquiv1 dot_S2048x384_S384x384_S2048x384_1_0_0_1_n_n 384 rfl rfl).symm]
  refine Finset.sum_congr rfl fun c _ => ?_
  have hc := contrEquiv1_symm_val dot_S2048x384_S384x384_S2048x384_1_0_0_1_n_n 384 rfl rfl c
  have hl : dot_S2048x384_S384x384_S2048x384_1_0_0_1_n_n.lhsIdx (ix2 r e)
      ((contrEquiv1 dot_S2048x384_S384x384_S2048x384_1_0_0_1_n_n 384 rfl rfl).symm c) = ix2 r c := by
    funext ax; apply Fin.ext
    match ax with
    | ⟨0, _⟩ => exact mm_lhs_0 _ _
    | ⟨1, _⟩ => exact (mm_lhs_1 _ _).trans hc
  have hr : dot_S2048x384_S384x384_S2048x384_1_0_0_1_n_n.rhsIdx (ix2 r e)
      ((contrEquiv1 dot_S2048x384_S384x384_S2048x384_1_0_0_1_n_n 384 rfl rfl).symm c) = ix2 c e := by
    funext ax; apply Fin.ext
    match ax with
    | ⟨0, _⟩ => exact (mm_rhs_0 _ _).trans hc
    | ⟨1, _⟩ => exact mm_rhs_1 _ _
  rw [hl, hr]

/-- A row of 384 entries laid under every row of the table, at (r, c): the row's entry c. -/
theorem rowBc_apply (w : Vec Ideal S1x384 .f32) (r : Fin 2048) (c : Fin 384) :
    broadcastTo S2048x384 (shapeCast S1x384 w shapeCasts_S1x384_S1x384) broadcasts_S1x384_S2048x384 (ix2 r c)
      = w (ix2 (0 : Fin 1) c) := by
  refine (broadcastTo_1b_ab_apply _ _ r c).trans ?_
  rw [shapeCast_self]

/-! ### Three 128-lane slabs side by side -/

/-- A slab's index has the block index's window and token: the two axes off the lanes. -/
theorem cat_off (b : Fin 32) (n : Fin 64) (e : Fin 384) (l : Fin 128) :
    ∀ ax : Fin S32x64x128.rank, ax.cast (rfl : S32x64x128.rank = S32x64x384.rank) ≠ (2 : Fin S32x64x384.rank) →
      ((ix3 b n l : S32x64x128.Idx) ax).val = ((ix3 b n e : S32x64x384.Idx) (ax.cast rfl)).val := fun ax =>
  match ax with
  | ⟨0, _⟩ => fun _ => rfl
  | ⟨1, _⟩ => fun _ => rfl
  | ⟨2, _⟩ => fun h => absurd rfl h

/-- The three slabs along the lanes, at (b, n, e): the slab whose 128 lanes hold e, at e less the lanes before it. -/
theorem cat_apply (a0 a1 a2 : FVec Ideal S32x64x128 .f32) (b : Fin 32) (n : Fin 64) (e : Fin 384) :
    concatenate S32x64x384 2 [⟨S32x64x128, a0⟩, ⟨S32x64x128, a1⟩, ⟨S32x64x128, a2⟩]
        concatenates_S32x64x128_S32x64x128_S32x64x128_S32x64x384_d2 (ix3 b n e)
      = Cert.Spec.cat3 (fun l => a0 (ix3 b n l)) (fun l => a1 (ix3 b n l)) (fun l => a2 (ix3 b n l)) e := by
  unfold Cert.Spec.cat3
  split
  · next h0 =>
    exact concatenate_apply_piece 2 _ _ (ix3 b n e) 0 (by show 0 < 3; omega) S32x64x128 a0 rfl rfl 0 rfl
      (ix3 b n ⟨e.val, h0⟩) (cat_off b n e _) (by show 0 + e.val = e.val; omega)
  · next h0 =>
    split
    · next h1 =>
      exact concatenate_apply_piece 2 _ _ (ix3 b n e) 1 (by show 1 < 3; omega) S32x64x128 a1 rfl rfl 128 rfl
        (ix3 b n ⟨e.val - 128, by omega⟩) (cat_off b n e _) (by show 128 + (e.val - 128) = e.val; omega)
    · next h1 =>
      exact concatenate_apply_piece 2 _ _ (ix3 b n e) 2 (by show 2 < 3; omega) S32x64x128 a2 rfl rfl 256 rfl
        (ix3 b n ⟨e.val - 256, by omega⟩) (cat_off b n e _) (by show 256 + (e.val - 256) = e.val; omega)

end Out

/-- Payload 1 at (b, n, c): the 384 lanes (two finished groups and the third still head-major) against column c of
    the weight block, plus the shift. -/
theorem pay1_apply (v78 v111 : FVec Ideal S32x64x128 .f32) (v141 : FVec Ideal S128x64x32 .f32) (v148 : Vec Ideal S384x384 .bf16)
    (v151 : Vec Ideal S1x384 .f32) (b : Fin 32) (n : Fin 64) (c : Fin 384) :
    k0_pay1 v78 v111 v141 v148 v151 (ix3 b n c)
      = (∑ e : Fin 384,
          Cert.Spec.cat3 (fun l => v78 (ix3 b n l)) (fun l => v111 (ix3 b n l)) (fun l => unheads v141 (ix3 b n l)) e
            * v148 (ix2 e c))
        + v151 (ix2 (0 : Fin 1) c) := by
  unfold k0_pay1
  refine (Out.castBlock_apply _ _ b n c).trans ?_
  refine (addf_apply _ _ _).trans ?_
  refine congrArg₂ (· + ·) ?_ (Out.rowBc_apply v151 (Out.row b n) c)
  refine (Out.mm_apply _ _ (Out.row b n) c).trans ?_
  refine Finset.sum_congr rfl fun e _ => ?_
  refine congrArg₂ (· * ·) ?_ (by rw [shapeCast_self])
  refine (truncf_apply (ψ := .bf16) _ bitsLt_bf16_f32 _).trans ?_
  refine (Out.castTable_apply _ _ b n e).trans ?_
  exact Out.cat_apply v78 v111 (unheads v141) b n e

end Cert.KerValue

end
-- ==== Proof.KerBlock.lean ====
/-
  What the kernel body leaves in its output block, at one entry: the specification's result for the 32 windows of
  the block.  The three head groups are the specification's averaged values at lanes 0-127, 128-255 and 256-383
  (head 4 g + hh of the specification is head hh of group g, and lane 128 g + 32 hh + d of the three projections
  is lane d of that head); the weight blocks are read through their transposes (row e of W is column e of the
  [384, 1152] block, and likewise for the output weights).
-/
import proofs.«430181_j71193377899400_3_alg».proof.Proof.Spec
import proofs.«430181_j71193377899400_3_alg».proof.Proof.KerDefs
import proofs.«430181_j71193377899400_3_alg».proof.Proof.KerLN
import proofs.«430181_j71193377899400_3_alg».proof.Proof.KerGroup
import proofs.«430181_j71193377899400_3_alg».proof.Proof.KerOut
import proofs.«430181_j71193377899400_3_alg».proof.Proof.Gen.KernelIdeal.Frame
import Idealize.ShloMosaic.Lib.ValueIdx
import Idealize.ShloMosaic.Lib.Pipeline.Value

noncomputable section

open scoped BigOperators

namespace Cert.KerValue

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The three [384, 384] slabs of the [384, 1152] weight block, read at (c, e): columns e, 384 + e, 768 + e. -/
theorem ld_q (x3 : Vec Ideal S384x1152 .bf16) (c e : Fin 384) : View.ld x3 r0_2 (ix2 c e) = x3 (ix2 c (Cert.Spec.qRow e)) := by
  refine congrArg x3 (funext fun a => Fin.ext ?_)
  match a with
  | ⟨0, _⟩ => show 0 + 1 * c.val = c.val; omega
  | ⟨1, _⟩ => show 0 + 1 * e.val = e.val; omega
theorem ld_k (x3 : Vec Ideal S384x1152 .bf16) (c e : Fin 384) : View.ld x3 r0_3 (ix2 c e) = x3 (ix2 c (Cert.Spec.kRow e)) := by
  refine congrArg x3 (funext fun a => Fin.ext ?_)
  match a with
  | ⟨0, _⟩ => show 0 + 1 * c.val = c.val; omega
  | ⟨1, _⟩ => show 384 + 1 * e.val = 384 + e.val; omega
theorem ld_v (x3 : Vec Ideal S384x1152 .bf16) (c e : Fin 384) : View.ld x3 r0_4 (ix2 c e) = x3 (ix2 c (Cert.Spec.vRow e)) := by
  refine congrArg x3 (funext fun a => Fin.ext ?_)
  match a with
  | ⟨0, _⟩ => show 0 + 1 * c.val = c.val; omega
  | ⟨1, _⟩ => show 768 + 1 * e.val = 768 + e.val; omega

/-- The bias block is loaded and cast to its own shape: nothing changes. -/
theorem pay6_eq (x6 : Vec Ideal S12x64x64 .f32) : k0_pay6 x6 = x6 := shapeCast_self _ _

section
variable (x0 : Vec Ideal S32x64x384 .f32) (x1 x2 : Vec Ideal S1x384 .f32) (x3 : Vec Ideal S384x1152 .bf16)
  (x4 : Vec Ideal S384x384 .bf16) (x5 : Vec Ideal S1x384 .f32) (x6 : Vec Ideal S12x64x64 .f32)

/-- The block's inputs as the specification takes them. -/
abbrev sX : Fin 32 → Fin 64 → Fin 384 → EReal := fun B n c => x0 (ix3 B n c)
abbrev sG : Fin 384 → EReal := fun c => x1 (ix2 (0 : Fin 1) c)
abbrev sB : Fin 384 → EReal := fun c => x2 (ix2 (0 : Fin 1) c)
abbrev sW : Fin 1152 → Fin 384 → EReal := fun e c => x3 (ix2 c e)
abbrev sWo : Fin 384 → Fin 384 → EReal := fun c e => x4 (ix2 e c)
abbrev sBo : Fin 384 → EReal := fun c => x5 (ix2 (0 : Fin 1) c)
abbrev sBias : Fin 12 → Fin 64 → Fin 64 → EReal := fun h n m => x6 (ix3 h n m)

/-- The scaled queries, the keys and the values of the block are the specification's projections. -/
theorem q_apply (b : Fin 32) (n : Fin 64) (e : Fin 384) :
    k0_pay3 x0 x1 x2 (View.ld x3 r0_2) (ix3 b n e)
      = Cert.Spec.proj (sX x0) (sG x1) (sB x2) (sW x3) b n (Cert.Spec.qRow e) * Cert.Spec.scale := by
  rw [pay3_apply]
  refine congrArg (· * Cert.Spec.scale) (Finset.sum_congr rfl fun c _ => ?_)
  rw [pay2_apply, ld_q]
theorem k_apply (b : Fin 32) (n : Fin 64) (e : Fin 384) :
    k0_pay4 x0 x1 x2 (View.ld x3 r0_3) (ix3 b n e)
      = Cert.Spec.proj (sX x0) (sG x1) (sB x2) (sW x3) b n (Cert.Spec.kRow e) := by
  rw [pay4_apply]
  refine Finset.sum_congr rfl fun c _ => ?_
  rw [pay2_apply, ld_k]
theorem v_apply (b : Fin 32) (n : Fin 64) (e : Fin 384) :
    k0_pay5 (k0_pay2 x0 x1 x2) (View.ld x3 r0_4) (ix3 b n e)
      = Cert.Spec.proj (sX x0) (sG x1) (sB x2) (sW x3) b n (Cert.Spec.vRow e) := by
  rw [pay5_apply]
  refine Finset.sum_congr rfl fun c _ => ?_
  rw [pay2_apply, ld_v]

/-- Group gq (lanes 128 gq …, heads 4 gq …) of the body at lane l of (b, n): the specification's averaged value at
    lane 128 gq + l. -/
theorem group_apply (gq o ob : ℕ) (hgq : gq < 3) (ho : o = 128 * gq) (hob : ob = 4 * gq)
    (hs : S32x64x384.Slices ![0, 0, o] S32x64x128) (hb : S12x64x64.Slices ![ob, 0, 0] S4x64x64)
    (b : Fin 32) (n : Fin 64) (l : Fin 128) :
    unheads (gCore (heads o hs (k0_pay3 x0 x1 x2 (View.ld x3 r0_2))) (heads o hs (k0_pay4 x0 x1 x2 (View.ld x3 r0_3)))
        (heads o hs (k0_pay5 (k0_pay2 x0 x1 x2) (View.ld x3 r0_4))) (bias4 ob hb x6)) (ix3 b n l)
      = Cert.Spec.attn (sX x0) (sG x1) (sB x2) (sW x3) (sBias x6) b n (⟨o + l.val, by omega⟩ : Fin 384) := by
  subst ho hob
  obtain ⟨hh, d, rfl⟩ : ∃ (hh : Fin 4) (d : Fin 32), l = (⟨hh.val * 32 + d.val, by omega⟩ : Fin 128) :=
    ⟨⟨l.val / 32, by omega⟩, ⟨l.val % 32, Nat.mod_lt _ (by omega)⟩, Fin.ext (by show l.val = l.val / 32 * 32 + l.val % 32; omega)⟩
  rw [unheads_apply, gCore_apply, Cert.Spec.attn_eq_softAvg]
  have hhead : Cert.Spec.headOf (⟨128 * gq + (hh.val * 32 + d.val), by omega⟩ : Fin 384) = (⟨4 * gq + hh.val, by omega⟩ : Fin 12) :=
    Fin.ext (by show (128 * gq + (hh.val * 32 + d.val)) / 32 = 4 * gq + hh.val; omega)
  rw [hhead]
  congr 1
  · funext m
    unfold Cert.Spec.score
    congr 1
    · refine Finset.sum_congr rfl fun d' _ => ?_
      rw [heads_apply _ _ (by omega), heads_apply _ _ (by omega), q_apply, k_apply]
      have hl : (⟨128 * gq + hh.val * 32 + d'.val, by omega⟩ : Fin 384) = Cert.Spec.lane (⟨4 * gq + hh.val, by omega⟩ : Fin 12) d' :=
        Fin.ext (by show 128 * gq + hh.val * 32 + d'.val = (4 * gq + hh.val) * 32 + d'.val; omega)
      rw [hl]
    · rw [bias4_apply _ _ (by omega)]
  · funext m
    rw [heads_apply _ _ (by omega), v_apply]
    have hl : (⟨128 * gq + hh.val * 32 + d.val, by omega⟩ : Fin 384) = (⟨128 * gq + (hh.val * 32 + d.val), by omega⟩ : Fin 384) :=
      Fin.ext (by show 128 * gq + hh.val * 32 + d.val = 128 * gq + (hh.val * 32 + d.val); omega)
    rw [hl]

/-- THE BLOCK: what the body leaves at (b, n, c) is the specification's result for the block's 32 windows. -/
theorem out0_7_apply (b : Fin 32) (n : Fin 64) (c : Fin 384) :
    out0_7 x0 x1 x2 x3 x4 x5 x6 (ix3 b n c)
      = Cert.Spec.out (sX x0) (sG x1) (sB x2) (sW x3) (sWo x4) (sBo x5) (sBias x6) b n c := by
  unfold out0_7
  rw [View.canon_unit_zero hz3]
  simp only [View.ld_unit_zero (S := S32x64x384) hz3, View.ld_unit_zero (S := S1x384) hz2,
    View.ld_unit_zero (S := S12x64x64) hz3, View.ld_unit_zero (S := S384x384) hz2]
  rw [pay1_apply, pay7_eq, pay11_eq, pay12_eq, pay6_eq]
  unfold Cert.Spec.out
  refine congrArg (· + x5 (ix2 (0 : Fin 1) c)) (Finset.sum_congr rfl fun e _ => ?_)
  refine congrArg (· * x4 (ix2 e c)) ?_
  unfold Cert.Spec.cat3
  split
  · rename_i h
    refine (group_apply x0 x1 x2 x3 x6 0 0 0 (by omega) rfl rfl _ _ b n ⟨e.val, h⟩).trans ?_
    exact congrArg _ (Fin.ext (by show 0 + e.val = e.val; omega))
  · split
    · rename_i h h2
      refine (group_apply x0 x1 x2 x3 x6 1 128 4 (by omega) rfl rfl _ _ b n ⟨e.val - 128, by omega⟩).trans ?_
      exact congrArg _ (Fin.ext (by show 128 + (e.val - 128) = e.val; omega))
    · rename_i h h2
      refine (group_apply x0 x1 x2 x3 x6 2 256 8 (by omega) rfl rfl _ _ b n ⟨e.val - 256, by omega⟩).trans ?_
      exact congrArg _ (Fin.ext (by show 256 + (e.val - 256) = e.val; have := e.isLt; omega))

end

end Cert.KerValue

end
-- ==== Proof.KerArray.lean ====
/-
  From the blocks the kernel writes to the whole result array.  The arrays the windows stage are what the host
  operations before the launch made of the arguments: g, b and the output shift as [1, 384] rows, the two weight
  matrices transposed, and the bias table gathered at the relative-position indices and turned head-major.  Grid
  point t stages windows 32 t … 32 t + 31 of x and writes the same windows of the result; every other window is
  staged whole.  So point t's block is the specification's result for those 32 windows, a window's result reads only
  that window of x, the 64 blocks cover the array, and the array ends as the specification's result of the
  arguments.
-/
import proofs.«430181_j71193377899400_3_alg».proof.Proof.Gen.KernelIdeal.Value
import proofs.«430181_j71193377899400_3_alg».proof.Proof.Spec
import proofs.«430181_j71193377899400_3_alg».proof.Proof.KerBlock
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KerValue

open Idealize.ShloMosaic Idealize.ShloMosaic.TcCoe Idealize.ShloMosaic.ValueIdx Idealize.SL.Sem
open Cert.KernelIdeal Cert.KernelIdeal.Gen
open Idealize.ShloMosaic.Pipeline (Dat)

/-- The bias table read at the relative-position indices (a negative index wrapped by 225 first), head-major: the
    kernel program's own host operations. -/
def kBias (tbl : FVec Ideal S225x12 .f32) (idx : IVec S64x64 32) : FVec Ideal S12x64x64 .f32 :=
  transpose S12x64x64 [2, 0, 1]
    (Host.gather gather_S225x12_S64x64x1_S64x64x12_2_0_n_n_0_2_112 tbl
      (broadcastInDim S64x64x1 ![0, 1] bcast_S64x64_S64x64x1_0_1
        (select (cmpi .slt idx (broadcastInDim S64x64 ![] bcast_S_S64x64 (constantI S_ 32 0#32)))
          (addi idx (broadcastInDim S64x64 ![] bcast_S_S64x64 (constantI S_ 32 225#32))) idx)))
    transposes_S64x64x12_S12x64x64_2_0_1

variable (m : (ℓ : Loc nD τ sig) → Buf (Elt Ideal) ℓ) (ρ : Dev nD → PrngReg)

/-! ## What the staged arrays hold when the region is entered -/

theorem V_v12 (c : Dev nD) :
    (V m c main_v12 : S1x384.Idx → EReal) = shapeCast S1x384 (m ((c : Thread nD τ).loc main_arg1)) shapeCasts_S384_S1x384 := by
  dsimp only [Gen.V, Gen.hostOps0]; after_results; rfl
theorem V_v13 (c : Dev nD) :
    (V m c main_v13 : S1x384.Idx → EReal) = shapeCast S1x384 (m ((c : Thread nD τ).loc main_arg2)) shapeCasts_S384_S1x384 := by
  dsimp only [Gen.V, Gen.hostOps0]; after_results; rfl
theorem V_v14 (c : Dev nD) :
    (V m c main_v14 : S1x384.Idx → EReal) = shapeCast S1x384 (m ((c : Thread nD τ).loc main_arg5)) shapeCasts_S384_S1x384 := by
  dsimp only [Gen.V, Gen.hostOps0]; after_results; rfl
theorem V_v9 (c : Dev nD) :
    (V m c main_v9 : S384x1152.Idx → EReal)
      = (truncf (F := Ideal) .bf16 (transpose S384x1152 [1, 0] (m ((c : Thread nD τ).loc main_arg3)) transposes_S1152x384_S384x1152_1_0) bitsLt_bf16_f32 : S384x1152.Idx → EReal) := by
  dsimp only [Gen.V, Gen.hostOps0]; after_results
theorem V_v11 (c : Dev nD) :
    (V m c main_v11 : S384x384.Idx → EReal)
      = (truncf (F := Ideal) .bf16 (transpose S384x384 [1, 0] (m ((c : Thread nD τ).loc main_arg4)) transposes_S384x384_S384x384_1_0) bitsLt_bf16_f32 : S384x384.Idx → EReal) := by
  dsimp only [Gen.V, Gen.hostOps0]; after_results
theorem V_v7 (c : Dev nD) :
    (V m c main_v7 : S12x64x64.Idx → EReal) = kBias (m ((c : Thread nD τ).loc main_arg6)) (m ((c : Thread nD τ).loc main_arg7)) := by
  dsimp only [Gen.V, Gen.hostOps0]; after_results; rfl

/-! ## The windows' index maps, decided over the 64 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)

/-- Window 32 t + B of the batch: window B of the block grid point t stages. -/
def gwin (t : Fin cfg0.N) (B : Fin 32) : Fin 2048 :=
  ⟨32 * t.val + B.val, by have := t.isLt; have hN : cfg0.N = 64 := N_0; omega⟩

/-! ## The windows' blocks, read back to the arguments -/

theorem iblk0_apply (c : Dev nD) (t : Fin cfg0.N) (B : Fin 32) (n : Fin 64) (cc : Fin 384) :
    (iblk m c 0 t : Vec Ideal S32x64x384 .f32) (ix3 B n cc) = (m ((c : Thread nD τ).loc main_arg0) : S2048x64x384.Idx → EReal) (ix3 (gwin t B) n cc) := by
  obtain ⟨e0, e1, e2⟩ := idx0 t
  unfold iblk
  show V m c main_arg0 (((cfg0.win 0).blk t).view.emb (ix3 B n cc)) = _
  rw [V_main_arg0]
  refine congrArg _ (funext fun a => Fin.ext ?_)
  match a with
  | ⟨0, _⟩ => show win0_0.index t (0 : Fin 3) * 32 + 1 * B.val = 32 * t.val + B.val; omega
  | ⟨1, _⟩ => show win0_0.index t (1 : Fin 3) * 64 + 1 * n.val = n.val; omega
  | ⟨2, _⟩ => show win0_0.index t (2 : Fin 3) * 384 + 1 * cc.val = cc.val; omega

theorem iblk1_apply (c : Dev nD) (t : Fin cfg0.N) (cc : Fin 384) :
    (iblk m c 1 t : Vec Ideal S1x384 .f32) (ix2 (0 : Fin 1) cc) = (m ((c : Thread nD τ).loc main_arg1) : S384.Idx → EReal) (ix1 cc) := by
  obtain ⟨e0, e1⟩ := idx1 t
  unfold iblk
  show V m c main_v12 (((cfg0.win 1).blk t).view.emb (ix2 (0 : Fin 1) cc)) = _
  have he : ((cfg0.win 1).blk t).view.emb (ix2 (0 : Fin 1) cc) = ix2 (0 : Fin 1) cc := by
    funext a; apply Fin.ext
    match a with
    | ⟨0, _⟩ => show win0_1.index t (0 : Fin 2) * 1 + 1 * 0 = 0; omega
    | ⟨1, _⟩ => show win0_1.index t (1 : Fin 2) * 384 + 1 * cc.val = cc.val; omega
  rw [he, V_v12]
  exact shapeCast_a_1a_apply _ _ _ _

theorem iblk2_apply (c : Dev nD) (t : Fin cfg0.N) (cc : Fin 384) :
    (iblk m c 2 t : Vec Ideal S1x384 .f32) (ix2 (0 : Fin 1) cc) = (m ((c : Thread nD τ).loc main_arg2) : S384.Idx → EReal) (ix1 cc) := by
  obtain ⟨e0, e1⟩ := idx2 t
  unfold iblk
  show V m c main_v13 (((cfg0.win 2).blk t).view.emb (ix2 (0 : Fin 1) cc)) = _
  have he : ((cfg0.win 2).blk t).view.emb (ix2 (0 : Fin 1) cc) = ix2 (0 : Fin 1) cc := by
    funext a; apply Fin.ext
    match a with
    | ⟨0, _⟩ => show win0_2.index t (0 : Fin 2) * 1 + 1 * 0 = 0; omega
    | ⟨1, _⟩ => show win0_2.index t (1 : Fin 2) * 384 + 1 * cc.val = cc.val; omega
  rw [he, V_v13]
  exact shapeCast_a_1a_apply _ _ _ _

theorem iblk5_apply (c : Dev nD) (t : Fin cfg0.N) (cc : Fin 384) :
    (iblk m c 5 t : Vec Ideal S1x384 .f32) (ix2 (0 : Fin 1) cc) = (m ((c : Thread nD τ).loc main_arg5) : S384.Idx → EReal) (ix1 cc) := by
  obtain ⟨e0, e1⟩ := idx5 t
  unfold iblk
  show V m c main_v14 (((cfg0.win 5).blk t).view.emb (ix2 (0 : Fin 1) cc)) = _
  have he : ((cfg0.win 5).blk t).view.emb (ix2 (0 : Fin 1) cc) = ix2 (0 : Fin 1) cc := by
    funext a; apply Fin.ext
    match a with
    | ⟨0, _⟩ => show win0_5.index t (0 : Fin 2) * 1 + 1 * 0 = 0; omega
    | ⟨1, _⟩ => show win0_5.index t (1 : Fin 2) * 384 + 1 * cc.val = cc.val; omega
  rw [he, V_v14]
  exact shapeCast_a_1a_apply _ _ _ _

theorem iblk3_apply (c : Dev nD) (t : Fin cfg0.N) (cc : Fin 384) (e : Fin 1152) :
    (iblk m c 3 t : Vec Ideal S384x1152 .bf16) (ix2 cc e) = (m ((c : Thread nD τ).loc main_arg3) : S1152x384.Idx → EReal) (ix2 e cc) := by
  obtain ⟨e0, e1⟩ := idx3 t
  unfold iblk
  show V m c main_v9 (((cfg0.win 3).blk t).view.emb (ix2 cc e)) = _
  have he : ((cfg0.win 3).blk t).view.emb (ix2 cc e) = ix2 cc e := by
    funext a; apply Fin.ext
    match a with
    | ⟨0, _⟩ => show win0_3.index t (0 : Fin 2) * 384 + 1 * cc.val = cc.val; omega
    | ⟨1, _⟩ => show win0_3.index t (1 : Fin 2) * 1152 + 1 * e.val = e.val; omega
  rw [he, V_v9]
  exact transpose_ix2_apply _ _ _ _

theorem iblk4_apply (c : Dev nD) (t : Fin cfg0.N) (e cc : Fin 384) :
    (iblk m c 4 t : Vec Ideal S384x384 .bf16) (ix2 e cc) = (m ((c : Thread nD τ).loc main_arg4) : S384x384.Idx → EReal) (ix2 cc e) := by
  obtain ⟨e0, e1⟩ := idx4 t
  unfold iblk
  show V m c main_v11 (((cfg0.win 4).blk t).view.emb (ix2 e cc)) = _
  have he : ((cfg0.win 4).blk t).view.emb (ix2 e cc) = ix2 e cc := by
    funext a; apply Fin.ext
    match a with
    | ⟨0, _⟩ => show win0_4.index t (0 : Fin 2) * 384 + 1 * e.val = e.val; omega
    | ⟨1, _⟩ => show win0_4.index t (1 : Fin 2) * 384 + 1 * cc.val = cc.val; omega
  rw [he, V_v11]
  exact transpose_ix2_apply _ _ _ _

theorem iblk6_apply (c : Dev nD) (t : Fin cfg0.N) (h : Fin 12) (n mm : Fin 64) :
    (iblk m c 6 t : Vec Ideal S12x64x64 .f32) (ix3 h n mm)
      = kBias (m ((c : Thread nD τ).loc main_arg6)) (m ((c : Thread nD τ).loc main_arg7)) (ix3 h n mm) := by
  obtain ⟨e0, e1, e2⟩ := idx6 t
  unfold iblk
  show V m c main_v7 (((cfg0.win 6).blk t).view.emb (ix3 h n mm)) = _
  have he : ((cfg0.win 6).blk t).view.emb (ix3 h n mm) = ix3 h n mm := by
    funext a; apply Fin.ext
    match a with
    | ⟨0, _⟩ => show win0_6.index t (0 : Fin 3) * 12 + 1 * h.val = h.val; omega
    | ⟨1, _⟩ => show win0_6.index t (1 : Fin 3) * 64 + 1 * n.val = n.val; omega
    | ⟨2, _⟩ => show win0_6.index t (2 : Fin 3) * 64 + 1 * mm.val = mm.val; omega
  rw [he, V_v7]

/-! ## The whole array -/

/-- The result array as one function of the argument arrays: the specification over all 2048 windows. -/
def Gk (c : Dev nD) : S2048x64x384.Idx → EReal := fun i =>
  Cert.Spec.out
    (fun B n cc => (m ((c : Thread nD τ).loc main_arg0) : S2048x64x384.Idx → EReal) (ix3 B n cc))
    (fun cc => (m ((c : Thread nD τ).loc main_arg1) : S384.Idx → EReal) (ix1 cc))
    (fun cc => (m ((c : Thread nD τ).loc main_arg2) : S384.Idx → EReal) (ix1 cc))
    (fun e cc => (m ((c : Thread nD τ).loc main_arg3) : S1152x384.Idx → EReal) (ix2 e cc))
    (fun cc e => (m ((c : Thread nD τ).loc main_arg4) : S384x384.Idx → EReal) (ix2 cc e))
    (fun cc => (m ((c : Thread nD τ).loc main_arg5) : S384.Idx → EReal) (ix1 cc))
    (fun h n mm => kBias (m ((c : Thread nD τ).loc main_arg6)) (m ((c : Thread nD τ).loc main_arg7)) (ix3 h n mm))
    (i 0) (i 1) (i 2)

/-- WHAT POINT t WRITES BACK is block t of that function. -/
theorem flushed_eq (c : Dev nD) (t : Fin cfg0.N) :
    (dats m 0 c).flushed 7 t = ((cfg0.win 7).blk t).view.read (Elt Ideal) (Gk m c) := by
  obtain ⟨e0, e1, e2⟩ := idx7 t
  rw [Cert.KernelIdeal.Value.flushed7]
  funext y
  obtain ⟨B, n, cc, rfl⟩ : ∃ (B : Fin 32) (n : Fin 64) (cc : Fin 384), y = ix3 B n cc := ⟨y 0, y 1, y 2, eq_ix3 y⟩
  show out0_7 (iblk m c 0 t) (iblk m c 1 t) (iblk m c 2 t) (iblk m c 3 t) (iblk m c 4 t) (iblk m c 5 t) (iblk m c 6 t) (ix3 B n cc)
    = Gk m c (((cfg0.win 7).blk t).view.emb (ix3 B n cc))
  have he : ((cfg0.win 7).blk t).view.emb (ix3 B n cc) = ix3 (gwin t B) n cc := by
    funext a; apply Fin.ext
    match a with
    | ⟨0, _⟩ => show win0_7.index t (0 : Fin 3) * 32 + 1 * B.val = 32 * t.val + B.val; omega
    | ⟨1, _⟩ => show win0_7.index t (1 : Fin 3) * 64 + 1 * n.val = n.val; omega
    | ⟨2, _⟩ => show win0_7.index t (2 : Fin 3) * 384 + 1 * cc.val = cc.val; omega
  rw [he, out0_7_apply]
  have hG : sG (iblk m c 1 t) = fun cc => (m ((c : Thread nD τ).loc main_arg1) : S384.Idx → EReal) (ix1 cc) :=
    funext fun cc => iblk1_apply m c t cc
  have hB : sB (iblk m c 2 t) = fun cc => (m ((c : Thread nD τ).loc main_arg2) : S384.Idx → EReal) (ix1 cc) :=
    funext fun cc => iblk2_apply m c t cc
  have hW : sW (iblk m c 3 t) = fun e cc => (m ((c : Thread nD τ).loc main_arg3) : S1152x384.Idx → EReal) (ix2 e cc) :=
    funext fun e => funext fun cc => iblk3_apply m c t cc e
  have hWo : sWo (iblk m c 4 t) = fun cc e => (m ((c : Thread nD τ).loc main_arg4) : S384x384.Idx → EReal) (ix2 cc e) :=
    funext fun cc => funext fun e => iblk4_apply m c t e cc
  have hBo : sBo (iblk m c 5 t) = fun cc => (m ((c : Thread nD τ).loc main_arg5) : S384.Idx → EReal) (ix1 cc) :=
    funext fun cc => iblk5_apply m c t cc
  have hBias : sBias (iblk m c 6 t) = fun h n mm => kBias (m ((c : Thread nD τ).loc main_arg6)) (m ((c : Thread nD τ).loc main_arg7)) (ix3 h n mm) :=
    funext fun h => funext fun n => funext fun mm => iblk6_apply m c t h n mm
  rw [hG, hB, hW, hWo, hBo, hBias]
  exact (Cert.Spec.out_local _ _ _ _ _ _ _ _ (gwin t B) B
    (funext fun n => funext fun cc => (iblk0_apply m c t B n cc).symm) n cc).symm

/-- An index of the array is in point t's block iff each coordinate is in the block's range on its axis. -/
theorem mem_blk (t : Fin cfg0.N) (i : S2048x64x384.Idx) :
    i ∈ ((cfg0.win 7).blk t).view.set ↔ ∀ a : Fin 3, win0_7.index t a * S32x64x384.size a ≤ (i a).val ∧ (i a).val < win0_7.index t a * S32x64x384.size a + S32x64x384.size a := by
  show i ∈ ((View.whole main_v15).slice (win0_7.rect t)).set ↔ _
  rw [View.set_slice_whole, Rect.mem_set_unit]
  exact Iff.rfl

/-- Every entry of the array is in some point's block: window B of the batch is in block B / 32. -/
theorem cover (i : S2048x64x384.Idx) :
    ∃ t : Fin cfg0.N, (cfg0.win 7).flush t = true ∧ i ∈ ((cfg0.win 7).blk t).view.set := by
  have hi0 : (i 0).val < 2048 := (i 0).isLt
  have hi1 : (i 1).val < 64 := (i 1).isLt
  have hi2 : (i 2).val < 384 := (i 2).isLt
  have hN : cfg0.N = 64 := N_0
  obtain ⟨t, ht⟩ : ∃ t : Fin cfg0.N, t.val = (i 0).val / 32 := ⟨⟨(i 0).val / 32, by omega⟩, rfl⟩
  obtain ⟨e0, e1, e2⟩ := idx7 t
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 64 ≤ (i 1).val ∧ (i 1).val < win0_7.index t (1 : Fin 3) * 64 + 64; omega
  | ⟨2, _⟩ => show win0_7.index t (2 : Fin 3) * 384 ≤ (i 2).val ∧ (i 2).val < win0_7.index t (2 : Fin 3) * 384 + 384; omega

/-- THE ARRAY after the run is the specification's result of the arguments. -/
theorem final (c : Dev nD) : (dats m 0 c).arrAt 7 cfg0.N = Gk m c :=
  (dats m 0 c).arrAt_eq_of_cover 7 (Gk m c) (fun t _ => flushed_eq m c t) cover

/-- The kernel's run: it terminates with the result array at the specification's result and the arguments unchanged. -/
theorem run : θ_run (defs (F := Ideal)) (onTc (τ := τ) (main (F := Ideal))) ⟨m, fun _ => 0, ρ⟩ fun r => ∀ c : Dev nD,
      r.2.mem ((c : Thread nD τ).loc main_v15) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KerValue

end
-- ==== Proof.RefStages.lean ====
/-
  The reference's host program cut into stages, each the printed operations' own term of its operands: the mean and
  the variance of each token, the normalised tokens, the projection by W with its five-axis reshape, one third of
  it laid out by head, the bias table gathered at the relative-position indices and turned head-major, the scores,
  the row maximum, the shifted exponentials, the attention weights, the averaged values back in token-major lanes,
  and the output projection.  `refOut` composes them in the program's order.
-/
import proofs.«430181_j71193377899400_3_alg».proof.Proof.Gen.ReferenceIdeal
import Idealize.ShloMosaic.PureOps.Ideal

noncomputable section

namespace Cert.RefValue

open Idealize.ShloMosaic Cert.ReferenceIdeal Cert.ReferenceIdeal.Facts₀

/-- The token means, kept as a column. -/
def rMean (x : FVec Ideal S2048x64x384 .f32) : FVec Ideal S2048x64x1 .f32 :=
  Host.divf
    (broadcastInDim S2048x64x1 ![0, 1] bcast_S2048x64_S2048x64x1_0_1
      (Host.reduceAdd x (constant S_ .f32 0x00000000#32) reducesTo_S2048x64x384_S2048x64_d2 h_S_))
    (broadcastInDim S2048x64x1 ![] bcast_S_S2048x64x1 (constant S_ .f32 0x43C00000#32))

/-- The number the variance divides by: 384 minus the correction 0 converted to a float. -/
def rNorm : FVec Ideal S_ .f32 :=
  subf (constant S_ .f32 0x43C00000#32) (sitofp .f32 (constantI S_ 32 0#32))

/-- The token variances, kept as a column: the sum of squared centred entries over the normaliser where the
    normaliser is positive, a fixed junk word elsewhere. -/
def rVar (x : FVec Ideal S2048x64x384 .f32) : FVec Ideal S2048x64x1 .f32 :=
  select (broadcastInDim S2048x64x1 ![] bcast_S_S2048x64x1 (cmpf .ogt rNorm (constant S_ .f32 0x00000000#32)))
    (Host.divf
      (broadcastInDim S2048x64x1 ![0, 1] bcast_S2048x64_S2048x64x1_0_1
        (Host.reduceAdd
          (mulf (subf x (broadcastInDim S2048x64x384 ![0, 1, 2] bcast_S2048x64x1_S2048x64x384_0_1_2 (rMean x)))
                (subf x (broadcastInDim S2048x64x384 ![0, 1, 2] bcast_S2048x64x1_S2048x64x384_0_1_2 (rMean x))))
          (constant S_ .f32 0x00000000#32) reducesTo_S2048x64x384_S2048x64_d2 h_S_))
      (broadcastInDim S2048x64x1 ![] bcast_S_S2048x64x1 rNorm))
    (broadcastInDim S2048x64x1 ![] bcast_S_S2048x64x1 (id (constant S_ .f32 0x7FC00000#32)))

/-- The normalised tokens, scaled by g and shifted by b along the channels. -/
def rXn (x : FVec Ideal S2048x64x384 .f32) (g b : FVec Ideal S384 .f32) : FVec Ideal S2048x64x384 .f32 :=
  addf
    (mulf
      (mulf (subf x (broadcastInDim S2048x64x384 ![0, 1, 2] bcast_S2048x64x1_S2048x64x384_0_1_2 (rMean x)))
        (broadcastInDim S2048x64x384 ![0, 1, 2] bcast_S2048x64x1_S2048x64x384_0_1_2
          (Host.rsqrt (addf (rVar x) (broadcastInDim S2048x64x1 ![] bcast_S_S2048x64x1 (constant S_ .f32 0x3727C5AC#32))))))
      (broadcastInDim S2048x64x384 ![0, 1, 2] bcast_S1x1x384_S2048x64x384_0_1_2
        (broadcastInDim S1x1x384 ![2] bcast_S384_S1x1x384_2 g)))
    (broadcastInDim S2048x64x384 ![0, 1, 2] bcast_S1x1x384_S2048x64x384_0_1_2
      (broadcastInDim S1x1x384 ![2] bcast_S384_S1x1x384_2 b))

/-- The projection by the 1152 rows of W, its lanes split as (third, head, lane in head). -/
def rQkv (xn : FVec Ideal S2048x64x384 .f32) (W : FVec Ideal S1152x384 .f32) : FVec Ideal S2048x64x3x12x32 .f32 :=
  shapeCast S2048x64x3x12x32
    (Host.dotGeneral dot_S2048x64x384_S1152x384_S2048x64x1152_2_1_01_0_n_n none xn W)
    shapeCasts_S2048x64x1152_S2048x64x3x12x32

/-- Third `o` of the projection (0 the queries, 1 the keys, 2 the values), head-major. -/
def rHead (o : ℕ) (hs : S2048x64x3x12x32.Slices ![0, 0, o, 0, 0] S2048x64x1x12x32)
    (qkv : FVec Ideal S2048x64x3x12x32 .f32) : FVec Ideal S2048x12x64x32 .f32 :=
  transpose S2048x12x64x32 [0, 2, 1, 3]
    (shapeCast S2048x64x12x32 (extractStridedSlice S2048x64x1x12x32 ![0, 0, o, 0, 0] qkv hs)
      shapeCasts_S2048x64x1x12x32_S2048x64x12x32)
    transposes_S2048x64x12x32_S2048x12x64x32_0_2_1_3

/-- The bias table read at the relative-position indices (a negative index wrapped by 225 first), head-major. -/
def rBias (tbl : FVec Ideal S225x12 .f32) (idx : IVec S64x64 32) : FVec Ideal S12x64x64 .f32 :=
  transpose S12x64x64 [2, 0, 1]
    (Host.gather gather_S225x12_S64x64x1_S64x64x12_2_0_n_n_0_2_112 tbl
      (broadcastInDim S64x64x1 ![0, 1] bcast_S64x64_S64x64x1_0_1
        (select (cmpi .slt idx (broadcastInDim S64x64 ![] bcast_S_S64x64 (constantI S_ 32 0#32)))
          (addi idx (broadcastInDim S64x64 ![] bcast_S_S64x64 (constantI S_ 32 225#32))) idx)))
    transposes_S64x64x12_S12x64x64_2_0_1

/-- The scores: scaled queries against keys over the 32 lanes of a head, plus the bias. -/
def rScores (q k : FVec Ideal S2048x12x64x32 .f32) (bias : FVec Ideal S12x64x64 .f32) : FVec Ideal S2048x12x64x64 .f32 :=
  addf
    (Host.dotGeneral dot_S2048x12x64x32_S2048x12x64x32_S2048x12x64x64_3_3_2_2_01_01 none
      (mulf q (broadcastInDim S2048x12x64x32 ![] bcast_S_S2048x12x64x32 (constant S_ .f32 0x3E3504F3#32))) k)
    (broadcastInDim S2048x12x64x64 ![0, 1, 2, 3] bcast_S1x12x64x64_S2048x12x64x64_0_1_2_3
      (broadcastInDim S1x12x64x64 ![1, 2, 3] bcast_S12x64x64_S1x12x64x64_1_2_3 bias))

/-- The row maxima of the scores (folded from minus infinity, then once more against minus infinity). -/
def rMax (s : FVec Ideal S2048x12x64x64 .f32) : FVec Ideal S2048x12x64 .f32 :=
  maximumf (broadcastInDim S2048x12x64 ![] bcast_S_S2048x12x64 (constant S_ .f32 0xFF800000#32))
    (Host.reduce FloatOps.maximumf s (constant S_ .f32 0xFF800000#32) reducesTo_S2048x12x64x64_S2048x12x64_d3 h_S_)

/-- The exponentials of the scores shifted by their row maximum. -/
def rExp (s : FVec Ideal S2048x12x64x64 .f32) : FVec Ideal S2048x12x64x64 .f32 :=
  Host.exp (subf s
    (broadcastInDim S2048x12x64x64 ![0, 1, 2, 3] bcast_S2048x12x64x1_S2048x12x64x64_0_1_2_3
      (broadcastInDim S2048x12x64x1 ![0, 1, 2] bcast_S2048x12x64_S2048x12x64x1_0_1_2 (rMax s))))

/-- The attention weights: each exponential over its row sum. -/
def rProb (s : FVec Ideal S2048x12x64x64 .f32) : FVec Ideal S2048x12x64x64 .f32 :=
  Host.divf (rExp s)
    (broadcastInDim S2048x12x64x64 ![0, 1, 2, 3] bcast_S2048x12x64x1_S2048x12x64x64_0_1_2_3
      (broadcastInDim S2048x12x64x1 ![0, 1, 2] bcast_S2048x12x64_S2048x12x64x1_0_1_2
        (Host.reduceAdd (rExp s) (constant S_ .f32 0x00000000#32) reducesTo_S2048x12x64x64_S2048x12x64_d3 h_S_)))

/-- The weighted values, back to token-major with the heads' lanes side by side. -/
def rAttn (p : FVec Ideal S2048x12x64x64 .f32) (v : FVec Ideal S2048x12x64x32 .f32) : FVec Ideal S2048x64x384 .f32 :=
  shapeCast S2048x64x384
    (transpose S2048x64x12x32 [0, 2, 1, 3]
      (Host.dotGeneral dot_S2048x12x64x64_S2048x12x64x32_S2048x12x64x32_3_2_2_3_01_01 none p v)
      transposes_S2048x12x64x32_S2048x64x12x32_0_2_1_3)
    shapeCasts_S2048x64x12x32_S2048x64x384

/-- The output projection and its shift. -/
def rOut (a : FVec Ideal S2048x64x384 .f32) (Wo : FVec Ideal S384x384 .f32) (bo : FVec Ideal S384 .f32) : FVec Ideal S2048x64x384 .f32 :=
  addf (Host.dotGeneral dot_S2048x64x384_S384x384_S2048x64x384_2_1_01_0_n_n none a Wo)
    (broadcastInDim S2048x64x384 ![0, 1, 2] bcast_S1x1x384_S2048x64x384_0_1_2
      (broadcastInDim S1x1x384 ![2] bcast_S384_S1x1x384_2 bo))

/-- The whole reference as one term of its eight arguments. -/
def refOut (x : FVec Ideal S2048x64x384 .f32) (g b : FVec Ideal S384 .f32) (W : FVec Ideal S1152x384 .f32)
    (Wo : FVec Ideal S384x384 .f32) (bo : FVec Ideal S384 .f32) (tbl : FVec Ideal S225x12 .f32) (idx : IVec S64x64 32) :
    FVec Ideal S2048x64x384 .f32 :=
  rOut
    (rAttn
      (rProb (rScores
        (rHead 0 slices_S2048x64x3x12x32_S2048x64x1x12x32_0_0_0_0_0 (rQkv (rXn x g b) W))
        (rHead 1 slices_S2048x64x3x12x32_S2048x64x1x12x32_0_0_1_0_0 (rQkv (rXn x g b) W))
        (rBias tbl idx)))
      (rHead 2 slices_S2048x64x3x12x32_S2048x64x1x12x32_0_0_2_0_0 (rQkv (rXn x g b) W)))
    Wo bo

end Cert.RefValue

end
-- ==== Proof.RefRun.lean ====
/-
  The reference's host program run: its operations listed in order (the two outlined functions, the variance and
  the select inside it, at their call sites), and every weakly fair execution ending with the result buffer at
  `refOut` of the arguments and the arguments as they were.
-/
import proofs.«430181_j71193377899400_3_alg».proof.Proof.RefStages
import Idealize.ShloMosaic.Lib.StableHlo.Run

noncomputable section

open scoped BigOperators

namespace Cert.RefValue

open Idealize.ShloMosaic Idealize.ShloMosaic.TcCoe Idealize.SL.Sem Idealize.ShloMosaic.StableHlo Cert.ReferenceIdeal

section Ops

open Cert.ReferenceIdeal.Facts₀

variable {F : FTy → Type} [FloatOps F]

/-- The program's ninety-three operations in order: the seven before the variance, the variance's twenty with the
    select's three at its end, and the sixty-three after. -/
abbrev ops : List (HloOp τ sig (Elt F)) :=
  [ nullary main_cst (constant S_ .f32 0x00000000#32),
    binary main_arg0 main_cst main_v0 ((fun x v => Host.reduceAdd x v reducesTo_S2048x64x384_S2048x64_d2 h_S_) : (⟨S2048x64x384, .f32⟩ : BufTy).Contents (Elt F) → (⟨S_, .f32⟩ : BufTy).Contents (Elt F) → (⟨S2048x64, .f32⟩ : BufTy).Contents (Elt F)),
    unary main_v0 main_v1 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_0 (constant S_ .f32 0x43C00000#32),
    unary main_cst_0 main_v2 (broadcastInDim S2048x64x1 ![] bcast_S_S2048x64x1 : (⟨S_, .f32⟩ : BufTy).Contents (Elt F) → (⟨S2048x64x1, .f32⟩ : BufTy).Contents (Elt F)),
    binary main_v1 main_v2 main_v3 (Host.divf : (⟨S2048x64x1, .f32⟩ : BufTy).Contents (Elt F) → (⟨S2048x64x1, .f32⟩ : BufTy).Contents (Elt F) → (⟨S2048x64x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2048x64x384_S2048x64_d2 h_S_),
    TRef.unary main_call0.v0 main_call0.v1 (broadcastInDim S2048x64x1 ![0, 1] bcast_S2048x64_S2048x64x1_0_1),
    TRef.nullary main_call0.cst_0 (constant S_ .f32 0x43C00000#32),
    TRef.unary main_call0.cst_0 main_call0.v2 (broadcastInDim S2048x64x1 ![] bcast_S_S2048x64x1),
    TRef.binary main_call0.v1 main_call0.v2 main_call0.v3 Host.divf,
    TRef.unary main_call0.v3 main_call0.v4 (broadcastInDim S2048x64x384 ![0, 1, 2] bcast_S2048x64x1_S2048x64x384_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x43C00000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2048x64x384_S2048x64_d2 h_S_),
    TRef.unary main_call0.v9 main_call0.v10 (broadcastInDim S2048x64x1 ![0, 1] bcast_S2048x64_S2048x64x1_0_1),
    TRef.unary main_call0.v8 main_call0.v11 (broadcastInDim S2048x64x1 ![] bcast_S_S2048x64x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2048x64x1 ![] bcast_S_S2048x64x1),
    TRef.ternary main_call0.v13 main_call0.v12 main_call0.call0.v1 main_call0.call0.v2 (fun p a b => select (broadcastInDim S2048x64x1 ![] bcast_S_S2048x64x1 p) a b),
    unary main_v3 main_v5 (broadcastInDim S2048x64x384 ![0, 1, 2] bcast_S2048x64x1_S2048x64x384_0_1_2 : (⟨S2048x64x1, .f32⟩ : BufTy).Contents (Elt F) → (⟨S2048x64x384, .f32⟩ : BufTy).Contents (Elt F)),
    binary main_arg0 main_v5 main_v6 (subf : (⟨S2048x64x384, .f32⟩ : BufTy).Contents (Elt F) → (⟨S2048x64x384, .f32⟩ : BufTy).Contents (Elt F) → (⟨S2048x64x384, .f32⟩ : BufTy).Contents (Elt F)),
    nullary main_cst_1 (constant S_ .f32 0x3727C5AC#32),
    unary main_cst_1 main_v7 (broadcastInDim S2048x64x1 ![] bcast_S_S2048x64x1 : (⟨S_, .f32⟩ : BufTy).Contents (Elt F) → (⟨S2048x64x1, .f32⟩ : BufTy).Contents (Elt F)),
    binary main_v4 main_v7 main_v8 (addf : (⟨S2048x64x1, .f32⟩ : BufTy).Contents (Elt F) → (⟨S2048x64x1, .f32⟩ : BufTy).Contents (Elt F) → (⟨S2048x64x1, .f32⟩ : BufTy).Contents (Elt F)),
    unary main_v8 main_v9 (Host.rsqrt : (⟨S2048x64x1, .f32⟩ : BufTy).Contents (Elt F) → (⟨S2048x64x1, .f32⟩ : BufTy).Contents (Elt F)),
    unary main_v9 main_v10 (broadcastInDim S2048x64x384 ![0, 1, 2] bcast_S2048x64x1_S2048x64x384_0_1_2 : (⟨S2048x64x1, .f32⟩ : BufTy).Contents (Elt F) → (⟨S2048x64x384, .f32⟩ : BufTy).Contents (Elt F)),
    binary main_v6 main_v10 main_v11 (mulf : (⟨S2048x64x384, .f32⟩ : BufTy).Contents (Elt F) → (⟨S2048x64x384, .f32⟩ : BufTy).Contents (Elt F) → (⟨S2048x64x384, .f32⟩ : BufTy).Contents (Elt F)),
    unary main_arg1 main_v12 (broadcastInDim S1x1x384 ![2] bcast_S384_S1x1x384_2 : (⟨S384, .f32⟩ : BufTy).Contents (Elt F) → (⟨S1x1x384, .f32⟩ : BufTy).Contents (Elt F)),
    unary main_v12 main_v13 (broadcastInDim S2048x64x384 ![0, 1, 2] bcast_S1x1x384_S2048x64x384_0_1_2 : (⟨S1x1x384, .f32⟩ : BufTy).Contents (Elt F) → (⟨S2048x64x384, .f32⟩ : BufTy).Contents (Elt F)),
    binary main_v11 main_v13 main_v14 (mulf : (⟨S2048x64x384, .f32⟩ : BufTy).Contents (Elt F) → (⟨S2048x64x384, .f32⟩ : BufTy).Contents (Elt F) → (⟨S2048x64x384, .f32⟩ : BufTy).Contents (Elt F)),
    unary main_arg2 main_v15 (broadcastInDim S1x1x384 ![2] bcast_S384_S1x1x384_2 : (⟨S384, .f32⟩ : BufTy).Contents (Elt F) → (⟨S1x1x384, .f32⟩ : BufTy).Contents (Elt F)),
    unary main_v15 main_v16 (broadcastInDim S2048x64x384 ![0, 1, 2] bcast_S1x1x384_S2048x64x384_0_1_2 : (⟨S1x1x384, .f32⟩ : BufTy).Contents (Elt F) → (⟨S2048x64x384, .f32⟩ : BufTy).Contents (Elt F)),
    binary main_v14 main_v16 main_v17 (addf : (⟨S2048x64x384, .f32⟩ : BufTy).Contents (Elt F) → (⟨S2048x64x384, .f32⟩ : BufTy).Contents (Elt F) → (⟨S2048x64x384, .f32⟩ : BufTy).Contents (Elt F)),
    binary main_v17 main_arg3 main_v18 ((fun l r => Host.dotGeneral dot_S2048x64x384_S1152x384_S2048x64x1152_2_1_01_0_n_n none l r) : (⟨S2048x64x384, .f32⟩ : BufTy).Contents (Elt F) → (⟨S1152x384, .f32⟩ : BufTy).Contents (Elt F) → (⟨S2048x64x1152, .f32⟩ : BufTy).Contents (Elt F)),
    reshape main_v18 main_v19 rfl shapeCasts_S2048x64x1152_S2048x64x3x12x32,
    unary main_v19 main_v20 ((extractStridedSlice S2048x64x1x12x32 ![0, 0, 0, 0, 0] · slices_S2048x64x3x12x32_S2048x64x1x12x32_0_0_0_0_0) : (⟨S2048x64x3x12x32, .f32⟩ : BufTy).Contents (Elt F) → (⟨S2048x64x1x12x32, .f32⟩ : BufTy).Contents (Elt F)),
    reshape main_v20 main_v21 rfl shapeCasts_S2048x64x1x12x32_S2048x64x12x32,
    unary main_v21 main_v22 ((transpose S2048x12x64x32 [0, 2, 1, 3] · transposes_S2048x64x12x32_S2048x12x64x32_0_2_1_3) : (⟨S2048x64x12x32, .f32⟩ : BufTy).Contents (Elt F) → (⟨S2048x12x64x32, .f32⟩ : BufTy).Contents (Elt F)),
    unary main_v19 main_v23 ((extractStridedSlice S2048x64x1x12x32 ![0, 0, 1, 0, 0] · slices_S2048x64x3x12x32_S2048x64x1x12x32_0_0_1_0_0) : (⟨S2048x64x3x12x32, .f32⟩ : BufTy).Contents (Elt F) → (⟨S2048x64x1x12x32, .f32⟩ : BufTy).Contents (Elt F)),
    reshape main_v23 main_v24 rfl shapeCasts_S2048x64x1x12x32_S2048x64x12x32,
    unary main_v24 main_v25 ((transpose S2048x12x64x32 [0, 2, 1, 3] · transposes_S2048x64x12x32_S2048x12x64x32_0_2_1_3) : (⟨S2048x64x12x32, .f32⟩ : BufTy).Contents (Elt F) → (⟨S2048x12x64x32, .f32⟩ : BufTy).Contents (Elt F)),
    unary main_v19 main_v26 ((extractStridedSlice S2048x64x1x12x32 ![0, 0, 2, 0, 0] · slices_S2048x64x3x12x32_S2048x64x1x12x32_0_0_2_0_0) : (⟨S2048x64x3x12x32, .f32⟩ : BufTy).Contents (Elt F) → (⟨S2048x64x1x12x32, .f32⟩ : BufTy).Contents (Elt F)),
    reshape main_v26 main_v27 rfl shapeCasts_S2048x64x1x12x32_S2048x64x12x32,
    unary main_v27 main_v28 ((transpose S2048x12x64x32 [0, 2, 1, 3] · transposes_S2048x64x12x32_S2048x12x64x32_0_2_1_3) : (⟨S2048x64x12x32, .f32⟩ : BufTy).Contents (Elt F) → (⟨S2048x12x64x32, .f32⟩ : BufTy).Contents (Elt F)),
    nullary main_cst_2 (constant S_ .f32 0x3E3504F3#32),
    unary main_cst_2 main_v29 (broadcastInDim S2048x12x64x32 ![] bcast_S_S2048x12x64x32 : (⟨S_, .f32⟩ : BufTy).Contents (Elt F) → (⟨S2048x12x64x32, .f32⟩ : BufTy).Contents (Elt F)),
    binary main_v22 main_v29 main_v30 (mulf : (⟨S2048x12x64x32, .f32⟩ : BufTy).Contents (Elt F) → (⟨S2048x12x64x32, .f32⟩ : BufTy).Contents (Elt F) → (⟨S2048x12x64x32, .f32⟩ : BufTy).Contents (Elt F)),
    binary main_v30 main_v25 main_v31 ((fun l r => Host.dotGeneral dot_S2048x12x64x32_S2048x12x64x32_S2048x12x64x64_3_3_2_2_01_01 none l r) : (⟨S2048x12x64x32, .f32⟩ : BufTy).Contents (Elt F) → (⟨S2048x12x64x32, .f32⟩ : BufTy).Contents (Elt F) → (⟨S2048x12x64x64, .f32⟩ : BufTy).Contents (Elt F)),
    nullary main_c_3 (constantI S_ 32 0#32),
    unary main_c_3 main_v32 (broadcastInDim S64x64 ![] bcast_S_S64x64 : (⟨S_, .i32⟩ : BufTy).Contents (Elt F) → (⟨S64x64, .i32⟩ : BufTy).Contents (Elt F)),
    binary main_arg7 main_v32 main_v33 (cmpi .slt : (⟨S64x64, .i32⟩ : BufTy).Contents (Elt F) → (⟨S64x64, .i32⟩ : BufTy).Contents (Elt F) → (⟨S64x64, .i1⟩ : BufTy).Contents (Elt F)),
    nullary main_c_4 (constantI S_ 32 225#32),
    unary main_c_4 main_v34 (broadcastInDim S64x64 ![] bcast_S_S64x64 : (⟨S_, .i32⟩ : BufTy).Contents (Elt F) → (⟨S64x64, .i32⟩ : BufTy).Contents (Elt F)),
    binary main_arg7 main_v34 main_v35 (addi : (⟨S64x64, .i32⟩ : BufTy).Contents (Elt F) → (⟨S64x64, .i32⟩ : BufTy).Contents (Elt F) → (⟨S64x64, .i32⟩ : BufTy).Contents (Elt F)),
    ternary main_v33 main_v35 main_arg7 main_v36 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v36 main_v37 (broadcastInDim S64x64x1 ![0, 1] bcast_S64x64_S64x64x1_0_1 : (⟨S64x64, .i32⟩ : BufTy).Contents (Elt F) → (⟨S64x64x1, .i32⟩ : BufTy).Contents (Elt F)),
    binary main_arg6 main_v37 main_v38 ((fun x i => Host.gather gather_S225x12_S64x64x1_S64x64x12_2_0_n_n_0_2_112 x i) : (⟨S225x12, .f32⟩ : BufTy).Contents (Elt F) → (⟨S64x64x1, .i32⟩ : BufTy).Contents (Elt F) → (⟨S64x64x12, .f32⟩ : BufTy).Contents (Elt F)),
    unary main_v38 main_v39 ((transpose S12x64x64 [2, 0, 1] · transposes_S64x64x12_S12x64x64_2_0_1) : (⟨S64x64x12, .f32⟩ : BufTy).Contents (Elt F) → (⟨S12x64x64, .f32⟩ : BufTy).Contents (Elt F)),
    unary main_v39 main_v40 (broadcastInDim S1x12x64x64 ![1, 2, 3] bcast_S12x64x64_S1x12x64x64_1_2_3 : (⟨S12x64x64, .f32⟩ : BufTy).Contents (Elt F) → (⟨S1x12x64x64, .f32⟩ : BufTy).Contents (Elt F)),
    unary main_v40 main_v41 (broadcastInDim S2048x12x64x64 ![0, 1, 2, 3] bcast_S1x12x64x64_S2048x12x64x64_0_1_2_3 : (⟨S1x12x64x64, .f32⟩ : BufTy).Contents (Elt F) → (⟨S2048x12x64x64, .f32⟩ : BufTy).Contents (Elt F)),
    binary main_v31 main_v41 main_v42 (addf : (⟨S2048x12x64x64, .f32⟩ : BufTy).Contents (Elt F) → (⟨S2048x12x64x64, .f32⟩ : BufTy).Contents (Elt F) → (⟨S2048x12x64x64, .f32⟩ : BufTy).Contents (Elt F)),
    nullary main_cst_5 (constant S_ .f32 0xFF800000#32),
    binary main_v42 main_cst_5 main_v43 ((fun x v => Host.reduce FloatOps.maximumf x v reducesTo_S2048x12x64x64_S2048x12x64_d3 h_S_) : (⟨S2048x12x64x64, .f32⟩ : BufTy).Contents (Elt F) → (⟨S_, .f32⟩ : BufTy).Contents (Elt F) → (⟨S2048x12x64, .f32⟩ : BufTy).Contents (Elt F)),
    nullary main_cst_6 (constant S_ .f32 0xFF800000#32),
    unary main_cst_6 main_v44 (broadcastInDim S2048x12x64 ![] bcast_S_S2048x12x64 : (⟨S_, .f32⟩ : BufTy).Contents (Elt F) → (⟨S2048x12x64, .f32⟩ : BufTy).Contents (Elt F)),
    binary main_v44 main_v43 main_v45 (maximumf : (⟨S2048x12x64, .f32⟩ : BufTy).Contents (Elt F) → (⟨S2048x12x64, .f32⟩ : BufTy).Contents (Elt F) → (⟨S2048x12x64, .f32⟩ : BufTy).Contents (Elt F)),
    unary main_v45 main_v46 (broadcastInDim S2048x12x64x1 ![0, 1, 2] bcast_S2048x12x64_S2048x12x64x1_0_1_2 : (⟨S2048x12x64, .f32⟩ : BufTy).Contents (Elt F) → (⟨S2048x12x64x1, .f32⟩ : BufTy).Contents (Elt F)),
    unary main_v46 main_v47 (broadcastInDim S2048x12x64x64 ![0, 1, 2, 3] bcast_S2048x12x64x1_S2048x12x64x64_0_1_2_3 : (⟨S2048x12x64x1, .f32⟩ : BufTy).Contents (Elt F) → (⟨S2048x12x64x64, .f32⟩ : BufTy).Contents (Elt F)),
    binary main_v42 main_v47 main_v48 (subf : (⟨S2048x12x64x64, .f32⟩ : BufTy).Contents (Elt F) → (⟨S2048x12x64x64, .f32⟩ : BufTy).Contents (Elt F) → (⟨S2048x12x64x64, .f32⟩ : BufTy).Contents (Elt F)),
    unary main_v48 main_v49 (Host.exp : (⟨S2048x12x64x64, .f32⟩ : BufTy).Contents (Elt F) → (⟨S2048x12x64x64, .f32⟩ : BufTy).Contents (Elt F)),
    nullary main_cst_7 (constant S_ .f32 0x00000000#32),
    binary main_v49 main_cst_7 main_v50 ((fun x v => Host.reduceAdd x v reducesTo_S2048x12x64x64_S2048x12x64_d3 h_S_) : (⟨S2048x12x64x64, .f32⟩ : BufTy).Contents (Elt F) → (⟨S_, .f32⟩ : BufTy).Contents (Elt F) → (⟨S2048x12x64, .f32⟩ : BufTy).Contents (Elt F)),
    unary main_v50 main_v51 (broadcastInDim S2048x12x64x1 ![0, 1, 2] bcast_S2048x12x64_S2048x12x64x1_0_1_2 : (⟨S2048x12x64, .f32⟩ : BufTy).Contents (Elt F) → (⟨S2048x12x64x1, .f32⟩ : BufTy).Contents (Elt F)),
    unary main_v51 main_v52 (broadcastInDim S2048x12x64x64 ![0, 1, 2, 3] bcast_S2048x12x64x1_S2048x12x64x64_0_1_2_3 : (⟨S2048x12x64x1, .f32⟩ : BufTy).Contents (Elt F) → (⟨S2048x12x64x64, .f32⟩ : BufTy).Contents (Elt F)),
    binary main_v49 main_v52 main_v53 (Host.divf : (⟨S2048x12x64x64, .f32⟩ : BufTy).Contents (Elt F) → (⟨S2048x12x64x64, .f32⟩ : BufTy).Contents (Elt F) → (⟨S2048x12x64x64, .f32⟩ : BufTy).Contents (Elt F)),
    binary main_v53 main_v28 main_v54 ((fun l r => Host.dotGeneral dot_S2048x12x64x64_S2048x12x64x32_S2048x12x64x32_3_2_2_3_01_01 none l r) : (⟨S2048x12x64x64, .f32⟩ : BufTy).Contents (Elt F) → (⟨S2048x12x64x32, .f32⟩ : BufTy).Contents (Elt F) → (⟨S2048x12x64x32, .f32⟩ : BufTy).Contents (Elt F)),
    unary main_v54 main_v55 ((transpose S2048x64x12x32 [0, 2, 1, 3] · transposes_S2048x12x64x32_S2048x64x12x32_0_2_1_3) : (⟨S2048x12x64x32, .f32⟩ : BufTy).Contents (Elt F) → (⟨S2048x64x12x32, .f32⟩ : BufTy).Contents (Elt F)),
    reshape main_v55 main_v56 rfl shapeCasts_S2048x64x12x32_S2048x64x384,
    binary main_v56 main_arg4 main_v57 ((fun l r => Host.dotGeneral dot_S2048x64x384_S384x384_S2048x64x384_2_1_01_0_n_n none l r) : (⟨S2048x64x384, .f32⟩ : BufTy).Contents (Elt F) → (⟨S384x384, .f32⟩ : BufTy).Contents (Elt F) → (⟨S2048x64x384, .f32⟩ : BufTy).Contents (Elt F)),
    unary main_arg5 main_v58 (broadcastInDim S1x1x384 ![2] bcast_S384_S1x1x384_2 : (⟨S384, .f32⟩ : BufTy).Contents (Elt F) → (⟨S1x1x384, .f32⟩ : BufTy).Contents (Elt F)),
    unary main_v58 main_v59 (broadcastInDim S2048x64x384 ![0, 1, 2] bcast_S1x1x384_S2048x64x384_0_1_2 : (⟨S1x1x384, .f32⟩ : BufTy).Contents (Elt F) → (⟨S2048x64x384, .f32⟩ : BufTy).Contents (Elt F)),
    binary main_v57 main_v59 main_v60 (addf : (⟨S2048x64x384, .f32⟩ : BufTy).Contents (Elt F) → (⟨S2048x64x384, .f32⟩ : BufTy).Contents (Elt F) → (⟨S2048x64x384, .f32⟩ : BufTy).Contents (Elt F)) ]

set_option maxRecDepth 8192 in
set_option maxHeartbeats 4000000 in
/-- The program is that straight line: the two windows, the variance and the select unfolded at their calls, and the
    sequencing reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., reshape_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub ..⟩

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

end Ops

attribute [local irreducible] Host.reduce Host.reduceAdd Host.gather in
set_option maxRecDepth 8192 in
set_option maxHeartbeats 4000000 in
/-- The fold of the operations at the result buffer is the stages' composition: each operation's result read at its
    own buffer is its function of its operands' contents, at any other buffer what was there; the reductions, the
    gather and nothing else stay folded, since the equation never looks inside them. -/
theorem out_eq (V : Valuation τ sig (Elt Ideal)) :
    after ops V (main_v60 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-- Every weakly fair execution of the reference terminates with its result at `refOut` of the launch contents of
    the eight arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono
    (fun _ h c => ⟨(h c main_v60).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_seq scopedRefs_eq scopedSems_eq defs main (fun _ => ops) main_eq (fun _ => ops_sub) m ρ)

end Cert.RefValue

end
-- ==== Proof.RefRead1.lean ====
/-
  The reference's first stages read at one entry: the normalised token, the projection with its lanes split as
  (third, head, lane), and one third laid out head-major.
-/
import proofs.«430181_j71193377899400_3_alg».proof.Proof.Spec
import proofs.«430181_j71193377899400_3_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal

/-! The reference's pointwise division and reciprocal square root read at an index. -/

theorem hostDivf_apply {s : Shape} (a b : FVec Ideal s .f32) (j : s.Idx) :
    Host.divf a b j = Ideal.div (a j) (b j) := rfl

theorem hostRsqrt_apply {s : Shape} (a : FVec Ideal s .f32) (j : s.Idx) :
    Host.rsqrt a j = Ideal.rsqrt (a j) := rfl

/-- A select whose condition is the bit 1 at an index reads its first branch there. -/
theorem select_first {α : Type} {s : Shape} (c : IVec s 1) (a b : s.Idx → α) (j : s.Idx) (hc : c j = 1#1) :
    select c a b j = a j :=
  (select_apply c a b j).trans ((congrArg (fun w => Scalar.select w (a j) (b j)) hc).trans (select_one _ _))

/-! The broadcasts of the normalisation, each read at an index given by coordinates. -/

section Broadcasts
variable {α : Type}

/-- A scalar broadcast to any shape reads the scalar. -/
theorem bcast_scalar_apply {t : Shape} (dims : Fin S_.rank → Fin t.rank) (hb : S_.BroadcastsInDim t dims)
    (v : S_.Idx → α) (j : t.Idx) : broadcastInDim t dims hb v j = v ix0 :=
  broadcastInDim_apply dims hb v j ix0 fun a => a.elim0

/-- A [2048, 64] array kept as a column [2048, 64, 1]. -/
theorem bcast_col_apply (hb : S2048x64.BroadcastsInDim S2048x64x1 (![0, 1] : Fin 2 → Fin S2048x64x1.rank))
    (v : S2048x64.Idx → α) (B : Fin 2048) (n : Fin 64) (u : Fin 1) :
    broadcastInDim S2048x64x1 ![0, 1] hb v (ix3 B n u) = v (ix2 B n) :=
  broadcastInDim_apply _ hb v (ix3 B n u) (ix2 B n) fun a => match a with
    | ⟨0, _⟩ => rfl
    | ⟨1, _⟩ => rfl

/-- A column [2048, 64, 1] laid along the channels. -/
theorem bcast_chan_apply (hb : S2048x64x1.BroadcastsInDim S2048x64x384 (![0, 1, 2] : Fin 3 → Fin S2048x64x384.rank))
    (v : S2048x64x1.Idx → α) (B : Fin 2048) (n : Fin 64) (c : Fin 384) :
    broadcastInDim S2048x64x384 ![0, 1, 2] hb v (ix3 B n c) = v (ix3 B n (0 : Fin 1)) :=
  broadcastInDim_apply _ hb v (ix3 B n c) (ix3 B n (0 : Fin 1)) fun a => match a with
    | ⟨0, _⟩ => rfl
    | ⟨1, _⟩ => rfl
    | ⟨2, _⟩ => rfl

/-- A channel vector [384] viewed as [1, 1, 384]. -/
theorem bcast_vec_apply (hb : S384.BroadcastsInDim S1x1x384 (![2] : Fin 1 → Fin S1x1x384.rank))
    (v : S384.Idx → α) (u0 u1 : Fin 1) (c : Fin 384) :
    broadcastInDim S1x1x384 ![2] hb v (ix3 u0 u1 c) = v (ix1 c) :=
  broadcastInDim_apply _ hb v (ix3 u0 u1 c) (ix1 c) fun a => match a with
    | ⟨0, _⟩ => rfl

/-- A [1, 1, 384] array laid along every token. -/
theorem bcast_tok_apply (hb : S1x1x384.BroadcastsInDim S2048x64x384 (![0, 1, 2] : Fin 3 → Fin S2048x64x384.rank))
    (v : S1x1x384.Idx → α) (B : Fin 2048) (n : Fin 64) (c : Fin 384) :
    broadcastInDim S2048x64x384 ![0, 1, 2] hb v (ix3 B n c) = v (ix3 (0 : Fin 1) (0 : Fin 1) c) :=
  broadcastInDim_apply _ hb v (ix3 B n c) (ix3 (0 : Fin 1) (0 : Fin 1) c) fun a => match a with
    | ⟨0, _⟩ => rfl
    | ⟨1, _⟩ => rfl
    | ⟨2, _⟩ => rfl

end Broadcasts

/-! The sum over the channels. -/

/-- The index over token (B, n) with channel c inserted is (B, n, c). -/
theorem lift_chan (h : S2048x64x384.Reduces [2] S2048x64) (B : Fin 2048) (n : Fin 64) (c : Fin 384) :
    h.lift (ix2 B n) c = ix3 B n c := by
  funext a
  refine Fin.ext ?_
  match a with
  | ⟨0, _⟩ => rfl
  | ⟨1, _⟩ => rfl
  | ⟨2, _⟩ => rfl

/-- The reference's sum over the channels, started from the zero word, at token (B, n). -/
theorem sumChan_apply (h' : S2048x64x384.ReducesTo [2] S2048x64) (hu : 0 < S_.numel) (v : FVec Ideal S2048x64x384 .f32)
    (B : Fin 2048) (n : Fin 64) :
    Host.reduceAdd v (constant (F := Ideal) S_ .f32 0x00000000#32) h' hu (ix2 B n) = ∑ c : Fin 384, v (ix3 B n c) := by
  have hR : S2048x64x384.Reduces [2] S2048x64 := by decide
  refine (Ideal.hostReduceAdd_single h' hR v (Ideal.ofBits .f32 0x00000000#32) (ix2 B n)).trans ?_
  rw [Ideal.ofBits_zero_f32, zero_add]
  exact Finset.sum_congr rfl fun c _ => congrArg v (lift_chan hR B n c)

/-! The stages of the normalisation. -/

/-- The mean column at (B, n) is the specification's mean of token (B, n). -/
theorem rMean_apply (x : FVec Ideal S2048x64x384 .f32) (B : Fin 2048) (n : Fin 64) (u : Fin 1) :
    rMean x (ix3 B n u) = Cert.Spec.mean (fun B n c => x (ix3 B n c)) B n := by
  unfold rMean Cert.Spec.mean
  refine (hostDivf_apply _ _ _).trans (congrArg₂ Ideal.div ?_ ?_)
  · exact (bcast_col_apply _ _ B n u).trans (sumChan_apply _ _ x B n)
  · exact bcast_scalar_apply _ _ _ _

/-- The centred entry. -/
theorem rCen_apply (hb : S2048x64x1.BroadcastsInDim S2048x64x384 (![0, 1, 2] : Fin 3 → Fin S2048x64x384.rank))
    (x : FVec Ideal S2048x64x384 .f32) (B : Fin 2048) (n : Fin 64) (c : Fin 384) :
    subf x (broadcastInDim S2048x64x384 ![0, 1, 2] hb (rMean x)) (ix3 B n c)
      = Cert.Spec.cen (fun B n c => x (ix3 B n c)) B n c := by
  unfold Cert.Spec.cen
  exact (subf_apply _ _ _).trans
    (congrArg (x (ix3 B n c) - ·) ((bcast_chan_apply hb _ B n c).trans (rMean_apply x B n 0)))

/-- The variance's divisor is the word for 384: the correction converted to a float is zero. -/
theorem rNorm_apply : rNorm ix0 = Cert.Spec.c384 := by
  unfold rNorm
  show Cert.Spec.c384 - (((0#32 : BitVec 32).toInt : ℝ) : EReal) = Cert.Spec.c384
  simp

/-- The word for 384 is above zero. -/
theorem c384_pos : (0 : EReal) < Cert.Spec.c384 := by
  have h : Cert.Spec.c384 = ((12582912 * (2 ^ 15)⁻¹ : ℝ) : EReal) := by
    simp [Ideal.ofBits, Ideal.ieee]
  rw [h]
  exact EReal.coe_pos.mpr (by positivity)

/-- The divisor is above the zero word, so the comparison's bit is 1. -/
theorem cmp_norm : cmpf .ogt rNorm (constant (F := Ideal) S_ .f32 0x00000000#32) ix0 = 1#1 := by
  show Ideal.cmp .ogt (rNorm ix0) (Ideal.ofBits .f32 0x00000000#32) = 1#1
  rw [rNorm_apply, Ideal.ofBits_zero_f32]
  simp [Ideal.cmp, c384_pos]

/-- The variance column at (B, n) is the specification's variance of token (B, n). -/
theorem rVar_apply (x : FVec Ideal S2048x64x384 .f32) (B : Fin 2048) (n : Fin 64) (u : Fin 1) :
    rVar x (ix3 B n u) = Cert.Spec.var (fun B n c => x (ix3 B n c)) B n := by
  unfold rVar Cert.Spec.var
  refine (select_first _ _ _ _ ((bcast_scalar_apply _ _ _ _).trans cmp_norm)).trans ?_
  refine (hostDivf_apply _ _ _).trans (congrArg₂ Ideal.div ?_ ?_)
  · refine (bcast_col_apply _ _ B n u).trans ((sumChan_apply _ _ _ B n).trans ?_)
    exact Finset.sum_congr rfl fun c _ =>
      (mulf_apply _ _ _).trans (congrArg₂ (· * ·) (rCen_apply _ x B n c) (rCen_apply _ x B n c))
  · exact (bcast_scalar_apply _ _ _ _).trans rNorm_apply

/-- The normalised token at (B, n, c) is the specification's. -/
theorem rXn_apply (x : FVec Ideal S2048x64x384 .f32) (g b : FVec Ideal S384 .f32) (B : Fin 2048) (n : Fin 64) (c : Fin 384) :
    rXn x g b (ix3 B n c)
      = Cert.Spec.xn (fun B n c => x (ix3 B n c)) (fun c => g (ix1 c)) (fun c => b (ix1 c)) B n c := by
  unfold rXn Cert.Spec.xn
  refine (addf_apply _ _ _).trans (congrArg₂ (· + ·) ?_ ?_)
  · refine (mulf_apply _ _ _).trans (congrArg₂ (· * ·) ?_ ?_)
    · refine (mulf_apply _ _ _).trans (congrArg₂ (· * ·) (rCen_apply _ x B n c) ?_)
      refine (bcast_chan_apply _ _ B n c).trans ((hostRsqrt_apply _ _).trans (congrArg Ideal.rsqrt ?_))
      refine (addf_apply _ _ _).trans (congrArg₂ (· + ·) (rVar_apply x B n 0) ?_)
      exact bcast_scalar_apply _ _ _ _
    · exact (bcast_tok_apply _ _ B n c).trans (bcast_vec_apply _ _ 0 0 c)
  · exact (bcast_tok_apply _ _ B n c).trans (bcast_vec_apply _ _ 0 0 c)

/-! The projection's contraction: the coordinates of the two operand indices, one axis at a time. -/

theorem lhs_qkv_0 (j : S2048x64x1152.Idx) (k : dot_S2048x64x384_S1152x384_S2048x64x1152_2_1_01_0_n_n.contr.Idx) :
    (dot_S2048x64x384_S1152x384_S2048x64x1152_2_1_01_0_n_n.lhsIdx j k 0).val = (j 0).val := rfl

theorem lhs_qkv_1 (j : S2048x64x1152.Idx) (k : dot_S2048x64x384_S1152x384_S2048x64x1152_2_1_01_0_n_n.contr.Idx) :
    (dot_S2048x64x384_S1152x384_S2048x64x1152_2_1_01_0_n_n.lhsIdx j k 1).val = (j 1).val := rfl

theorem lhs_qkv_2 (j : S2048x64x1152.Idx) (k : dot_S2048x64x384_S1152x384_S2048x64x1152_2_1_01_0_n_n.contr.Idx) :
    (dot_S2048x64x384_S1152x384_S2048x64x1152_2_1_01_0_n_n.lhsIdx j k 2).val = (k ⟨0, by decide⟩).val :=
  DotDims.lhsIdx_val_of_single _ rfl j k

theorem rhs_qkv_0 (j : S2048x64x1152.Idx) (k : dot_S2048x64x384_S1152x384_S2048x64x1152_2_1_01_0_n_n.contr.Idx) :
    (dot_S2048x64x384_S1152x384_S2048x64x1152_2_1_01_0_n_n.rhsIdx j k 0).val = (j 2).val := rfl

theorem rhs_qkv_1 (j : S2048x64x1152.Idx) (k : dot_S2048x64x384_S1152x384_S2048x64x1152_2_1_01_0_n_n.contr.Idx) :
    (dot_S2048x64x384_S1152x384_S2048x64x1152_2_1_01_0_n_n.rhsIdx j k 1).val = (k ⟨0, by decide⟩).val :=
  DotDims.rhsIdx_val_of_single _ rfl j k

/-- The projection before its reshape, at (B, n, e): row e of W against token (B, n). -/
theorem dot_qkv_apply (xn : FVec Ideal S2048x64x384 .f32) (W : FVec Ideal S1152x384 .f32) (B : Fin 2048) (n : Fin 64)
    (e : Fin 1152) :
    Host.dotGeneral dot_S2048x64x384_S1152x384_S2048x64x1152_2_1_01_0_n_n none xn W (ix3 B n e)
      = ∑ c : Fin 384, xn (ix3 B n c) * W (ix2 e c) := by
  refine (Ideal.dotGeneral_apply _ _ _ xn W (ix3 B n e)).trans ?_
  refine (Equiv.sum_comp (contrEquiv1 dot_S2048x64x384_S1152x384_S2048x64x1152_2_1_01_0_n_n 384 rfl rfl).symm _).symm.trans ?_
  refine Finset.sum_congr rfl fun c _ => ?_
  have hc := contrEquiv1_symm_val dot_S2048x64x384_S1152x384_S2048x64x1152_2_1_01_0_n_n 384 rfl rfl c
  have hl : dot_S2048x64x384_S1152x384_S2048x64x1152_2_1_01_0_n_n.lhsIdx (ix3 B n e)
      ((contrEquiv1 dot_S2048x64x384_S1152x384_S2048x64x1152_2_1_01_0_n_n 384 rfl rfl).symm c) = ix3 B n c := by
    funext a
    refine Fin.ext ?_
    match a with
    | ⟨0, _⟩ => exact lhs_qkv_0 _ _
    | ⟨1, _⟩ => exact lhs_qkv_1 _ _
    | ⟨2, _⟩ => exact (lhs_qkv_2 _ _).trans hc
  have hr : dot_S2048x64x384_S1152x384_S2048x64x1152_2_1_01_0_n_n.rhsIdx (ix3 B n e)
      ((contrEquiv1 dot_S2048x64x384_S1152x384_S2048x64x1152_2_1_01_0_n_n 384 rfl rfl).symm c) = ix2 e c := by
    funext a
    refine Fin.ext ?_
    match a with
    | ⟨0, _⟩ => exact rhs_qkv_0 _ _
    | ⟨1, _⟩ => exact (rhs_qkv_1 _ _).trans hc
  rw [hl, hr]

/-- The projection at (B, n, third i, head h, lane d): row 384 i + 32 h + d of W against token (B, n). -/
theorem rQkv_apply (xn : FVec Ideal S2048x64x384 .f32) (W : FVec Ideal S1152x384 .f32) (B : Fin 2048) (n : Fin 64)
    (i : Fin 3) (h : Fin 12) (d : Fin 32) :
    rQkv xn W (ix5 B n i h d)
      = ∑ c : Fin 384, xn (ix3 B n c) * W (ix2 (⟨i.val * 384 + h.val * 32 + d.val, by omega⟩ : Fin 1152) c) := by
  unfold rQkv
  -- the reshape [2048, 64, 1152] → [2048, 64, 3, 12, 32]: (B, n, i, h, d) is lane 384 i + 32 h + d of (B, n)
  refine (shapeCast_apply _ _ (ix5 B n i h d)
    (ix3 B n (⟨i.val * 384 + h.val * 32 + d.val, by omega⟩ : Fin 1152)) (by
    rw [Shape.rowMajor_val_three, Shape.rowMajor_val_five]
    show (B.val * 64 + n.val) * 1152 + (i.val * 384 + h.val * 32 + d.val)
      = (((B.val * 64 + n.val) * 3 + i.val) * 12 + h.val) * 32 + d.val
    omega)).trans ?_
  exact dot_qkv_apply xn W B n _

/-- Third o, head-major, at (B, h, n, d) is the projection at (B, n, o, h, d). -/
theorem rHead_apply (o : ℕ) (hs : S2048x64x3x12x32.Slices ![0, 0, o, 0, 0] S2048x64x1x12x32) (ho : o < 3)
    (qkv : FVec Ideal S2048x64x3x12x32 .f32) (B : Fin 2048) (h : Fin 12) (n : Fin 64) (d : Fin 32) :
    rHead o hs qkv (ix4 B h n d) = qkv (ix5 B n (⟨o, ho⟩ : Fin 3) h d) := by
  unfold rHead
  -- the transpose [0, 2, 1, 3]: (B, h, n, d) of the head-major array is (B, n, h, d) of the token-major one
  refine (transpose_apply _ _ _ (ix4 B h n d) (ix4 B n h d)
    (fun a => match a with | ⟨0, _⟩ => rfl | ⟨1, _⟩ => rfl | ⟨2, _⟩ => rfl | ⟨3, _⟩ => rfl)).trans ?_
  -- the reshape that drops the unit axis: (B, n, h, d) is (B, n, 0, h, d)
  refine (shapeCast_apply _ _ (ix4 B n h d) (ix5 B n (0 : Fin 1) h d) (by
    rw [Shape.rowMajor_val_five, Shape.rowMajor_val_four]
    show (((B.val * 64 + n.val) * 1 + 0) * 12 + h.val) * 32 + d.val = ((B.val * 64 + n.val) * 12 + h.val) * 32 + d.val
    omega)).trans ?_
  -- the slice at offset o along the axis of thirds
  exact extractStridedSlice_apply _ _ _ (ix5 B n (0 : Fin 1) h d) (ix5 B n (⟨o, ho⟩ : Fin 3) h d)
    (fun a => match a with
      | ⟨0, _⟩ => by show B.val = 0 + B.val; omega
      | ⟨1, _⟩ => by show n.val = 0 + n.val; omega
      | ⟨2, _⟩ => by show o = o + 0; omega
      | ⟨3, _⟩ => by show h.val = 0 + h.val; omega
      | ⟨4, _⟩ => by show d.val = 0 + d.val; omega)

end Cert.RefValue

end
-- ==== Proof.RefRead2.lean ====
/-
  The reference's later stages read at one entry: the scores, the attention weights, the averaged values in
  token-major lanes, and the output projection.
-/
import proofs.«430181_j71193377899400_3_alg».proof.Proof.Spec
import proofs.«430181_j71193377899400_3_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal

/-! ## The scores -/

/-- The scaled queries are read at the score's window, head and row token … -/
theorem sc_lhs_0 (j : S2048x12x64x64.Idx) (k : dot_S2048x12x64x32_S2048x12x64x32_S2048x12x64x64_3_3_2_2_01_01.contr.Idx) :
    (dot_S2048x12x64x32_S2048x12x64x32_S2048x12x64x64_3_3_2_2_01_01.lhsIdx j k 0).val = (j 0).val := rfl
theorem sc_lhs_1 (j : S2048x12x64x64.Idx) (k : dot_S2048x12x64x32_S2048x12x64x32_S2048x12x64x64_3_3_2_2_01_01.contr.Idx) :
    (dot_S2048x12x64x32_S2048x12x64x32_S2048x12x64x64_3_3_2_2_01_01.lhsIdx j k 1).val = (j 1).val := rfl
theorem sc_lhs_2 (j : S2048x12x64x64.Idx) (k : dot_S2048x12x64x32_S2048x12x64x32_S2048x12x64x64_3_3_2_2_01_01.contr.Idx) :
    (dot_S2048x12x64x32_S2048x12x64x32_S2048x12x64x64_3_3_2_2_01_01.lhsIdx j k 2).val = (j 2).val := rfl
/-- … and at the contracted lane. -/
theorem sc_lhs_3 (j : S2048x12x64x64.Idx) (k : dot_S2048x12x64x32_S2048x12x64x32_S2048x12x64x64_3_3_2_2_01_01.contr.Idx) :
    (dot_S2048x12x64x32_S2048x12x64x32_S2048x12x64x64_3_3_2_2_01_01.lhsIdx j k 3).val = (k ⟨0, by decide⟩).val := rfl
/-- The keys are read at the score's window, head and column token … -/
theorem sc_rhs_0 (j : S2048x12x64x64.Idx) (k : dot_S2048x12x64x32_S2048x12x64x32_S2048x12x64x64_3_3_2_2_01_01.contr.Idx) :
    (dot_S2048x12x64x32_S2048x12x64x32_S2048x12x64x64_3_3_2_2_01_01.rhsIdx j k 0).val = (j 0).val := rfl
theorem sc_rhs_1 (j : S2048x12x64x64.Idx) (k : dot_S2048x12x64x32_S2048x12x64x32_S2048x12x64x64_3_3_2_2_01_01.contr.Idx) :
    (dot_S2048x12x64x32_S2048x12x64x32_S2048x12x64x64_3_3_2_2_01_01.rhsIdx j k 1).val = (j 1).val := rfl
theorem sc_rhs_2 (j : S2048x12x64x64.Idx) (k : dot_S2048x12x64x32_S2048x12x64x32_S2048x12x64x64_3_3_2_2_01_01.contr.Idx) :
    (dot_S2048x12x64x32_S2048x12x64x32_S2048x12x64x64_3_3_2_2_01_01.rhsIdx j k 2).val = (j 3).val := rfl
/-- … and at the contracted lane. -/
theorem sc_rhs_3 (j : S2048x12x64x64.Idx) (k : dot_S2048x12x64x32_S2048x12x64x32_S2048x12x64x64_3_3_2_2_01_01.contr.Idx) :
    (dot_S2048x12x64x32_S2048x12x64x32_S2048x12x64x64_3_3_2_2_01_01.rhsIdx j k 3).val = (k ⟨0, by decide⟩).val := rfl

/-- The product of queries and keys at (B, h, n, m): the sum over the 32 lanes of the head. -/
theorem sc_dot_apply (qs k : FVec Ideal S2048x12x64x32 .f32) (B : Fin 2048) (h : Fin 12) (n m : Fin 64) :
    Host.dotGeneral dot_S2048x12x64x32_S2048x12x64x32_S2048x12x64x64_3_3_2_2_01_01 none qs k (ix4 B h n m)
      = ∑ d : Fin 32, qs (ix4 B h n d) * k (ix4 B h m d) := by
  show FloatOps.dotGeneral _ none _ qs k (ix4 B h n m) = _
  rw [Ideal.dotGeneral_apply,
    ← Equiv.sum_comp (contrEquiv1 dot_S2048x12x64x32_S2048x12x64x32_S2048x12x64x64_3_3_2_2_01_01 32 rfl rfl).symm]
  refine Finset.sum_congr rfl fun d _ => ?_
  have cd := contrEquiv1_symm_val dot_S2048x12x64x32_S2048x12x64x32_S2048x12x64x64_3_3_2_2_01_01 32 rfl rfl d
  have hl : dot_S2048x12x64x32_S2048x12x64x32_S2048x12x64x64_3_3_2_2_01_01.lhsIdx (ix4 B h n m)
      ((contrEquiv1 dot_S2048x12x64x32_S2048x12x64x32_S2048x12x64x64_3_3_2_2_01_01 32 rfl rfl).symm d) = ix4 B h n d := by
    funext ax; apply Fin.ext
    match ax with
    | ⟨0, _⟩ => exact sc_lhs_0 _ _
    | ⟨1, _⟩ => exact sc_lhs_1 _ _
    | ⟨2, _⟩ => exact sc_lhs_2 _ _
    | ⟨3, _⟩ => exact (sc_lhs_3 _ _).trans cd
  have hr : dot_S2048x12x64x32_S2048x12x64x32_S2048x12x64x64_3_3_2_2_01_01.rhsIdx (ix4 B h n m)
      ((contrEquiv1 dot_S2048x12x64x32_S2048x12x64x32_S2048x12x64x64_3_3_2_2_01_01 32 rfl rfl).symm d) = ix4 B h m d := by
    funext ax; apply Fin.ext
    match ax with
    | ⟨0, _⟩ => exact sc_rhs_0 _ _
    | ⟨1, _⟩ => exact sc_rhs_1 _ _
    | ⟨2, _⟩ => exact sc_rhs_2 _ _
    | ⟨3, _⟩ => exact (sc_rhs_3 _ _).trans cd
  rw [hl, hr]

/-- The scale word laid over every query entry reads the scale word. -/
theorem scale_bcast_apply (i : S2048x12x64x32.Idx) :
    broadcastInDim S2048x12x64x32 ![] Facts₀.bcast_S_S2048x12x64x32 (constant (F := Ideal) S_ .f32 0x3E3504F3#32) i
      = Cert.Spec.scale :=
  broadcastInDim_apply _ _ _ i ix0 fun a => a.elim0

/-- The bias table laid over every window, read at (B, h, n, m). -/
theorem bias_bcast_apply (bias : FVec Ideal S12x64x64 .f32) (B : Fin 2048) (h : Fin 12) (n m : Fin 64) :
    broadcastInDim S2048x12x64x64 ![0, 1, 2, 3] Facts₀.bcast_S1x12x64x64_S2048x12x64x64_0_1_2_3
      (broadcastInDim S1x12x64x64 ![1, 2, 3] Facts₀.bcast_S12x64x64_S1x12x64x64_1_2_3 bias) (ix4 B h n m)
      = bias (ix3 h n m) := by
  refine (broadcastInDim_apply _ _ _ (ix4 B h n m) (ix4 (0 : Fin 1) h n m) fun ax => ?_).trans ?_
  · match ax with
    | ⟨0, _⟩ => rfl
    | ⟨1, _⟩ => rfl
    | ⟨2, _⟩ => rfl
    | ⟨3, _⟩ => rfl
  · refine broadcastInDim_apply _ _ bias (ix4 (0 : Fin 1) h n m) (ix3 h n m) fun ax => ?_
    match ax with
    | ⟨0, _⟩ => rfl
    | ⟨1, _⟩ => rfl
    | ⟨2, _⟩ => rfl

/-- The score of tokens (n, m) of window B under head h. -/
theorem rScores_apply (q k : FVec Ideal S2048x12x64x32 .f32) (bias : FVec Ideal S12x64x64 .f32)
    (B : Fin 2048) (h : Fin 12) (n m : Fin 64) :
    rScores q k bias (ix4 B h n m)
      = (∑ d : Fin 32, (q (ix4 B h n d) * Cert.Spec.scale) * k (ix4 B h m d)) + bias (ix3 h n m) := by
  unfold rScores
  refine (addf_apply _ _ _).trans (congrArg₂ (· + ·) ((sc_dot_apply _ k B h n m).trans ?_) (bias_bcast_apply bias B h n m))
  refine Finset.sum_congr rfl fun d _ => congrArg (· * k (ix4 B h m d)) ?_
  exact (mulf_apply _ _ _).trans (congrArg (q (ix4 B h n d) * ·) (scale_bcast_apply _))

/-! ## The attention weights -/

/-- Dropping the last axis of the scores leaves (window, head, token). -/
theorem scores_red3 : S2048x12x64x64.Reduces [3] S2048x12x64 := by decide

/-- Row (B, h, n) with the column m put back is the entry (B, h, n, m). -/
theorem scores_lift3_eq (B : Fin 2048) (h : Fin 12) (n m : Fin 64) : scores_red3.lift (ix3 B h n) m = ix4 B h n m := by
  funext ax; apply Fin.ext
  match ax with
  | ⟨0, _⟩ => rfl
  | ⟨1, _⟩ => rfl
  | ⟨2, _⟩ => rfl
  | ⟨3, _⟩ => rfl

/-- The word for minus infinity laid over every row reads that word. -/
theorem ninf_bcast_apply (i : S2048x12x64.Idx) :
    broadcastInDim S2048x12x64 ![] Facts₀.bcast_S_S2048x12x64 (constant (F := Ideal) S_ .f32 0xFF800000#32) i
      = Cert.Spec.ninf :=
  broadcastInDim_apply _ _ _ i ix0 fun a => a.elim0

/-- The reduction by maximum over the columns, at row (B, h, n): the fold of max from minus infinity's word. -/
theorem rowmax_reduce_apply (s : FVec Ideal S2048x12x64x64 .f32) (B : Fin 2048) (h : Fin 12) (n : Fin 64) :
    Host.reduce (FloatOps.maximumf (F := Ideal) (φ := .f32)) s (constant (F := Ideal) S_ .f32 0xFF800000#32)
        Facts₀.reducesTo_S2048x12x64x64_S2048x12x64_d3 Facts₀.h_S_ (ix3 B h n)
      = (Finset.univ : Finset (Fin 64)).fold max Cert.Spec.ninf (fun m' => s (ix4 B h n m')) := by
  refine (Host.reduce_eq_fold_single _ s _ _ scores_red3 _ (ix3 B h n)).trans ?_
  show (Finset.univ : Finset (Fin 64)).fold max Cert.Spec.ninf (s ∘ scores_red3.lift (ix3 B h n)) = _
  exact congrArg (fun f => Finset.fold max Cert.Spec.ninf f Finset.univ)
    (funext fun m' => congrArg s (scores_lift3_eq B h n m'))

/-- The row maximum at (B, h, n): taking the maximum with the fold's own starting word once more changes nothing. -/
theorem rMax_apply (s : FVec Ideal S2048x12x64x64 .f32) (B : Fin 2048) (h : Fin 12) (n : Fin 64) :
    rMax s (ix3 B h n) = (Finset.univ : Finset (Fin 64)).fold max Cert.Spec.ninf (fun m' => s (ix4 B h n m')) := by
  unfold rMax
  refine (maximumf_apply _ _ _).trans ?_
  refine (congrArg₂ max (ninf_bcast_apply _) (rowmax_reduce_apply s B h n)).trans ?_
  exact max_eq_right ((Finset.le_fold_max _).mpr (Or.inl le_rfl))

/-- A per-row quantity kept as a column and laid along the row, read at (B, h, n, m). -/
theorem rowcol_bcast_apply (r : FVec Ideal S2048x12x64 .f32) (B : Fin 2048) (h : Fin 12) (n m : Fin 64) :
    broadcastInDim S2048x12x64x64 ![0, 1, 2, 3] Facts₀.bcast_S2048x12x64x1_S2048x12x64x64_0_1_2_3
      (broadcastInDim S2048x12x64x1 ![0, 1, 2] Facts₀.bcast_S2048x12x64_S2048x12x64x1_0_1_2 r) (ix4 B h n m)
      = r (ix3 B h n) := by
  refine (broadcastInDim_apply _ _ _ (ix4 B h n m) (ix4 B h n (0 : Fin 1)) fun ax => ?_).trans ?_
  · match ax with
    | ⟨0, _⟩ => rfl
    | ⟨1, _⟩ => rfl
    | ⟨2, _⟩ => rfl
    | ⟨3, _⟩ => rfl
  · refine broadcastInDim_apply _ _ r (ix4 B h n (0 : Fin 1)) (ix3 B h n) fun ax => ?_
    match ax with
    | ⟨0, _⟩ => rfl
    | ⟨1, _⟩ => rfl
    | ⟨2, _⟩ => rfl

/-- The shifted exponential at (B, h, n, m). -/
theorem rExp_apply (s : FVec Ideal S2048x12x64x64 .f32) (B : Fin 2048) (h : Fin 12) (n m : Fin 64) :
    rExp s (ix4 B h n m)
      = Ideal.exp (s (ix4 B h n m) - (Finset.univ : Finset (Fin 64)).fold max Cert.Spec.ninf (fun m' => s (ix4 B h n m'))) := by
  unfold rExp
  exact congrArg (fun z => Ideal.exp (s (ix4 B h n m) - z))
    ((rowcol_bcast_apply (rMax s) B h n m).trans (rMax_apply s B h n))

/-- The sum over the columns from the zero word, at row (B, h, n). -/
theorem scores_rowsum_apply (e : FVec Ideal S2048x12x64x64 .f32) (B : Fin 2048) (h : Fin 12) (n : Fin 64) :
    Host.reduceAdd e (constant (F := Ideal) S_ .f32 0x00000000#32)
        Facts₀.reducesTo_S2048x12x64x64_S2048x12x64_d3 Facts₀.h_S_ (ix3 B h n)
      = ∑ m : Fin 64, e (ix4 B h n m) := by
  refine (Ideal.hostReduceAdd_single Facts₀.reducesTo_S2048x12x64x64_S2048x12x64_d3 scores_red3 e _ (ix3 B h n)).trans ?_
  show Ideal.ofBits .f32 0x00000000#32 + ∑ m : Fin 64, e (scores_red3.lift (ix3 B h n) m) = _
  rw [Ideal.ofBits_zero_f32, zero_add]
  exact Finset.sum_congr rfl fun m _ => congrArg e (scores_lift3_eq B h n m)

/-- The weight of token m in row (B, h, n): its exponential shifted by the row maximum, over the row sum. -/
theorem rProb_apply (s : FVec Ideal S2048x12x64x64 .f32) (B : Fin 2048) (h : Fin 12) (n m : Fin 64) :
    rProb s (ix4 B h n m)
      = Ideal.div
          (Ideal.exp (s (ix4 B h n m) - (Finset.univ : Finset (Fin 64)).fold max Cert.Spec.ninf (fun m' => s (ix4 B h n m'))))
          (∑ m'' : Fin 64,
            Ideal.exp (s (ix4 B h n m'') - (Finset.univ : Finset (Fin 64)).fold max Cert.Spec.ninf (fun m' => s (ix4 B h n m')))) := by
  unfold rProb
  refine congrArg₂ Ideal.div (rExp_apply s B h n m)
    ((rowcol_bcast_apply _ B h n m).trans ((scores_rowsum_apply (rExp s) B h n).trans ?_))
  exact Finset.sum_congr rfl fun m'' _ => rExp_apply s B h n m''

/-! ## The averaged values -/

/-- The weights are read at the result's window, head and token … -/
theorem rpv_lhs_0 (j : S2048x12x64x32.Idx) (k : dot_S2048x12x64x64_S2048x12x64x32_S2048x12x64x32_3_2_2_3_01_01.contr.Idx) :
    (dot_S2048x12x64x64_S2048x12x64x32_S2048x12x64x32_3_2_2_3_01_01.lhsIdx j k 0).val = (j 0).val := rfl
theorem rpv_lhs_1 (j : S2048x12x64x32.Idx) (k : dot_S2048x12x64x64_S2048x12x64x32_S2048x12x64x32_3_2_2_3_01_01.contr.Idx) :
    (dot_S2048x12x64x64_S2048x12x64x32_S2048x12x64x32_3_2_2_3_01_01.lhsIdx j k 1).val = (j 1).val := rfl
theorem rpv_lhs_2 (j : S2048x12x64x32.Idx) (k : dot_S2048x12x64x64_S2048x12x64x32_S2048x12x64x32_3_2_2_3_01_01.contr.Idx) :
    (dot_S2048x12x64x64_S2048x12x64x32_S2048x12x64x32_3_2_2_3_01_01.lhsIdx j k 2).val = (j 2).val := rfl
/-- … and at the contracted token. -/
theorem rpv_lhs_3 (j : S2048x12x64x32.Idx) (k : dot_S2048x12x64x64_S2048x12x64x32_S2048x12x64x32_3_2_2_3_01_01.contr.Idx) :
    (dot_S2048x12x64x64_S2048x12x64x32_S2048x12x64x32_3_2_2_3_01_01.lhsIdx j k 3).val = (k ⟨0, by decide⟩).val := rfl
/-- The values are read at the result's window and head, the contracted token, and the result's lane. -/
theorem rpv_rhs_0 (j : S2048x12x64x32.Idx) (k : dot_S2048x12x64x64_S2048x12x64x32_S2048x12x64x32_3_2_2_3_01_01.contr.Idx) :
    (dot_S2048x12x64x64_S2048x12x64x32_S2048x12x64x32_3_2_2_3_01_01.rhsIdx j k 0).val = (j 0).val := rfl
theorem rpv_rhs_1 (j : S2048x12x64x32.Idx) (k : dot_S2048x12x64x64_S2048x12x64x32_S2048x12x64x32_3_2_2_3_01_01.contr.Idx) :
    (dot_S2048x12x64x64_S2048x12x64x32_S2048x12x64x32_3_2_2_3_01_01.rhsIdx j k 1).val = (j 1).val := rfl
theorem rpv_rhs_2 (j : S2048x12x64x32.Idx) (k : dot_S2048x12x64x64_S2048x12x64x32_S2048x12x64x32_3_2_2_3_01_01.contr.Idx) :
    (dot_S2048x12x64x64_S2048x12x64x32_S2048x12x64x32_3_2_2_3_01_01.rhsIdx j k 2).val = (k ⟨0, by decide⟩).val := rfl
theorem rpv_rhs_3 (j : S2048x12x64x32.Idx) (k : dot_S2048x12x64x64_S2048x12x64x32_S2048x12x64x32_3_2_2_3_01_01.contr.Idx) :
    (dot_S2048x12x64x64_S2048x12x64x32_S2048x12x64x32_3_2_2_3_01_01.rhsIdx j k 3).val = (j 3).val := rfl

/-- The weights applied to the values at (B, h, n, d): the sum over the 64 tokens of the window. -/
theorem rpv_dot_apply (p : FVec Ideal S2048x12x64x64 .f32) (v : FVec Ideal S2048x12x64x32 .f32)
    (B : Fin 2048) (h : Fin 12) (n : Fin 64) (d : Fin 32) :
    Host.dotGeneral dot_S2048x12x64x64_S2048x12x64x32_S2048x12x64x32_3_2_2_3_01_01 none p v (ix4 B h n d)
      = ∑ m : Fin 64, p (ix4 B h n m) * v (ix4 B h m d) := by
  show FloatOps.dotGeneral _ none _ p v (ix4 B h n d) = _
  rw [Ideal.dotGeneral_apply,
    ← Equiv.sum_comp (contrEquiv1 dot_S2048x12x64x64_S2048x12x64x32_S2048x12x64x32_3_2_2_3_01_01 64 rfl rfl).symm]
  refine Finset.sum_congr rfl fun m _ => ?_
  have cm := contrEquiv1_symm_val dot_S2048x12x64x64_S2048x12x64x32_S2048x12x64x32_3_2_2_3_01_01 64 rfl rfl m
  have hl : dot_S2048x12x64x64_S2048x12x64x32_S2048x12x64x32_3_2_2_3_01_01.lhsIdx (ix4 B h n d)
      ((contrEquiv1 dot_S2048x12x64x64_S2048x12x64x32_S2048x12x64x32_3_2_2_3_01_01 64 rfl rfl).symm m) = ix4 B h n m := by
    funext ax; apply Fin.ext
    match ax with
    | ⟨0, _⟩ => exact rpv_lhs_0 _ _
    | ⟨1, _⟩ => exact rpv_lhs_1 _ _
    | ⟨2, _⟩ => exact rpv_lhs_2 _ _
    | ⟨3, _⟩ => exact (rpv_lhs_3 _ _).trans cm
  have hr : dot_S2048x12x64x64_S2048x12x64x32_S2048x12x64x32_3_2_2_3_01_01.rhsIdx (ix4 B h n d)
      ((contrEquiv1 dot_S2048x12x64x64_S2048x12x64x32_S2048x12x64x32_3_2_2_3_01_01 64 rfl rfl).symm m) = ix4 B h m d := by
    funext ax; apply Fin.ext
    match ax with
    | ⟨0, _⟩ => exact rpv_rhs_0 _ _
    | ⟨1, _⟩ => exact rpv_rhs_1 _ _
    | ⟨2, _⟩ => exact (rpv_rhs_2 _ _).trans cm
    | ⟨3, _⟩ => exact rpv_rhs_3 _ _
  rw [hl, hr]

/-- Lane 32 h + d of the averaged values of token (B, n). -/
theorem rAttn_apply (p : FVec Ideal S2048x12x64x64 .f32) (v : FVec Ideal S2048x12x64x32 .f32)
    (B : Fin 2048) (n : Fin 64) (h : Fin 12) (d : Fin 32) :
    rAttn p v (ix3 B n (Cert.Spec.lane h d)) = ∑ m : Fin 64, p (ix4 B h n m) * v (ix4 B h m d) := by
  unfold rAttn
  refine (shapeCast_apply _ _ (ix3 B n (Cert.Spec.lane h d)) (ix4 B n h d) ?_).trans ?_
  · rw [Shape.rowMajor_val_four, Shape.rowMajor_val_three]
    show ((B.val * 64 + n.val) * 12 + h.val) * 32 + d.val = (B.val * 64 + n.val) * 384 + (h.val * 32 + d.val)
    omega
  · refine (transpose_apply _ _ _ (ix4 B n h d) (ix4 B h n d) fun b => ?_).trans (rpv_dot_apply p v B h n d)
    match b with
    | ⟨0, _⟩ => rfl
    | ⟨1, _⟩ => rfl
    | ⟨2, _⟩ => rfl
    | ⟨3, _⟩ => rfl

/-! ## The output projection -/

/-- The left operand of the output projection is read at the output's window and token. -/
theorem out_lhs_0 (j : S2048x64x384.Idx) (k : dot_S2048x64x384_S384x384_S2048x64x384_2_1_01_0_n_n.contr.Idx) :
    (dot_S2048x64x384_S384x384_S2048x64x384_2_1_01_0_n_n.lhsIdx j k 0).val = (j 0).val := rfl
theorem out_lhs_1 (j : S2048x64x384.Idx) (k : dot_S2048x64x384_S384x384_S2048x64x384_2_1_01_0_n_n.contr.Idx) :
    (dot_S2048x64x384_S384x384_S2048x64x384_2_1_01_0_n_n.lhsIdx j k 1).val = (j 1).val := rfl
/-- … and at the contracted lane. -/
theorem out_lhs_2 (j : S2048x64x384.Idx) (k : dot_S2048x64x384_S384x384_S2048x64x384_2_1_01_0_n_n.contr.Idx) :
    (dot_S2048x64x384_S384x384_S2048x64x384_2_1_01_0_n_n.lhsIdx j k 2).val = (k ⟨0, by decide⟩).val := rfl
/-- The right operand is read at the output's channel and the contracted lane. -/
theorem out_rhs_0 (j : S2048x64x384.Idx) (k : dot_S2048x64x384_S384x384_S2048x64x384_2_1_01_0_n_n.contr.Idx) :
    (dot_S2048x64x384_S384x384_S2048x64x384_2_1_01_0_n_n.rhsIdx j k 0).val = (j 2).val := rfl
theorem out_rhs_1 (j : S2048x64x384.Idx) (k : dot_S2048x64x384_S384x384_S2048x64x384_2_1_01_0_n_n.contr.Idx) :
    (dot_S2048x64x384_S384x384_S2048x64x384_2_1_01_0_n_n.rhsIdx j k 1).val = (k ⟨0, by decide⟩).val := rfl

/-- The product with Wo at (B, n, c): the sum over the 384 lanes. -/
theorem out_dot_apply (a : FVec Ideal S2048x64x384 .f32) (Wo : FVec Ideal S384x384 .f32)
    (B : Fin 2048) (n : Fin 64) (c : Fin 384) :
    Host.dotGeneral dot_S2048x64x384_S384x384_S2048x64x384_2_1_01_0_n_n none a Wo (ix3 B n c)
      = ∑ e : Fin 384, a (ix3 B n e) * Wo (ix2 c e) := by
  show FloatOps.dotGeneral _ none _ a Wo (ix3 B n c) = _
  rw [Ideal.dotGeneral_apply,
    ← Equiv.sum_comp (contrEquiv1 dot_S2048x64x384_S384x384_S2048x64x384_2_1_01_0_n_n 384 rfl rfl).symm]
  refine Finset.sum_congr rfl fun e _ => ?_
  have ce := contrEquiv1_symm_val dot_S2048x64x384_S384x384_S2048x64x384_2_1_01_0_n_n 384 rfl rfl e
  have hl : dot_S2048x64x384_S384x384_S2048x64x384_2_1_01_0_n_n.lhsIdx (ix3 B n c)
      ((contrEquiv1 dot_S2048x64x384_S384x384_S2048x64x384_2_1_01_0_n_n 384 rfl rfl).symm e) = ix3 B n e := by
    funext ax; apply Fin.ext
    match ax with
    | ⟨0, _⟩ => exact out_lhs_0 _ _
    | ⟨1, _⟩ => exact out_lhs_1 _ _
    | ⟨2, _⟩ => exact (out_lhs_2 _ _).trans ce
  have hr : dot_S2048x64x384_S384x384_S2048x64x384_2_1_01_0_n_n.rhsIdx (ix3 B n c)
      ((contrEquiv1 dot_S2048x64x384_S384x384_S2048x64x384_2_1_01_0_n_n 384 rfl rfl).symm e) = ix2 c e := by
    funext ax; apply Fin.ext
    match ax with
    | ⟨0, _⟩ => exact out_rhs_0 _ _
    | ⟨1, _⟩ => exact (out_rhs_1 _ _).trans ce
  rw [hl, hr]

/-- A vector over the 384 channels laid along every token of every window, read at (B, n, c). -/
theorem out_shift_bcast_apply (bo : FVec Ideal S384 .f32) (B : Fin 2048) (n : Fin 64) (c : Fin 384) :
    broadcastInDim S2048x64x384 ![0, 1, 2] Facts₀.bcast_S1x1x384_S2048x64x384_0_1_2
      (broadcastInDim S1x1x384 ![2] Facts₀.bcast_S384_S1x1x384_2 bo) (ix3 B n c) = bo (ix1 c) := by
  refine (broadcastInDim_apply _ _ _ (ix3 B n c) (ix3 (0 : Fin 1) (0 : Fin 1) c) fun ax => ?_).trans ?_
  · match ax with
    | ⟨0, _⟩ => rfl
    | ⟨1, _⟩ => rfl
    | ⟨2, _⟩ => rfl
  · refine broadcastInDim_apply _ _ bo (ix3 (0 : Fin 1) (0 : Fin 1) c) (ix1 c) fun ax => ?_
    match ax with
    | ⟨0, _⟩ => rfl

/-- The output projection at (B, n, c). -/
theorem rOut_apply (a : FVec Ideal S2048x64x384 .f32) (Wo : FVec Ideal S384x384 .f32) (bo : FVec Ideal S384 .f32)
    (B : Fin 2048) (n : Fin 64) (c : Fin 384) :
    rOut a Wo bo (ix3 B n c) = (∑ e : Fin 384, a (ix3 B n e) * Wo (ix2 c e)) + bo (ix1 c) := by
  unfold rOut
  exact (addf_apply _ _ _).trans (congrArg₂ (· + ·) (out_dot_apply a Wo B n c) (out_shift_bcast_apply bo B n c))

end Cert.RefValue

end
-- ==== Proof.RefValue.lean ====
/-
  The reference's whole term at one entry is the specification's result over all 2048 windows: the stages' readings
  chained (the third o of the projection at head h, lane d is row 384 o + 32 h + d of W applied to the normalised
  token; the weights of a row are the row average's; lane e of the averaged values belongs to head e / 32).
-/
import proofs.«430181_j71193377899400_3_alg».proof.Proof.Spec
import proofs.«430181_j71193377899400_3_alg».proof.Proof.RefStages
import proofs.«430181_j71193377899400_3_alg».proof.Proof.RefRead1
import proofs.«430181_j71193377899400_3_alg».proof.Proof.RefRead2
import Idealize.ShloMosaic.Lib.ValueIdx

noncomputable section

open scoped BigOperators

namespace Cert.RefValue

open Idealize.ShloMosaic Idealize.ShloMosaic.ValueIdx Cert.ReferenceIdeal Cert.ReferenceIdeal.Facts₀

section
variable (x : FVec Ideal S2048x64x384 .f32) (g b : FVec Ideal S384 .f32) (W : FVec Ideal S1152x384 .f32)
  (Wo : FVec Ideal S384x384 .f32) (bo : FVec Ideal S384 .f32) (bias : FVec Ideal S12x64x64 .f32)

/-- The reference's inputs as the specification takes them. -/
abbrev sX : Fin 2048 → Fin 64 → Fin 384 → EReal := fun B n c => x (ix3 B n c)
abbrev sV (v : FVec Ideal S384 .f32) : Fin 384 → EReal := fun c => v (ix1 c)
abbrev sW : Fin 1152 → Fin 384 → EReal := fun e c => W (ix2 e c)
abbrev sWo : Fin 384 → Fin 384 → EReal := fun c e => Wo (ix2 c e)
abbrev sBias : Fin 12 → Fin 64 → Fin 64 → EReal := fun h n m => bias (ix3 h n m)

/-- Third o of the projection, head-major, at (B, h, n, d): row 384 o + 32 h + d of W applied to token (B, n). -/
theorem head_apply (o : ℕ) (hs : S2048x64x3x12x32.Slices ![0, 0, o, 0, 0] S2048x64x1x12x32) (ho : o < 3)
    (B : Fin 2048) (h : Fin 12) (n : Fin 64) (d : Fin 32) :
    rHead o hs (rQkv (rXn x g b) W) (ix4 B h n d)
      = Cert.Spec.proj (sX x) (sV g) (sV b) (sW W) B n (⟨o * 384 + h.val * 32 + d.val, by omega⟩ : Fin 1152) := by
  rw [rHead_apply o hs ho, rQkv_apply]
  unfold Cert.Spec.proj
  refine Finset.sum_congr rfl fun c _ => ?_
  rw [rXn_apply]

/-- The scores of the reference are the specification's. -/
theorem scores_apply (B : Fin 2048) (h : Fin 12) (n m : Fin 64) :
    rScores (rHead 0 slices_S2048x64x3x12x32_S2048x64x1x12x32_0_0_0_0_0 (rQkv (rXn x g b) W))
        (rHead 1 slices_S2048x64x3x12x32_S2048x64x1x12x32_0_0_1_0_0 (rQkv (rXn x g b) W)) bias (ix4 B h n m)
      = Cert.Spec.score (sX x) (sV g) (sV b) (sW W) (sBias bias) B h n m := by
  rw [rScores_apply]
  unfold Cert.Spec.score
  refine congrArg (· + bias (ix3 h n m)) (Finset.sum_congr rfl fun d _ => ?_)
  rw [head_apply x g b W 0 _ (by omega), head_apply x g b W 1 _ (by omega)]
  have hq : (⟨0 * 384 + h.val * 32 + d.val, by omega⟩ : Fin 1152) = Cert.Spec.qRow (Cert.Spec.lane h d) :=
    Fin.ext (by show 0 * 384 + h.val * 32 + d.val = h.val * 32 + d.val; omega)
  have hk : (⟨1 * 384 + h.val * 32 + d.val, by omega⟩ : Fin 1152) = Cert.Spec.kRow (Cert.Spec.lane h d) :=
    Fin.ext (by show 1 * 384 + h.val * 32 + d.val = 384 + (h.val * 32 + d.val); omega)
  rw [hq, hk]

/-- THE REFERENCE at (B, n, c) is the specification's result. -/
theorem refOut_apply (tbl : FVec Ideal S225x12 .f32) (idx : IVec S64x64 32) (B : Fin 2048) (n : Fin 64) (c : Fin 384) :
    refOut x g b W Wo bo tbl idx (ix3 B n c)
      = Cert.Spec.out (sX x) (sV g) (sV b) (sW W) (sWo Wo) (sV bo) (sBias (rBias tbl idx)) B n c := by
  unfold refOut
  rw [rOut_apply]
  unfold Cert.Spec.out
  refine congrArg (· + bo (ix1 c)) (Finset.sum_congr rfl fun e _ => ?_)
  refine congrArg (· * Wo (ix2 c e)) ?_
  obtain ⟨h, d, rfl⟩ : ∃ (h : Fin 12) (d : Fin 32), e = Cert.Spec.lane h d :=
    ⟨⟨e.val / 32, by omega⟩, ⟨e.val % 32, Nat.mod_lt _ (by omega)⟩, Fin.ext (by show e.val = e.val / 32 * 32 + e.val % 32; omega)⟩
  rw [rAttn_apply, Cert.Spec.attn_eq_softAvg]
  have hhead : Cert.Spec.headOf (Cert.Spec.lane h d) = h :=
    Fin.ext (by show (h.val * 32 + d.val) / 32 = h.val; omega)
  rw [hhead]
  unfold Cert.Spec.softAvg
  refine Finset.sum_congr rfl fun m _ => ?_
  rw [rProb_apply]
  simp only [scores_apply x g b W (rBias tbl idx)]
  rw [head_apply x g b W 2 _ (by omega)]
  have hv : (⟨2 * 384 + h.val * 32 + d.val, by omega⟩ : Fin 1152) = Cert.Spec.vRow (Cert.Spec.lane h d) :=
    Fin.ext (by show 2 * 384 + h.val * 32 + d.val = 768 + (h.val * 32 + d.val); omega)
  rw [hv]

end

end Cert.RefValue

end
-- ==== Proof.lean ====
/-
  The kernel computes, window by window, what the reference computes: layer norm over the channels, the query, key
  and value projections, the scaled scores plus the relative-position bias, the row softmax, the weighted values,
  and the output projection.  Over the extended reals both are the one function `Cert.Spec.out` of the argument
  arrays: the kernel because each grid point's block is that function of its 32 windows and the 64 blocks cover the
  array (`Cert.KerValue.run`), the reference because its host operations read entry by entry are that function
  (`Cert.RefValue.run`, `Cert.RefValue.refOut_apply`).  The two programs' bias tables are the same gather of the
  same table at the same indices.  The kernel's rounding to bf16 and the order and grouping of its sums play no part
  at this instance, and no finiteness of the inputs is used.
-/
import proofs.«430181_j71193377899400_3_alg».proof.Defs
import proofs.«430181_j71193377899400_3_alg».proof.Proof.Gen.Kernel
import proofs.«430181_j71193377899400_3_alg».proof.Proof.Gen.Kernel.Skeleton
import proofs.«430181_j71193377899400_3_alg».proof.Proof.Gen.Kernel.Launch
import proofs.«430181_j71193377899400_3_alg».proof.Proof.Gen.Kernel.Points
import proofs.«430181_j71193377899400_3_alg».proof.Proof.Gen.Kernel.Frame
import proofs.«430181_j71193377899400_3_alg».proof.Proof.Gen.KernelIdeal
import proofs.«430181_j71193377899400_3_alg».proof.Proof.Gen.KernelIdeal.Skeleton
import proofs.«430181_j71193377899400_3_alg».proof.Proof.Gen.KernelIdeal.Launch
import proofs.«430181_j71193377899400_3_alg».proof.Proof.Gen.KernelIdeal.Points
import proofs.«430181_j71193377899400_3_alg».proof.Proof.Gen.KernelIdeal.Frame
import proofs.«430181_j71193377899400_3_alg».proof.Proof.Gen.KernelIdeal.Value
import proofs.«430181_j71193377899400_3_alg».proof.Proof.Gen.ReferenceIdeal
import proofs.«430181_j71193377899400_3_alg».proof.Proof.Gen.Pre_finite_inputs
import proofs.«430181_j71193377899400_3_alg».proof.Proof.KerArray
import proofs.«430181_j71193377899400_3_alg».proof.Proof.RefRun
import proofs.«430181_j71193377899400_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.RefValue.run m ρ)

/-- The two programs gather the bias table the same way. -/
theorem bias_eq (tbl : FVec Ideal Cert.ReferenceIdeal.S225x12 .f32) (idx : IVec Cert.ReferenceIdeal.S64x64 32) :
    Cert.RefValue.rBias tbl idx = Cert.KerValue.kBias tbl idx := rfl

/-- From memories that agree on the arguments both programs end with the specification's result of those arguments. -/
theorem algebraic : Cert.algebraic_KernelIdeal_ReferenceIdeal := by
  intro m ρ m' ρ' _ hagree
  refine ⟨fun c => Cert.KerValue.Gk m c, Cert.KerValue.run m ρ, ?_⟩
  refine (θ_run Cert.ReferenceIdeal.defs _ _).mono (fun _ h c => ⟨(h c).1.trans ?_, (h c).2⟩)
    (Cert.RefValue.run m' ρ')
  obtain ⟨h0, h1, h2, h3, h4, h5, h6, h7⟩ := hagree c
  rw [h0, h1, h2, h3, h4, h5, h6, h7]
  funext i
  obtain ⟨B, n, cc, rfl⟩ : ∃ (B : Fin 2048) (n : Fin 64) (cc : Fin 384), i = ix3 B n cc := ⟨i 0, i 1, i 2, eq_ix3 i⟩
  rw [Cert.RefValue.refOut_apply, bias_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
